-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S10 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10 .f32 := Host.absf main_arg14
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg10 : FVec F S128 .f32) (main_arg11 : FVec F S128 .f32) (main_arg12 : FVec F S10x128 .f32) (main_arg13 : FVec F S10 .f32) (main_arg14 : FVec F S10 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg12
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_arg14 main_v48 main_v49 main_v50

def fn_part1 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S10x128 .f32) (main_arg13 : FVec F S10 .f32) (main_arg14 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S10x128 .f32) (main_arg13 : FVec F S10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000 : Shape := ⟨1, ![5000]⟩
abbrev S5000x1 : Shape := ⟨2, ![5000, 1]⟩
abbrev S100352x128 : Shape := ⟨2, ![100352, 128]⟩
abbrev S100352 : Shape := ⟨1, ![100352]⟩
abbrev S1x100352 : Shape := ⟨2, ![1, 100352]⟩
abbrev S512x128 : Shape := ⟨2, ![512, 128]⟩
abbrev S512x1 : Shape := ⟨2, ![512, 1]⟩
abbrev S2048x128 : Shape := ⟨2, ![2048, 128]⟩
abbrev S1x2048 : Shape := ⟨2, ![1, 2048]⟩
abbrev S512x2048 : Shape := ⟨2, ![512, 2048]⟩
abbrev S512 : Shape := ⟨1, ![512]⟩
abbrev S10x1 : Shape := ⟨2, ![10, 1]⟩
abbrev S1x10 : Shape := ⟨2, ![1, 10]⟩
abbrev S512x10 : Shape := ⟨2, ![512, 10]⟩
abbrev S128x10 : Shape := ⟨2, ![128, 10]⟩

abbrev nBuf : Space → Nat
  | .hbm => 105
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S10x128, .f32⟩
  | .hbm, ⟨13, _⟩ => ⟨S10, .f32⟩
  | .hbm, ⟨14, _⟩ => ⟨S10, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S100000x128, .f32⟩
  | .hbm, ⟨93, _⟩ => ⟨S_, .i32⟩
  | .hbm, ⟨94, _⟩ => ⟨S_, .f32⟩
  | .hbm, ⟨95, _⟩ => ⟨S100352x128, .f32⟩
  | .hbm, ⟨96, _⟩ => ⟨S_, .i32⟩
  | .hbm, ⟨97, _⟩ => ⟨S_, .i32⟩
  | .hbm, ⟨98, _⟩ => ⟨S100352, .i32⟩
  | .hbm, ⟨99, _⟩ => ⟨S1x100352, .i32⟩
  | .hbm, ⟨100, _⟩ => ⟨S512x128, .f32⟩
  | .hbm, ⟨101, _⟩ => ⟨S512x1, .f32⟩
  | .hbm, ⟨102, _⟩ => ⟨S10x1, .f32⟩
  | .hbm, ⟨103, _⟩ => ⟨S1x10, .f32⟩
  | .hbm, ⟨104, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S2048x128, .f32⟩
  | .local _ .vmem, ⟨25, _⟩ => ⟨S2048x128, .f32⟩
  | .local _ .vmem, ⟨26, _⟩ => ⟨S1x2048, .i32⟩
  | .local _ .vmem, ⟨27, _⟩ => ⟨S1x2048, .i32⟩
  | .local _ .vmem, ⟨28, _⟩ => ⟨S512x128, .f32⟩
  | .local _ .vmem, ⟨29, _⟩ => ⟨S512x1, .f32⟩
  | .local _ .vmem, ⟨30, _⟩ => ⟨S512x128, .f32⟩
  | .local _ .vmem, ⟨31, _⟩ => ⟨S512x1, .f32⟩
  | .local _ .vmem, ⟨32, _⟩ => ⟨S10x128, .f32⟩
  | .local _ .vmem, ⟨33, _⟩ => ⟨S10x1, .f32⟩
  | .local _ .vmem, ⟨34, _⟩ => ⟨S1x10, .f32⟩
  | .local _ .vmem, ⟨35, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_call0_v0 : Ref sig .tc := ⟨.hbm, 94, rfl⟩
abbrev main_v65 : Ref sig .tc := ⟨.hbm, 95, rfl⟩
abbrev main_c_12 : Ref sig .tc := ⟨.hbm, 96, rfl⟩
abbrev main_call1_v0 : Ref sig .tc := ⟨.hbm, 97, rfl⟩
abbrev main_v66 : Ref sig .tc := ⟨.hbm, 98, rfl⟩
abbrev main_v67 : Ref sig .tc := ⟨.hbm, 99, rfl⟩
abbrev main_v68_0 : Ref sig .tc := ⟨.hbm, 100, rfl⟩
abbrev main_v68_1 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc5_sem0_0 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![49], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S512x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S10x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  pads_S100000x128_S100352x128_03520_000 : S100000x128.Pads (![0, 0] : Fin 2 → Nat) ![352, 0] ![0, 0] S100352x128
  h_S_ : 0 < S_.numel
  pads_S100000_S100352_03520 : S100000.Pads (![0] : Fin 1 → Nat) ![352] ![0] S100352
  shapeCasts_S100352_S1x100352 : S100352.ShapeCasts S1x100352
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S512x2048_d0_w32 : S512x2048.Iotas .tc 32 [0]
  broadcasts_S1x2048_S512x2048 : S1x2048.Broadcasts S512x2048
  natLt_1_32 : 1 < 32
  shapeCasts_S512x128_S512x128 : S512x128.ShapeCasts S512x128
  shapeCasts_S512x1_S512x1 : S512x1.ShapeCasts S512x1
  reduces_S512x2048_S512 : S512x2048.Reduces [1] S512
  shapeCasts_S512_S512x1 : S512.ShapeCasts S512x1
  shapeCasts_S10_S10x1 : S10.ShapeCasts S10x1
  shapeCasts_S10_S1x10 : S10.ShapeCasts S1x10
  broadcasts_S512x1_S512x128 : S512x1.Broadcasts S512x128
  inb_S10x128_S10x128_0_0 : ∀ a, (![0, 0] : Fin 2 → Nat) a + S10x128.size a ≤ S10x128.size a
  h_S10x128 : 0 < S10x128.numel
  reduces_S10x128_S10 : S10x128.Reduces [1] S10
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x128 : S10x1.Broadcasts S10x128
  transposes_S10x128_p1_0_S128x10 : S10x128.Transposes [1, 0] S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S512x2048_S2048x128_S512x128_1_0_0_1_n_n_wf : DotDims.WF S512x2048 S2048x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S100352x128.size a
  hwx4_0 : ∀ i : grid4.Coords, EltTy.bits .f32 = 32 ∨ (Rect.block (s := S100352x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x100352.size a
  hwx4_1 : ∀ i : grid4.Coords, EltTy.bits .i32 = 32 ∨ (Rect.block (s := S1x100352) S1x2048.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S512x128.size a
  hwx4_2 : ∀ i : grid4.Coords, EltTy.bits .f32 = 32 ∨ (Rect.block (s := S512x128) S512x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S512x1.size a
  hwx4_3 : ∀ i : grid4.Coords, EltTy.bits .f32 = 32 ∨ (Rect.block (s := S512x1) S512x1.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S512x1.size a
  hwx5_1 : ∀ i : grid5.Coords, EltTy.bits .f32 = 32 ∨ (Rect.block (s := S512x1) S512x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10x128.size a ≤ S10x128.size a
  hwx5_2 : ∀ i : grid5.Coords, EltTy.bits .f32 = 32 ∨ (Rect.block (s := S10x128) S10x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S10x1.size a ≤ S10x1.size a
  hwx5_3 : ∀ i : grid5.Coords, EltTy.bits .f32 = 32 ∨ (Rect.block (s := S10x1) S10x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x10.size a ≤ S512x10.size a
  hwx5_5 : ∀ i : grid5.Coords, EltTy.bits .f32 = 32 ∨ (Rect.block (s := S512x10) S512x10.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S512x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S512x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68_0) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v68_1) S512x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S10x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S10x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S512x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S10x1 : Shape := ⟨2, ![10, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 273
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S10x128, .f32⟩
  | 13 => ⟨S10, .f32⟩
  | 14 => ⟨S10, .f32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000, .f32⟩
  | 71 => ⟨S100000x1, .f32⟩
  | 72 => ⟨S_, .f32⟩
  | 73 => ⟨S100000x1, .f32⟩
  | 74 => ⟨S100000x1, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S_, .f32⟩
  | 87 => ⟨S100000x1, .f32⟩
  | 88 => ⟨S100000x1, .f32⟩
  | 89 => ⟨S100000x1, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .i1⟩
  | 104 => ⟨S_, .f32⟩
  | 105 => ⟨S_, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x128, .f32⟩
  | 114 => ⟨S_, .f32⟩
  | 115 => ⟨S1600000, .f32⟩
  | 116 => ⟨S_, .f32⟩
  | 117 => ⟨S100000, .f32⟩
  | 118 => ⟨S1600000x1, .i32⟩
  | 119 => ⟨S100000, .f32⟩
  | 120 => ⟨S_, .f32⟩
  | 121 => ⟨S100000, .f32⟩
  | 122 => ⟨S100000, .f32⟩
  | 123 => ⟨S100000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000, .f32⟩
  | 32 => ⟨S100000x1, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000, .f32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S_, .f32⟩
  | 57 => ⟨S100000x1, .f32⟩
  | 58 => ⟨S100000x1, .f32⟩
  | 59 => ⟨S100000x1, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .i1⟩
  | 71 => ⟨S_, .f32⟩
  | 72 => ⟨S100000x128, .f32⟩
  | 73 => ⟨S100000x128, .i1⟩
  | 74 => ⟨S_, .f32⟩
  | 75 => ⟨S_, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x1, .f32⟩
  | 94 => ⟨S_, .f32⟩
  | 95 => ⟨S100000x128, .f32⟩
  | 96 => ⟨S100000x128, .f32⟩
  | 97 => ⟨S_, .f32⟩
  | 98 => ⟨S100000x1, .f32⟩
  | 99 => ⟨S100000x1, .f32⟩
  | 100 => ⟨S100000x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S_, .f32⟩
  | 115 => ⟨S512x128, .f32⟩
  | 116 => ⟨S100000x1, .i32⟩
  | 117 => ⟨S512x128, .f32⟩
  | 118 => ⟨S_, .f32⟩
  | 119 => ⟨S100000, .f32⟩
  | 120 => ⟨S_, .f32⟩
  | 121 => ⟨S512, .f32⟩
  | 122 => ⟨S100000x1, .i32⟩
  | 123 => ⟨S512, .f32⟩
  | 124 => ⟨S_, .f32⟩
  | 125 => ⟨S512, .f32⟩
  | 126 => ⟨S512, .f32⟩
  | 127 => ⟨S512x1, .f32⟩
  | _ => ⟨S100000x128, .f32⟩

abbrev hbmTy0_2 (i : Nat) : BufTy := match i % 128 with
  | 0 => ⟨S512x128, .f32⟩
  | 1 => ⟨S512x128, .f32⟩
  | 2 => ⟨S10x1, .f32⟩
  | 3 => ⟨S10x128, .f32⟩
  | 4 => ⟨S10x128, .f32⟩
  | 5 => ⟨S10x128, .f32⟩
  | 6 => ⟨S_, .f32⟩
  | 7 => ⟨S10, .f32⟩
  | 8 => ⟨S10x1, .f32⟩
  | 9 => ⟨S10x1, .f32⟩
  | 10 => ⟨S10x128, .f32⟩
  | 11 => ⟨S10x128, .f32⟩
  | 12 => ⟨S128x10, .f32⟩
  | 13 => ⟨S512x10, .f32⟩
  | 14 => ⟨S1x10, .f32⟩
  | 15 => ⟨S512x10, .f32⟩
  | 16 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_cst_0 : Ref sig .tc := ⟨.hbm, 101, rfl⟩
abbrev main_call0_v2 : Ref sig .tc := ⟨.hbm, 102, rfl⟩
abbrev main_call0_v3 : Ref sig .tc := ⟨.hbm, 103, rfl⟩
abbrev main_call0_cst_1 : Ref sig .tc := ⟨.hbm, 104, rfl⟩
abbrev main_call0_call0_v0 : Ref sig .tc := ⟨.hbm, 105, rfl⟩
abbrev main_call0_call0_v1 : Ref sig .tc := ⟨.hbm, 106, rfl⟩
abbrev main_call0_v4 : Ref sig .tc := ⟨.hbm, 107, rfl⟩
abbrev main_call0_v5 : Ref sig .tc := ⟨.hbm, 108, rfl⟩
abbrev main_call0_cst_2 : Ref sig .tc := ⟨.hbm, 109, rfl⟩
abbrev main_call0_v6 : Ref sig .tc := ⟨.hbm, 110, rfl⟩
abbrev main_call0_v7 : Ref sig .tc := ⟨.hbm, 111, rfl⟩
abbrev main_v68 : Ref sig .tc := ⟨.hbm, 112, rfl⟩
abbrev main_v69 : Ref sig .tc := ⟨.hbm, 113, rfl⟩
abbrev main_cst_13 : Ref sig .tc := ⟨.hbm, 114, rfl⟩
abbrev main_v70 : Ref sig .tc := ⟨.hbm, 115, rfl⟩
abbrev main_cst_14 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_15 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_16 : Ref sig .tc := ⟨.hbm, 124, rfl⟩
abbrev main_v77 : Ref sig .tc := ⟨.hbm, 125, rfl⟩
abbrev main_v78 : Ref sig .tc := ⟨.hbm, 126, rfl⟩
abbrev main_c_17 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_18 : Ref sig .tc := ⟨.hbm, 133, rfl⟩
abbrev main_v84 : Ref sig .tc := ⟨.hbm, 134, rfl⟩
abbrev main_v85 : Ref sig .tc := ⟨.hbm, 135, rfl⟩
abbrev main_c_19 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_20 : Ref sig .tc := ⟨.hbm, 144, rfl⟩
abbrev main_v93 : Ref sig .tc := ⟨.hbm, 145, rfl⟩
abbrev main_v94 : Ref sig .tc := ⟨.hbm, 146, rfl⟩
abbrev main_c_21 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_22 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_23 : Ref sig .tc := ⟨.hbm, 167, rfl⟩
abbrev main_v113 : Ref sig .tc := ⟨.hbm, 168, rfl⟩
abbrev main_v114 : Ref sig .tc := ⟨.hbm, 169, rfl⟩
abbrev main_cst_24 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_25 : Ref sig .tc := ⟨.hbm, 176, rfl⟩
abbrev main_v120 : Ref sig .tc := ⟨.hbm, 177, rfl⟩
abbrev main_v121 : Ref sig .tc := ⟨.hbm, 178, rfl⟩
abbrev main_cst_26 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_27 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_call1_cst : Ref sig .tc := ⟨.hbm, 196, rfl⟩
abbrev main_call1_v0 : Ref sig .tc := ⟨.hbm, 197, rfl⟩
abbrev main_call1_v1 : Ref sig .tc := ⟨.hbm, 198, rfl⟩
abbrev main_call1_cst_0 : Ref sig .tc := ⟨.hbm, 199, rfl⟩
abbrev main_call1_v2 : Ref sig .tc := ⟨.hbm, 200, rfl⟩
abbrev main_call1_v3 : Ref sig .tc := ⟨.hbm, 201, rfl⟩
abbrev main_call1_cst_1 : Ref sig .tc := ⟨.hbm, 202, rfl⟩
abbrev main_call1_call0_v0 : Ref sig .tc := ⟨.hbm, 203, rfl⟩
abbrev main_call1_call0_v1 : Ref sig .tc := ⟨.hbm, 204, rfl⟩
abbrev main_call1_v4 : Ref sig .tc := ⟨.hbm, 205, rfl⟩
abbrev main_call1_v5 : Ref sig .tc := ⟨.hbm, 206, rfl⟩
abbrev main_call1_cst_2 : Ref sig .tc := ⟨.hbm, 207, rfl⟩
abbrev main_call1_v6 : Ref sig .tc := ⟨.hbm, 208, rfl⟩
abbrev main_call1_v7 : Ref sig .tc := ⟨.hbm, 209, rfl⟩
abbrev main_v137 : Ref sig .tc := ⟨.hbm, 210, rfl⟩
abbrev main_cst_28 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_29 : Ref sig .tc := ⟨.hbm, 215, rfl⟩
abbrev main_v141 : Ref sig .tc := ⟨.hbm, 216, rfl⟩
abbrev main_v142 : Ref sig .tc := ⟨.hbm, 217, rfl⟩
abbrev main_cst_30 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_cst_31 : Ref sig .tc := ⟨.hbm, 222, rfl⟩
abbrev main_v146 : Ref sig .tc := ⟨.hbm, 223, rfl⟩
abbrev main_v147 : Ref sig .tc := ⟨.hbm, 224, rfl⟩
abbrev main_cst_32 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_cst_33 : Ref sig .tc := ⟨.hbm, 231, rfl⟩
abbrev main_v153 : Ref sig .tc := ⟨.hbm, 232, rfl⟩
abbrev main_v154 : Ref sig .tc := ⟨.hbm, 233, rfl⟩
abbrev main_cst_34 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_cst_35 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_cst_36 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_cst_37 : Ref sig .tc := ⟨.hbm, 246, rfl⟩
abbrev main_v164 : Ref sig .tc := ⟨.hbm, 247, rfl⟩
abbrev main_cst_38 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_39 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_call2_v0 : Ref sig .tc := ⟨.hbm, 261, rfl⟩
abbrev main_call2_cst : Ref sig .tc := ⟨.hbm, 262, rfl⟩
abbrev main_call2_v1 : Ref sig .tc := ⟨.hbm, 263, rfl⟩
abbrev main_call2_v2 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S10x1_0 : S10.BroadcastsInDim S10x1 (![0] : Fin 1 → Fin S10x1.rank)
  bcast_S10x1_S10x128_0_1 : S10x1.BroadcastsInDim S10x128 (![0, 1] : Fin 2 → Fin S10x128.rank)
  reducesTo_S10x128_S10_d1 : S10x128.ReducesTo [1] S10
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  The reference's stages as functions of arrays, written with the reference's own host operations: degree and its inverse
  root, the normalised edge coefficient, one graph convolution, the row shift and scale, layer normalisation over a row of
  128, ELU through expm1, the B-cos blend, the segment sums that pool nodes into graphs, and the weight-normalised classifier.
  The whole reference is their composition (`out`).
-/
import proofs.«413006_j28346784153649_1_alg».proof.ReferenceIdeal
import Idealize.ShloMosaic.PureOps.Ideal

noncomputable section

namespace Cert.ReferenceIdeal.Spec

open Idealize.ShloMosaic Idealize.ShloMosaic.TcCoe
open Cert.ReferenceIdeal Cert.ReferenceIdeal.Facts₀ Cert.ReferenceIdeal.Facts

variable {F : FTy → Type} [FloatOps F] [Facts]

/-- A float array of shape `S`. -/
abbrev FA (F : FTy → Type) (S : Shape) : Type := (⟨S, .f32⟩ : BufTy).Contents (Elt F)
/-- A 32-bit integer array of shape `S`. -/
abbrev IA (F : FTy → Type) (S : Shape) : Type := (⟨S, .i32⟩ : BufTy).Contents (Elt F)

/-- An edge endpoint as a gather index: a negative entry is shifted up by the node count, then the column form. -/
def wrapIdx (i : IA F S1600000) : IA F S1600000x1 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- In-degree plus the self loop. -/
def deg1 (dst : IA F S1600000) : FA F S100000 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The inverse square root of the degree. -/
def dinv (dst : IA F S1600000) : FA F S100000 := Host.rsqrt (deg1 dst)

/-- Per edge, the product of the two endpoints' inverse roots, as a column. -/
def coef (src dst : IA F S1600000) : FA F S1600000x1 :=
  broadcastInDim S1600000x1 ![0] bcast_S1600000_S1600000x1_0
    (mulf (Host.gather gather_S100000_S1600000x1_S1600000_n_0_n_n_0_1_1 (dinv dst) (wrapIdx src))
      (Host.gather gather_S100000_S1600000x1_S1600000_n_0_n_n_0_1_1 (dinv dst) (wrapIdx dst)))

/-- Per node, the self-loop weight, as a column. -/
def selfc (dst : IA F S1600000) : FA F S100000x1 :=
  broadcastInDim S100000x1 ![0] bcast_S100000_S100000x1_0 (mulf (dinv dst) (dinv dst))

/-- The aggregation of a convolution from ready-made coefficients: gather rows by source, scale, scatter-add by
    destination, add the self-loop term. -/
def convWith (xw : FA F S100000x128) (src dst : IA F S1600000) (cf : FA F S1600000x1) (sc : FA F S100000x1) :
    FA F S100000x128 :=
  addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf (Host.gather gather_S100000x128_S1600000x1_S1600000x128_1_0_n_n_0_1_1128 xw (wrapIdx src))
        (broadcastInDim S1600000x128 ![0, 1] bcast_S1600000x1_S1600000x128_0_1 cf)))
    (mulf (broadcastInDim S100000x128 ![0, 1] bcast_S100000x1_S100000x128_0_1 sc) xw)

/-- One symmetric-normalised graph convolution of already-projected features. -/
def conv (xw : FA F S100000x128) (src dst : IA F S1600000) : FA F S100000x128 :=
  convWith xw src dst (coef src dst) (selfc dst)

/-- A length-128 vector as a 1×128 row. -/
def rowOf (b : FA F S128) : FA F S1x128 := broadcastInDim S1x128 ![1] bcast_S128_S1x128_1 b

/-- A 1×128 row repeated down the nodes. -/
def rows (b2 : FA F S1x128) : FA F S100000x128 := broadcastInDim S100000x128 ![0, 1] bcast_S1x128_S100000x128_0_1 b2

/-- A per-node column repeated across the 128 features. -/
def cols (v : FA F S100000x1) : FA F S100000x128 := broadcastInDim S100000x128 ![0, 1] bcast_S100000x1_S100000x128_0_1 v

/-- The mean of each row of 128. -/
def rowMean (x : FA F S100000x128) : FA F S100000x1 :=
  Host.divf (broadcastInDim S100000x1 ![0] bcast_S100000_S100000x1_0
      (Host.reduceAdd x (constant S_ .f32 0x00000000#32) reducesTo_S100000x128_S100000_d1 h_S_))
    (broadcastInDim S100000x1 ![] bcast_S_S100000x1 (constant S_ .f32 0x43000000#32))

/-- Layer normalisation over each row, with scale row `w2` and shift row `b2`. -/
def lnorm (x : FA F S100000x128) (w2 b2 : FA F S1x128) : FA F S100000x128 :=
  addf (mulf (mulf (subf x (cols (rowMean x)))
      (cols (Host.rsqrt (addf (rowMean (mulf (subf x (cols (rowMean x))) (subf x (cols (rowMean x)))))
        (broadcastInDim S100000x1 ![] bcast_S_S100000x1 (constant S_ .f32 0x3727C5AC#32))))))
    (rows w2)) (rows b2)

/-- The all-zero node-feature array. -/
def zeros : FA F S100000x128 := broadcastInDim S100000x128 ![] bcast_S_S100000x128 (constant S_ .f32 0x00000000#32)

/-- ELU: `x` where positive, else `1 · expm1 x` (the argument of expm1 is zeroed where `x` is positive). -/
def elu (x : FA F S100000x128) : FA F S100000x128 :=
  select (cmpf .ogt x zeros) x
    (mulf (broadcastInDim S100000x128 ![] bcast_S_S100000x128 (constant S_ .f32 0x3F800000#32))
      (Host.expm1 (select (cmpf .ogt x zeros) zeros x)))

/-- One layer after the projection: convolution, bias, layer norm, ELU. -/
def layer (xw : FA F S100000x128) (src dst : IA F S1600000) (b2 w2 lb2 : FA F S1x128) : FA F S100000x128 :=
  elu (lnorm (addf (conv xw src dst) (rows b2)) w2 lb2)

/-- The row-normalised, temperature-scaled features `1.5 · h / (sqrt (Σ h² + ε) + ε)`. -/
def xs (h : FA F S100000x128) : FA F S100000x128 :=
  Host.divf (mulf (broadcastInDim S100000x128 ![] bcast_S_S100000x128 (constant S_ .f32 0x3FC00000#32)) h)
    (cols (addf (Host.sqrt (addf (broadcastInDim S100000x1 ![0] bcast_S100000_S100000x1_0
        (Host.reduceAdd (mulf h h) (constant S_ .f32 0x00000000#32) reducesTo_S100000x128_S100000_d1 h_S_))
        (broadcastInDim S100000x1 ![] bcast_S_S100000x1 (constant S_ .f32 0x358637BD#32))))
      (broadcastInDim S100000x1 ![] bcast_S_S100000x1 (constant S_ .f32 0x358637BD#32))))

/-- The B-cos blend `0.6 · h + 0.4 · (xs · (|xs| + ε) ^ 0)`. -/
def blend (h : FA F S100000x128) : FA F S100000x128 :=
  addf (mulf (broadcastInDim S100000x128 ![] bcast_S_S100000x128 (constant S_ .f32 0x3F19999A#32)) h)
    (mulf (broadcastInDim S100000x128 ![] bcast_S_S100000x128 (constant S_ .f32 0x3ECCCCCD#32))
      (mulf (xs h) (Host.powf (addf (Host.absf (xs h))
          (broadcastInDim S100000x128 ![] bcast_S_S100000x128 (constant S_ .f32 0x358637BD#32)))
        zeros)))

/-- The plain blend `0.6 · h + 0.4 · xs` (what the blend is once the zeroth power is read as one). -/
def blend1 (h : FA F S100000x128) : FA F S100000x128 :=
  addf (mulf (broadcastInDim S100000x128 ![] bcast_S_S100000x128 (constant S_ .f32 0x3F19999A#32)) h)
    (mulf (broadcastInDim S100000x128 ![] bcast_S_S100000x128 (constant S_ .f32 0x3ECCCCCD#32)) (xs h))

/-- Per graph, the sum of its nodes' feature rows. -/
def poolSums (hb : FA F S100000x128) (batch : IA F S100000) : FA F S512x128 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) hb

/-- Per graph, the number of its nodes. -/
def poolCnts (batch : IA F S100000) : FA F S512 :=
  Host.scatterAdd scatter_S512_S100000x1_S100000_n_0_0_1
    (broadcastInDim S512 ![] bcast_S_S512 (constant S_ .f32 0x00000000#32))
    (broadcastInDim S100000x1 ![0] bcast_S100000_S100000x1_0 batch)
    (broadcastInDim S100000 ![] bcast_S_S100000 (constant S_ .f32 0x3F800000#32))

/-- The graph means: sums over counts clamped below at one. -/
def means (sums : FA F S512x128) (cnts : FA F S512) : FA F S512x128 :=
  Host.divf sums (broadcastInDim S512x128 ![0, 1] bcast_S512x1_S512x128_0_1
    (broadcastInDim S512x1 ![0] bcast_S512_S512x1_0
      (maximumf cnts (broadcastInDim S512 ![] bcast_S_S512 (constant S_ .f32 0x3F800000#32)))))

/-- The weight-normalised class vectors `g · v / ‖v‖`, row by row. -/
def wnorm (cv : FA F S10x128) (cg : FA F S10) : FA F S10x128 :=
  Host.divf (mulf (broadcastInDim S10x128 ![0, 1] bcast_S10x1_S10x128_0_1 (broadcastInDim S10x1 ![0] bcast_S10_S10x1_0 cg)) cv)
    (broadcastInDim S10x128 ![0, 1] bcast_S10x1_S10x128_0_1
      (Host.sqrt (broadcastInDim S10x1 ![0] bcast_S10_S10x1_0
        (Host.reduceAdd (mulf cv cv) (constant S_ .f32 0x00000000#32) reducesTo_S10x128_S10_d1 h_S_))))

/-- The logits: graph means against the transposed normalised class vectors, plus the class bias. -/
def classify (g : FA F S512x128) (cv : FA F S10x128) (cg cb : FA F S10) : FA F S512x10 :=
  addf (Host.dotGeneral dot_S512x128_S128x10_S512x10_1_0_0_1_n_n none g
      (transpose S128x10 [1, 0] (wnorm cv cg) transposes_S10x128_S128x10_1_0))
    (broadcastInDim S512x10 ![0, 1] bcast_S1x10_S512x10_0_1 (broadcastInDim S1x10 ![1] bcast_S10_S1x10_1 cb))

/-- The projection `x · W`. -/
def proj (x : FA F S100000x128) (W : FA F S128x128) : FA F S100000x128 :=
  Host.dotGeneral dot_S100000x128_S128x128_S100000x128_1_0_0_1_n_n none x W

/-- The whole reference: two layers, the blend, the pooling, the classifier. -/
def out (x : FA F S100000x128) (src dst : IA F S1600000) (batch : IA F S100000) (W1 : FA F S128x128) (b1 w1 lb1 : FA F S128)
    (W2 : FA F S128x128) (b2 w2 lb2 : FA F S128) (cv : FA F S10x128) (cg cb : FA F S10) : FA F S512x10 :=
  classify (means (poolSums (blend (layer (proj (layer (proj x W1) src dst (rowOf b1) (rowOf w1) (rowOf lb1)) W2)
      src dst (rowOf b2) (rowOf w2) (rowOf lb2))) batch) (poolCnts batch)) cv cg cb

end Cert.ReferenceIdeal.Spec

end
-- ==== Proof.KReg0.lean ====
/- The two projection kernels: each block of 5000 rows is that block of x times the whole weight matrix, so the array the
   region leaves is the matrix product, entry by entry the sum over the 128 contracted columns — the host's product. -/
import proofs.«413006_j28346784153649_1_alg».proof.Proof.Gen.KernelIdeal.Frame
import proofs.«413006_j28346784153649_1_alg».proof.Proof.Gen.ReferenceIdeal
import proofs.«413006_j28346784153649_1_alg».proof.Proof.Spec

import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.ValueIdx Idealize.ShloMosaic.StackMember
open Idealize.ShloMosaic.Pipeline (Dat Cfg Window)
open Cert.KernelIdeal Cert.KernelIdeal.Gen
open Cert.ReferenceIdeal (Spec.proj Spec.rows Spec.lnorm Spec.elu Spec.blend Spec.poolSums Spec.poolCnts Spec.means Spec.classify Spec.convWith Spec.coef Spec.selfc Spec.rowOf Spec.out Spec.layer Spec.conv)

/-- The zero offset of a whole-buffer access. -/
theorem hz2 : (![0, 0] : Fin 2 → Nat) = fun _ => 0 := funext fun a => by fin_cases a <;> rfl

/-- Both programs' dimension numbers are the plain matrix product's: rows times the contracted axis, by the contracted
    axis times columns. -/
theorem dotK_eq : dot_S5000x128_S128x128_S5000x128_1_0_0_1_n_n = DotDims.plain 5000 128 128 := rfl
theorem dotR_eq : Cert.ReferenceIdeal.dot_S100000x128_S128x128_S100000x128_1_0_0_1_n_n = DotDims.plain 100000 128 128 := rfl

/-- The body's product of two loaded blocks at (p, q): the two roundings to bf16 are the identity at the ideal values and
    the accumulator is zero, so it is the sum over the 128 contracted columns. -/
theorem pay0_apply (v0 : Vec Ideal S5000x128 .f32) (v2 : Vec Ideal S128x128 .f32) (p : Fin 5000) (q : Fin 128) :
    k0_pay1 (F := Ideal) v0 v2 (ix2 p q) = ∑ k : Fin 128, (v0 (ix2 p k) : EReal) * (v2 (ix2 k q) : EReal) := by
  unfold k0_pay1
  rw [matmul_zero_eq_dotGeneral, dotK_eq, dotGeneral_plain_apply]
  rfl

/-- The host's product at (r, q): the same sum over the whole arrays. -/
theorem proj_apply (x : Cert.ReferenceIdeal.Spec.FA Ideal Cert.ReferenceIdeal.S100000x128) (W : Cert.ReferenceIdeal.Spec.FA Ideal Cert.ReferenceIdeal.S128x128) (r : Fin 100000) (q : Fin 128) :
    Cert.ReferenceIdeal.Spec.proj x W (ix2 r q) = ∑ k : Fin 128, (x (ix2 r k) : EReal) * (W (ix2 k q) : EReal) := by
  unfold Cert.ReferenceIdeal.Spec.proj
  rw [dotR_eq, dotGeneral_plain_apply]

/-! ## Region 0: the first projection -/

/-- A block of 5000 rows of `x` times the whole of `W` is that block of rows of the product: at local (y₀, y₁) of block
    `n`, entry (5000 n + y₀, y₁). -/
theorem block0_eq (x : Cert.ReferenceIdeal.Spec.FA Ideal Cert.ReferenceIdeal.S100000x128) (W : Cert.ReferenceIdeal.Spec.FA Ideal Cert.ReferenceIdeal.S128x128)
    (bx : Vec Ideal S5000x128 .f32) (bW : Vec Ideal S128x128 .f32) (n : Nat)
    (hbx : ∀ (y : S5000x128.Idx) (i : S100000x128.Idx), (i 0).val = n * 5000 + (y 0).val → (i 1).val = (y 1).val → bx y = x i)
    (hbW : ∀ y : S128x128.Idx, bW y = W y)
    (y : S5000x128.Idx) (i : S100000x128.Idx) (h0 : (i 0).val = n * 5000 + (y 0).val) (h1 : (i 1).val = (y 1).val) :
    k0_pay1 (F := Ideal) bx bW y = Cert.ReferenceIdeal.Spec.proj x W i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext h1
  subst hq
  rw [pay0_apply, proj_apply]
  refine Finset.sum_congr rfl fun k _ => ?_
  rw [hbx (ix2 p k) (ix2 r k) h0 rfl, hbW]

/-- The printed index maps, decided over the 20 grid points: the blocks of `x` and of the result move down the rows with
    the point, the block of `W` stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the TensorCore's buffer contents when a region is entered
variable (V : (c : Dev nD) → (b : Ref sig .tc) → Buf (Elt Ideal) ((c : Thread nD τ).loc b))

/-- What point `t` writes back is block `t` of the product of the two argument arrays. -/
theorem flushed0_eq (c : Dev nD) (t : Fin cfg0.N) :
    (dat0 (F := Ideal) V c).flushed 2 t = ((cfg0.win 2).blk t).view.read (Elt Ideal) (Cert.ReferenceIdeal.Spec.proj (V c main_arg0) (V c main_arg4)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx_facts0 t
  funext j
  show k0_pay1 (iblk0 V c 0 t) (iblk0 V c 1 t) j = Cert.ReferenceIdeal.Spec.proj (V c main_arg0) (V c main_arg4) (((cfg0.win 2).blk t).view.emb j)
  refine block0_eq _ _ _ _ t.val ?_ ?_ j _ ?_ ?_
  · intro y i h0 h1
    show V c main_arg0 (((cfg0.win 0).blk t).view.emb y) = V c main_arg0 i
    congr 1
    funext a; apply Fin.ext
    match a with
    | ⟨0, _⟩ => show win0_0.index t (0 : Fin 2) * 5000 + 1 * (y 0).val = (i 0).val; rw [e0, h0]; omega
    | ⟨1, _⟩ => show win0_0.index t (1 : Fin 2) * 128 + 1 * (y 1).val = (i 1).val; rw [e1, h1]; omega
  · intro y
    show V c main_arg4 (((cfg0.win 1).blk t).view.emb y) = V c main_arg4 y
    congr 1
    funext a; apply Fin.ext
    match a with
    | ⟨0, _⟩ => show win0_1.index t (0 : Fin 2) * 128 + 1 * (y 0).val = (y 0).val; rw [e2]; omega
    | ⟨1, _⟩ => show win0_1.index t (1 : Fin 2) * 128 + 1 * (y 1).val = (y 1).val; rw [e3]; omega
  · show win0_2.index t (0 : Fin 2) * 5000 + 1 * (j 0).val = t.val * 5000 + (j 0).val; rw [e4]; omega
  · show win0_2.index t (1 : Fin 2) * 128 + 1 * (j 1).val = (j 1).val; rw [e5]; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v25).slice (win0_2.rect t)).set ↔ _
  rw [View.set_slice_whole, Rect.mem_set_unit]
  exact Iff.rfl

/-- Row `r` of the result is written back by point `r / 5000`: the 20 blocks of 5000 rows tile the 100000 rows. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- Region 0 leaves `x · W1` in its output array. -/
theorem reg0_out (c : Dev nD) :
    (dat0 (F := Ideal) V c).arrAt 2 cfg0.N = Cert.ReferenceIdeal.Spec.proj (V c main_arg0) (V c main_arg4) :=
  (dat0 (F := Ideal) V c).arrAt_eq_of_cover 2 _ (fun t _ => flushed0_eq V c t) cover0

/-! ## Region 2: the second projection, the same kernel on the first layer's output -/

/-- The second kernel's product of two loaded blocks at (p, q): its reshape of the block to its own shape is the
    identity, and the rest is the first kernel's. -/
theorem pay2_apply (v0 : Vec Ideal S5000x128 .f32) (v3 : Vec Ideal S128x128 .f32) (p : Fin 5000) (q : Fin 128) :
    k2_pay1 (F := Ideal) v0 v3 (ix2 p q) = ∑ k : Fin 128, (v0 (ix2 p k) : EReal) * (v3 (ix2 k q) : EReal) := by
  unfold k2_pay1
  rw [shapeCast_self, matmul_zero_eq_dotGeneral, dotK_eq, dotGeneral_plain_apply]
  rfl

/-- A block of 5000 rows of `x` times the whole of `W` is that block of rows of the product: at local (y₀, y₁) of block
    `n`, entry (5000 n + y₀, y₁). -/
theorem block2_eq (x : Cert.ReferenceIdeal.Spec.FA Ideal Cert.ReferenceIdeal.S100000x128) (W : Cert.ReferenceIdeal.Spec.FA Ideal Cert.ReferenceIdeal.S128x128)
    (bx : Vec Ideal S5000x128 .f32) (bW : Vec Ideal S128x128 .f32) (n : Nat)
    (hbx : ∀ (y : S5000x128.Idx) (i : S100000x128.Idx), (i 0).val = n * 5000 + (y 0).val → (i 1).val = (y 1).val → bx y = x i)
    (hbW : ∀ y : S128x128.Idx, bW y = W y)
    (y : S5000x128.Idx) (i : S100000x128.Idx) (h0 : (i 0).val = n * 5000 + (y 0).val) (h1 : (i 1).val = (y 1).val) :
    k2_pay1 (F := Ideal) bx bW y = Cert.ReferenceIdeal.Spec.proj x W i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext h1
  subst hq
  rw [pay2_apply, proj_apply]
  refine Finset.sum_congr rfl fun k _ => ?_
  rw [hbx (ix2 p k) (ix2 r k) h0 rfl, hbW]

/-- The printed index maps, decided over the 20 grid points: the blocks of `x` and of the result move down the rows with
    the point, the block of `W` stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two argument arrays. -/
theorem flushed2_eq (c : Dev nD) (t : Fin cfg2.N) :
    (dat2 (F := Ideal) V c).flushed 2 t = ((cfg2.win 2).blk t).view.read (Elt Ideal) (Cert.ReferenceIdeal.Spec.proj (V c main_v44) (V c main_arg8)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts2 t
  funext j
  show k2_pay1 (iblk2 V c 0 t) (iblk2 V c 1 t) j = Cert.ReferenceIdeal.Spec.proj (V c main_v44) (V c main_arg8) (((cfg2.win 2).blk t).view.emb j)
  refine block2_eq _ _ _ _ t.val ?_ ?_ j _ ?_ ?_
  · intro y i h0 h1
    show V c main_v44 (((cfg2.win 0).blk t).view.emb y) = V c main_v44 i
    congr 1
    funext a; apply Fin.ext
    match a with
    | ⟨0, _⟩ => show win2_0.index t (0 : Fin 2) * 5000 + 1 * (y 0).val = (i 0).val; rw [e0, h0]; omega
    | ⟨1, _⟩ => show win2_0.index t (1 : Fin 2) * 128 + 1 * (y 1).val = (i 1).val; rw [e1, h1]; omega
  · intro y
    show V c main_arg8 (((cfg2.win 1).blk t).view.emb y) = V c main_arg8 y
    congr 1
    funext a; apply Fin.ext
    match a with
    | ⟨0, _⟩ => show win2_1.index t (0 : Fin 2) * 128 + 1 * (y 0).val = (y 0).val; rw [e2]; omega
    | ⟨1, _⟩ => show win2_1.index t (1 : Fin 2) * 128 + 1 * (y 1).val = (y 1).val; rw [e3]; omega
  · show win2_2.index t (0 : Fin 2) * 5000 + 1 * (j 0).val = t.val * 5000 + (j 0).val; rw [e4]; omega
  · show win2_2.index t (1 : Fin 2) * 128 + 1 * (j 1).val = (j 1).val; rw [e5]; omega

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Row `r` of the result is written back by point `r / 5000`: the 20 blocks of 5000 rows tile the 100000 rows. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- Region 2 leaves `h1 · W2` in its output array. -/
theorem reg2_out (c : Dev nD) :
    (dat2 (F := Ideal) V c).arrAt 2 cfg2.N = Cert.ReferenceIdeal.Spec.proj (V c main_v44) (V c main_arg8) :=
  (dat2 (F := Ideal) V c).arrAt_eq_of_cover 2 _ (fun t _ => flushed2_eq V c t) cover2

end Cert.KernelIdeal.Val

end
-- ==== Proof.KReg1.lean ====
/- The first fused kernel: bias, layer norm over each row of 128, ELU. -/
import proofs.«413006_j28346784153649_1_alg».proof.Proof.Gen.KernelIdeal.Frame
import proofs.«413006_j28346784153649_1_alg».proof.Proof.Gen.ReferenceIdeal
import proofs.«413006_j28346784153649_1_alg».proof.Proof.Spec

import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open Cert.ReferenceIdeal (Spec.proj Spec.rows Spec.lnorm Spec.elu Spec.blend Spec.poolSums Spec.poolCnts Spec.means Spec.classify Spec.convWith Spec.coef Spec.selfc Spec.rowOf Spec.out Spec.layer Spec.conv)

-- the TensorCore's buffer contents when a region is entered
variable (V : (c : Dev nD) → (b : Ref sig .tc) → Buf (Elt Ideal) ((c : Thread nD τ).loc b))

/-! # Region 1: every row of 128 is biased, normalised over the row, scaled and shifted, and passed through ELU -/
namespace R1

/-! ## Layout operations at an index: the column forms a kept-dimension row sum needs -/

section Layout
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One row of 128: bias, layer norm, ELU -/

/-- The mean of the biased row. -/
def rowMu (x b : Fin 128 → EReal) : EReal :=
  Ideal.div (∑ k : Fin 128, (x k + b k)) (Ideal.ofBits .f32 0x43000000#32)

/-- The variance of the biased row about its mean. -/
def rowVar (x b : Fin 128 → EReal) : EReal :=
  Ideal.div (∑ k : Fin 128, ((x k + b k) - rowMu x b) * ((x k + b k) - rowMu x b)) (Ideal.ofBits .f32 0x43000000#32)

/-- The normalised, scaled and shifted entry `q` of the row. -/
def rowNorm (x b w lb : Fin 128 → EReal) (q : Fin 128) : EReal :=
  ((x q + b q) - rowMu x b) * Ideal.rsqrt (rowVar x b + Ideal.ofBits .f32 0x3727C5AC#32) * w q + lb q

/-- ELU of one value: itself where positive, else `exp - 1`. -/
def eluVal (n : EReal) : EReal :=
  Scalar.select (Ideal.cmp .ogt n (Ideal.ofBits .f32 0x00000000#32)) n (Ideal.exp n - Ideal.ofBits .f32 0x3F800000#32)

/-- Entry `q` of the row the fused kernel leaves. -/
def lnEluRow (x b w lb : Fin 128 → EReal) (q : Fin 128) : EReal := eluVal (rowNorm x b w lb q)

/-! ## The kernel's payload at an index -/

/-- A lane sum of a 5000×128 block at row `p` is the sum over that row's 128 entries. -/
theorem laneSum_apply (v : FVec Ideal S5000x128 .f32) (h : S5000x128.Reduces [1] S5000) (hφ : FKind.Formats .f32)
    (hacc : (0x00000000#32 : BitVec 32) = 0x00000000#32) (p : Fin 5000) :
    multiReduction .add [1] S5000 v 0x00000000#32 h hφ hacc (ix1 p) = ∑ k : Fin 128, v (ix2 p k) := by
  refine (Ideal.multiReduction_add_single v _ h hφ hacc (ix1 p)).trans ?_
  show ∑ k : Fin 128, v (h.lift (ix1 p) k) = ∑ k : Fin 128, v (ix2 p k)
  refine Finset.sum_congr rfl fun k _ => congrArg v ?_
  funext a
  apply Fin.ext
  match a with
  | ⟨0, _⟩ => rfl
  | ⟨1, _⟩ => rfl

/-- The kernel's inverse square root and exponential, entry by entry. -/
theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl

/-- The payload at `(p, q)`: the row function of the block's row `p` and the three 1×128 rows. -/
theorem pay_apply (x0 : FVec Ideal S5000x128 .f32) (x1 x2 x3 : FVec Ideal S1x128 .f32) (p : Fin 5000) (q : Fin 128) :
    k1_pay1 (F := Ideal) x0 x1 x2 x3 (ix2 p q)
      = lnEluRow (fun k => x0 (ix2 p k)) (fun k => x1 (ix2 (0 : Fin 1) k)) (fun k => x2 (ix2 (0 : Fin 1) k)) (fun k => x3 (ix2 (0 : Fin 1) k)) q := by
  unfold k1_pay1
  simp only [shapeCast_self]
  simp only [select_apply, cmpf_apply, addf_apply, mulf_apply, subf_apply, divf_apply, broadcast_apply, rsqrt_apply, exp_apply,
    broadcastTo_1b_ab_apply, broadcastTo_a1_ab_apply, shapeCast_a_a1_apply]
  rw [laneSum_apply, laneSum_apply]
  simp only [addf_apply, mulf_apply, subf_apply, divf_apply, broadcast_apply,
    broadcastTo_1b_ab_apply, broadcastTo_a1_ab_apply, shapeCast_a_a1_apply]
  rw [laneSum_apply]
  simp only [addf_apply, broadcastTo_1b_ab_apply]
  rfl

/-! ## The reference's stages at an index -/

section SpecRead
open Cert.ReferenceIdeal (Spec.cols Spec.rowMean Spec.zeros)

/-- A 1×128 row repeated down the nodes reads, at `(r, q)`, the row's entry `q`. -/
theorem rows_apply (b2 : S1x128.Idx → EReal) (r : Fin 100000) (q : Fin 128) :
    Spec.rows (F := Ideal) b2 (ix2 r q) = b2 (ix2 (0 : Fin 1) q) := by
  unfold Spec.rows
  refine broadcastInDim_apply _ _ b2 (ix2 r q) (ix2 (0 : Fin 1) q) fun a => ?_
  match a with
  | ⟨0, _⟩ => rfl
  | ⟨1, _⟩ => rfl

/-- A per-node column repeated across the features reads, at `(r, q)`, the column's entry of node `r`. -/
theorem cols_apply (v : S100000x1.Idx → EReal) (r : Fin 100000) (q : Fin 128) :
    Spec.cols (F := Ideal) v (ix2 r q) = v (ix2 r (0 : Fin 1)) := by
  unfold Spec.cols
  refine broadcastInDim_apply _ _ v (ix2 r q) (ix2 r (0 : Fin 1)) fun a => ?_
  match a with
  | ⟨0, _⟩ => rfl
  | ⟨1, _⟩ => rfl

/-- A per-node vector as a column reads, at `(r, z)`, the vector's entry `r`. -/
theorem col_apply (h : S100000.BroadcastsInDim S100000x1 ![0]) (u : S100000.Idx → EReal) (r : Fin 100000) (z : Fin 1) :
    broadcastInDim S100000x1 ![0] h u (ix2 r z) = u (ix1 r) := by
  refine broadcastInDim_apply _ _ u (ix2 r z) (ix1 r) fun a => ?_
  match a with
  | ⟨0, _⟩ => rfl

/-- The host's sum over a row of 128, from the zero word: the sum of the row's entries. -/
theorem hostRowSum_apply (x : S100000x128.Idx → EReal) (h' : S100000x128.ReducesTo [1] S100000) (hu : 0 < S_.numel) (r : Fin 100000) :
    Host.reduceAdd (F := Ideal) (φ := .f32) x (constant (F := Ideal) S_ .f32 0x00000000#32) h' hu (ix1 r) = ∑ k : Fin 128, x (ix2 r k) := by
  have h : S100000x128.Reduces [1] S100000 := by decide
  rw [hostReduceAdd_apply, Ideal.hostReduceAdd_single h' h, constant_apply, Ideal.ofBits_zero_f32, zero_add]
  show ∑ k : Fin 128, x (h.lift (ix1 r) k) = ∑ k : Fin 128, x (ix2 r k)
  refine Finset.sum_congr rfl fun k _ => congrArg x ?_
  funext a
  apply Fin.ext
  match a with
  | ⟨0, _⟩ => rfl
  | ⟨1, _⟩ => rfl

/-- The reference's row mean, at `(r, z)`. -/
theorem rowMean_apply (x : S100000x128.Idx → EReal) (r : Fin 100000) (z : Fin 1) :
    Spec.rowMean (F := Ideal) x (ix2 r z) = Ideal.div (∑ k : Fin 128, x (ix2 r k)) (Ideal.ofBits .f32 0x43000000#32) := by
  unfold Spec.rowMean
  rw [hostDivf_apply, col_apply, hostRowSum_apply, broadcastInDim_scalar_apply, constant_apply]

/-- A scalar constant spread over the node features, or over the node column, reads the constant's value. -/
theorem splat2_apply (h : S_.BroadcastsInDim S100000x128 ![]) (w : BitVec 32) (j : S100000x128.Idx) :
    broadcastInDim S100000x128 ![] h (constant (F := Ideal) S_ .f32 w) j = Ideal.ofBits .f32 w := by
  rw [broadcastInDim_scalar_apply, constant_apply]
theorem splat1_apply (h : S_.BroadcastsInDim S100000x1 ![]) (w : BitVec 32) (j : S100000x1.Idx) :
    broadcastInDim S100000x1 ![] h (constant (F := Ideal) S_ .f32 w) j = Ideal.ofBits .f32 w := by
  rw [broadcastInDim_scalar_apply, constant_apply]

end SpecRead

section SpecValue
open Cert.ReferenceIdeal (Spec.cols Spec.rowMean Spec.zeros)

/-- The host's inverse square root and `expm1`, entry by entry. -/
theorem hostRsqrt_apply {s : Shape} {φ : FTy} (a : FVec Ideal s φ) (i : s.Idx) : Host.rsqrt a i = Ideal.rsqrt (a i) := rfl
theorem hostExpm1_apply {s : Shape} {φ : FTy} (a : FVec Ideal s φ) (i : s.Idx) : Host.expm1 a i = Ideal.exp (a i) - 1 := rfl

/-- The reference's layer norm of the biased rows, at `(r, q)`: the row function of row `r`. -/
theorem lnorm_apply (pre : S100000x128.Idx → EReal) (b w lb : S1x128.Idx → EReal) (r : Fin 100000) (q : Fin 128) :
    Spec.lnorm (F := Ideal) (addf (F := Ideal) (φ := .f32) pre (Spec.rows (F := Ideal) b)) w lb (ix2 r q)
      = rowNorm (fun k => pre (ix2 r k)) (fun k => b (ix2 (0 : Fin 1) k)) (fun k => w (ix2 (0 : Fin 1) k)) (fun k => lb (ix2 (0 : Fin 1) k)) q := by
  unfold Spec.lnorm
  simp only [addf_apply, mulf_apply, subf_apply, cols_apply, rows_apply, rowMean_apply, hostRsqrt_apply]
  rw [splat1_apply]
  rfl

/-- The reference's ELU at an index: the inner select only matters where the outer one discards it, and `1 · y = y`. -/
theorem elu_apply (x : S100000x128.Idx → EReal) (i : S100000x128.Idx) :
    Spec.elu (F := Ideal) x i = eluVal (x i) := by
  unfold Spec.elu Spec.zeros eluVal
  simp only [select_apply, cmpf_apply, mulf_apply, hostExpm1_apply, Ideal.cmpf_def]
  rw [splat2_apply, splat2_apply]
  rcases BitVec.eq_zero_or_eq_one (Ideal.cmp .ogt (x i) (Ideal.ofBits .f32 0x00000000#32)) with h | h
  · rw [h]; simp only [select_zero]; rw [Ideal.ofBits_one_f32, one_mul]
  · rw [h]; simp only [select_one]

end SpecValue

/-! ## The whole output array as one function of the four input arrays -/

/-- Entry `i` of the output: the row function of row `i 0` of `pre` and the three 1×128 rows, at column `i 1`. -/
def lnEluArr (pre : S100000x128.Idx → EReal) (b w lb : S1x128.Idx → EReal) : S100000x128.Idx → EReal := fun i =>
  lnEluRow (fun k => pre (ix2 (i 0 : Fin 100000) k)) (fun k => b (ix2 (0 : Fin 1) k)) (fun k => w (ix2 (0 : Fin 1) k))
    (fun k => lb (ix2 (0 : Fin 1) k)) (i 1 : Fin 128)

/-- The reference's `elu (lnorm (pre + rows b) w lb)` is that function. -/
theorem spec_eq (pre : S100000x128.Idx → EReal) (b w lb : S1x128.Idx → EReal) :
    Cert.ReferenceIdeal.Spec.elu (F := Ideal) (Cert.ReferenceIdeal.Spec.lnorm (F := Ideal)
        (addf (F := Ideal) (φ := .f32) pre (Cert.ReferenceIdeal.Spec.rows (F := Ideal) b)) w lb)
      = lnEluArr pre b w lb := by
  funext i
  obtain ⟨r, q, rfl⟩ : ∃ (r : Fin 100000) (q : Fin 128), i = ix2 r q := ⟨i 0, i 1, eq_ix2 i⟩
  rw [elu_apply, lnorm_apply]
  rfl

/-- A block entry is the array function at the index the block's entry sits at, once the block's row is the array's row
    and the three small blocks are the three small arrays. -/
theorem blk_entry (pre : S100000x128.Idx → EReal) (b w lb : S1x128.Idx → EReal)
    (x0 : FVec Ideal S5000x128 .f32) (x1 x2 x3 : FVec Ideal S1x128 .f32) (j : S5000x128.Idx) (i : S100000x128.Idx)
    (h0 : ∀ k : Fin 128, x0 (ix2 (j 0 : Fin 5000) k) = pre (ix2 (i 0 : Fin 100000) k))
    (h1 : ∀ k : Fin 128, x1 (ix2 (0 : Fin 1) k) = b (ix2 (0 : Fin 1) k))
    (h2 : ∀ k : Fin 128, x2 (ix2 (0 : Fin 1) k) = w (ix2 (0 : Fin 1) k))
    (h3 : ∀ k : Fin 128, x3 (ix2 (0 : Fin 1) k) = lb (ix2 (0 : Fin 1) k))
    (hq : (j 1 : Fin 128) = (i 1 : Fin 128)) :
    k1_pay1 (F := Ideal) x0 x1 x2 x3 j = lnEluArr pre b w lb i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have h0' : ∀ k : Fin 128, x0 (ix2 p k) = pre (ix2 r k) := h0
  have hq' : q = s := hq
  subst hq'
  rw [pay_apply, funext h0', funext h1, funext h2, funext h3]
  rfl

/-! ## From blocks to the array -/

theorem zero_offsets : (![0, 0] : Fin 2 → Nat) = fun _ => 0 := funext fun a => by
  match a with
  | ⟨0, _⟩ => rfl
  | ⟨1, _⟩ => rfl

/-- The printed index maps, decided over the grid of 20 points: the two 5000×128 windows sit at row block `t`, the three
    1×128 windows at their one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the array function of the four input arrays as the region finds them. -/
theorem reg1_flushed (c : Dev nD) (t : Fin cfg1.N) :
    (dat1 (F := Ideal) V c).flushed 4 t
      = ((cfg1.win 4).blk t).view.read (Elt Ideal) (lnEluArr (V c main_v40) (V c main_v41) (V c main_v42) (V c main_v43)) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S1x128) zero_offsets]
  obtain ⟨e00, e01, e10, e11, e20, e21, e30, e31, e40, e41⟩ := index_facts t
  funext j
  show k1_pay1 (F := Ideal) (iblk1 V c 0 t) (iblk1 V c 1 t) (iblk1 V c 2 t) (iblk1 V c 3 t) j
      = lnEluArr (V c main_v40) (V c main_v41) (V c main_v42) (V c main_v43) (((cfg1.win 4).blk t).view.emb j)
  refine blk_entry _ _ _ _ _ _ _ _ j _ (fun k => ?_) (fun k => ?_) (fun k => ?_) (fun k => ?_) ?_
  · show V c main_v40 (((cfg1.win 0).blk t).view.emb (ix2 (j 0) k)) = V c main_v40 (ix2 ((((cfg1.win 4).blk t).view.emb j) 0) k)
    refine congrArg (V c main_v40) (funext fun a => Fin.ext ?_)
    match a with
    | ⟨0, _⟩ =>
      show win1_0.index t (0 : Fin 2) * 5000 + 1 * (j 0).val = win1_4.index t (0 : Fin 2) * 5000 + 1 * (j 0).val
      rw [e00, e40]
    | ⟨1, _⟩ =>
      show win1_0.index t (1 : Fin 2) * 128 + 1 * k.val = k.val
      rw [e01]; omega
  · show V c main_v41 (((cfg1.win 1).blk t).view.emb (ix2 (0 : Fin 1) k)) = V c main_v41 (ix2 (0 : Fin 1) k)
    refine congrArg (V c main_v41) (funext fun a => Fin.ext ?_)
    match a with
    | ⟨0, _⟩ => show win1_1.index t (0 : Fin 2) * 1 + 1 * 0 = 0; rw [e10]
    | ⟨1, _⟩ => show win1_1.index t (1 : Fin 2) * 128 + 1 * k.val = k.val; rw [e11]; omega
  · show V c main_v42 (((cfg1.win 2).blk t).view.emb (ix2 (0 : Fin 1) k)) = V c main_v42 (ix2 (0 : Fin 1) k)
    refine congrArg (V c main_v42) (funext fun a => Fin.ext ?_)
    match a with
    | ⟨0, _⟩ => show win1_2.index t (0 : Fin 2) * 1 + 1 * 0 = 0; rw [e20]
    | ⟨1, _⟩ => show win1_2.index t (1 : Fin 2) * 128 + 1 * k.val = k.val; rw [e21]; omega
  · show V c main_v43 (((cfg1.win 3).blk t).view.emb (ix2 (0 : Fin 1) k)) = V c main_v43 (ix2 (0 : Fin 1) k)
    refine congrArg (V c main_v43) (funext fun a => Fin.ext ?_)
    match a with
    | ⟨0, _⟩ => show win1_3.index t (0 : Fin 2) * 1 + 1 * 0 = 0; rw [e30]
    | ⟨1, _⟩ => show win1_3.index t (1 : Fin 2) * 128 + 1 * k.val = k.val; rw [e31]; omega
  · apply Fin.ext
    show (j 1).val = win1_4.index t (1 : Fin 2) * 128 + 1 * (j 1).val
    rw [e41]; omega

/-- An index of the output array is in point `t`'s block iff each coordinate is in the block's range on its axis. -/
theorem mem_block (t : Fin cfg1.N) (i : S100000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Row `r` lies in the block of point `r / 5000`: the twenty blocks cover the array. -/
theorem reg1_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e40, e41⟩ := index_facts ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]
    omega

end R1

/-- Region 1 leaves `elu (lnorm (pre + b) w lb)` in its output array. -/
theorem reg1_out (c : Dev nD) :
    (dat1 (F := Ideal) V c).arrAt 4 cfg1.N
      = Cert.ReferenceIdeal.Spec.elu (Cert.ReferenceIdeal.Spec.lnorm
          (addf (V c main_v40) (Cert.ReferenceIdeal.Spec.rows (V c main_v41))) (V c main_v42) (V c main_v43)) :=
  ((dat1 (F := Ideal) V c).arrAt_eq_of_cover 4
      (R1.lnEluArr (V c main_v40) (V c main_v41) (V c main_v42) (V c main_v43))
      (fun t _ => R1.reg1_flushed V c t) R1.reg1_cover).trans (R1.spec_eq _ _ _ _).symm

end Cert.KernelIdeal.Val

end
-- ==== Proof.BlendMath.lean ====
/- The reference's blend carries a factor (|xs| + ε) ^ 0. Over the extended reals that factor is one: |xs| + ε is never -∞
   (an absolute value is at least its argument's negation), +∞ to the power zero is one, and a real to the power zero is
   one; so the blend is 0.6 · h + 0.4 · xs. -/
import proofs.«413006_j28346784153649_1_alg».proof.Proof.Gen.ReferenceIdeal
import proofs.«413006_j28346784153649_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Spec

open Idealize.ShloMosaic Idealize.ShloMosaic.TcCoe
open Cert.ReferenceIdeal Cert.ReferenceIdeal.Facts₀ Cert.ReferenceIdeal.Facts

/-- The pattern of ε denotes a real number: its exponent field is neither all ones nor zero. -/
theorem eps_real : ∃ e : ℝ, Ideal.ofBits .f32 0x358637BD#32 = (e : EReal) := by
  unfold Ideal.ofBits Ideal.ieee
  simp only []
  rw [if_neg (by decide), if_neg (by decide)]
  exact ⟨_, rfl⟩

/-- A real plus a real, to the power zero, is one. -/
theorem pow_coe_add_zero (x e : ℝ) : Ideal.pow ((x : EReal) + (e : EReal)) 0 = 1 := by
  rw [← EReal.coe_add]
  exact congrArg (fun t : ℝ => (t : EReal)) (Real.rpow_zero (x + e))

/-- `(|a| + e) ^ 0 = 1` for every extended real `a` and real `e`: at either infinity `|a|` is `+∞`, and `+∞ ^ 0 = 1`;
    at a real `a` the base is a real. -/
theorem pow_abs_zero (a : EReal) (e : ℝ) : Ideal.pow (max a (-a) + (e : EReal)) 0 = 1 := by
  induction a using EReal.rec with
  | bot => rw [EReal.neg_bot, max_eq_right bot_le, EReal.top_add_coe, Ideal.pow_top, if_neg (lt_irrefl _), if_pos rfl]
  | top => rw [EReal.neg_top, max_eq_left bot_le, EReal.top_add_coe, Ideal.pow_top, if_neg (lt_irrefl _), if_pos rfl]
  | coe r =>
    rcases le_total (r : EReal) (-(r : EReal)) with hle | hle
    · rw [max_eq_right hle, ← EReal.coe_neg]
      exact pow_coe_add_zero _ _
    · rw [max_eq_left hle]
      exact pow_coe_add_zero _ _

/-- Entry by entry, a value times `(|value| + ε) ^ 0` is the value. -/
theorem mul_pow_zero (v : FA Ideal S100000x128) :
    mulf v (Host.powf (addf (Host.absf v)
        (broadcastInDim S100000x128 ![] bcast_S_S100000x128 (constant (F := Ideal) S_ .f32 0x358637BD#32)))
      (zeros (F := Ideal))) = v := by
  funext i
  obtain ⟨e, he⟩ := eps_real
  show (v i : EReal) * Ideal.pow (max (v i) (-(v i)) + Ideal.ofBits .f32 0x358637BD#32) (Ideal.ofBits .f32 0x00000000#32) = v i
  rw [he, Ideal.ofBits_zero_f32, pow_abs_zero, mul_one]

/-- The zeroth power in the reference's blend is one, so the blend is the plain one. -/
theorem blend_eq_blend1 (h : FA Ideal S100000x128) : blend (F := Ideal) h = blend1 (F := Ideal) h := by
  unfold blend blend1
  rw [mul_pow_zero]

end Cert.ReferenceIdeal.Spec

end
-- ==== Proof.KReg3.lean ====
/- The second fused kernel: bias, layer norm, ELU, then the B-cos blend. -/
import proofs.«413006_j28346784153649_1_alg».proof.Proof.Gen.KernelIdeal.Frame
import proofs.«413006_j28346784153649_1_alg».proof.Proof.Gen.ReferenceIdeal
import proofs.«413006_j28346784153649_1_alg».proof.Proof.Spec
import proofs.«413006_j28346784153649_1_alg».proof.Proof.BlendMath

import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Cert.ReferenceIdeal (Spec.proj Spec.rows Spec.lnorm Spec.elu Spec.blend Spec.poolSums Spec.poolCnts Spec.means Spec.classify Spec.convWith Spec.coef Spec.selfc Spec.rowOf Spec.out Spec.layer Spec.conv)

namespace R3

open Idealize.ShloMosaic.ValueIdx

/-! ## Layout operations of the two programs read at a row and a column -/

section Layout
variable {α : Type}

/-- A column `[a, 1]` broadcast to `[a, b]` reads, at `(p, q)`, the column's entry of row `p`. -/
theorem bcastCol_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, 0)`, its entry `p`. -/
theorem castCol_apply {a : ℕ} (u : (⟨1, ![a]⟩ : Shape).Idx → α) (h : (⟨1, ![a]⟩ : Shape).ShapeCasts ⟨2, ![a, 1]⟩)
    (p : Fin a) : shapeCast ⟨2, ![a, 1]⟩ u h (ix2 p (0 : Fin 1)) = u (ix1 p) := by
  refine shapeCast_apply u h _ (ix1 p) ?_
  rw [Shape.rowMajor_val_one, Shape.rowMajor_val_two]
  show p.val = p.val * 1 + 0
  omega

/-- The host's `broadcast_in_dim` of a row `[1, b]` down `[a, b]` (dims `[0, 1]`) reads the row at the column. -/
theorem bidRow_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (q : Fin b) : broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- The host's `broadcast_in_dim` of a column `[a, 1]` across `[a, b]` (dims `[0, 1]`) reads the column at the row. -/
theorem bidCol_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (q : Fin b) : broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of a vector `[a]` to the column `[a, 1]` (dims `[0]`) reads the vector at the row. -/
theorem bidVec_apply {a : ℕ} (u : (⟨1, ![a]⟩ : Shape).Idx → α)
    (h : (⟨1, ![a]⟩ : Shape).BroadcastsInDim ⟨2, ![a, 1]⟩ (![0] : Fin 1 → Fin 2))
    (p : Fin a) : broadcastInDim ⟨2, ![a, 1]⟩ ![0] h u (ix2 p (0 : Fin 1)) = u (ix1 p) := by
  refine broadcastInDim_apply _ h u (ix2 p (0 : Fin 1)) (ix1 p) fun ax => ?_
  match ax with
  | ⟨0, _⟩ =>
    show p.val = if a = 1 then 0 else p.val
    split
    · have := p.isLt; omega
    · rfl

end Layout

/-! ## Row sums -/

/-- A lane reduction of a `[a, b]` vector into `[a]` is, at row `p`, the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-- The host's row reduction of a `[a, b]` array into `[a]` is, at row `p`, the initial value plus the sum over the row. -/
theorem hostRowSum_apply {a b : ℕ} (x : (⟨2, ![a, b]⟩ : Shape).Idx → EReal) (h' : (⟨2, ![a, b]⟩ : Shape).ReducesTo [1] ⟨1, ![a]⟩)
    (h : (⟨2, ![a, b]⟩ : Shape).Reduces [1] ⟨1, ![a]⟩) (init : EReal) (p : Fin a) :
    Ideal.hostReduceAdd h' x init (ix1 p) = init + ∑ k : Fin b, x (ix2 p k) := by
  refine (Ideal.hostReduceAdd_single h' h x init (ix1 p)).trans ?_
  congr 1
  refine Finset.sum_congr rfl fun k _ => congrArg x ?_
  funext c
  apply Fin.ext
  match c with
  | ⟨0, _⟩ => rfl
  | ⟨1, _⟩ => rfl

end R3

namespace R3

open Idealize.ShloMosaic.ValueIdx

/-! ## The kernel's arithmetic on one row of 128 -/

/-- The mean of a row: its sum divided by 128. -/
def mean (x : Fin 128 → EReal) : EReal := Ideal.div (∑ k : Fin 128, x k) (Ideal.ofBits .f32 0x43000000#32)

/-- Layer normalisation of one row `x` with scale row `w` and shift row `lb`:
    `(x - μ) · rsqrt (mean ((x - μ)²) + ε) · w + lb`. -/
def lnormR (x w lb : Fin 128 → EReal) (q : Fin 128) : EReal :=
  (x q - mean x) * Ideal.rsqrt (mean (fun k => (x k - mean x) * (x k - mean x)) + Ideal.ofBits .f32 0x3727C5AC#32) * w q + lb q

/-- ELU of one value: the value where it is positive, else `exp - 1`. -/
def eluK (a : EReal) : EReal :=
  Scalar.select (Ideal.cmp .ogt a (Ideal.ofBits .f32 0x00000000#32)) a (Ideal.exp a - Ideal.ofBits .f32 0x3F800000#32)

/-- The blend of one row `h`: `0.6 · h + 0.4 · (1.5 · h / (sqrt (Σ h² + ε) + ε))`. -/
def blendR (h : Fin 128 → EReal) (q : Fin 128) : EReal :=
  Ideal.ofBits .f32 0x3F19999A#32 * h q + Ideal.ofBits .f32 0x3ECCCCCD#32 *
    Ideal.div (Ideal.ofBits .f32 0x3FC00000#32 * h q)
      (Ideal.sqrt ((∑ k : Fin 128, h k * h k) + Ideal.ofBits .f32 0x358637BD#32) + Ideal.ofBits .f32 0x358637BD#32)

section Pointwise
variable {s : Shape} {φ : FTy}
theorem exp_apply (a : FVec Ideal s φ) (i : s.Idx) : exp a i = Ideal.exp (a i) := rfl
theorem rsqrt_apply (a : FVec Ideal s φ) (i : s.Idx) : rsqrt a i = Ideal.rsqrt (a i) := rfl
theorem sqrt_apply (a : FVec Ideal s φ) (i : s.Idx) : sqrt a i = Ideal.sqrt (a i) := rfl
end Pointwise

/-- The second payload (layer norm and ELU of the biased block) at row `p`, column `q`. -/
theorem pay2_apply (x0 : Vec Ideal S5000x128 .f32) (x1 x2 x3 : Vec Ideal S1x128 .f32) (p : Fin 5000) (q : Fin 128) :
    k3_pay2 x0 x1 x2 x3 (ix2 p q)
      = eluK (lnormR (fun k => x0 (ix2 p k) + x1 (ix2 (0 : Fin 1) k)) (fun k => x2 (ix2 (0 : Fin 1) k)) (fun k => x3 (ix2 (0 : Fin 1) k)) q) := by
  unfold k3_pay2 eluK lnormR mean
  simp only [shapeCast_self, select_apply, cmpf_apply, addf_apply, mulf_apply, subf_apply, divf_apply, broadcast_apply,
    exp_apply, rsqrt_apply, broadcastTo_1b_ab_apply, bcastCol_apply, castCol_apply, Ideal.ofBits_def]
  rw [rowSum_apply, rowSum_apply]
  simp only [addf_apply, mulf_apply, subf_apply, divf_apply, broadcast_apply, broadcastTo_1b_ab_apply, bcastCol_apply, castCol_apply]
  rw [rowSum_apply]
  simp only [addf_apply, broadcastTo_1b_ab_apply]
  rfl

end R3

namespace R3

open Idealize.ShloMosaic.ValueIdx

/-- The third payload (the row's sum of squares, as a column) at row `p`. -/
theorem pay3_apply (x0 : Vec Ideal S5000x128 .f32) (x1 x2 x3 : Vec Ideal S1x128 .f32) (p : Fin 5000) :
    k3_pay3 x0 x1 x2 x3 (ix2 p (0 : Fin 1))
      = ∑ k : Fin 128, k3_pay2 x0 x1 x2 x3 (ix2 p k) * k3_pay2 x0 x1 x2 x3 (ix2 p k) := by
  unfold k3_pay3
  simp only [castCol_apply]
  rw [rowSum_apply]
  simp only [mulf_apply]

/-- The fourth payload is the constant ε column. -/
theorem pay4_apply (i : S5000x1.Idx) : (k3_pay4 (F := Ideal)) i = Ideal.ofBits .f32 0x358637BD#32 := rfl

/-- The first payload (the blend of a block `h` with its column of squared norms `n` and the ε column `e`) at row `p`, column `q`. -/
theorem pay1_apply (h : FVec Ideal S5000x128 .f32) (n e : FVec Ideal S5000x1 .f32) (p : Fin 5000) (q : Fin 128) :
    k3_pay1 h n e (ix2 p q)
      = Ideal.ofBits .f32 0x3F19999A#32 * h (ix2 p q) + Ideal.ofBits .f32 0x3ECCCCCD#32 *
          Ideal.div (Ideal.ofBits .f32 0x3FC00000#32 * h (ix2 p q))
            (Ideal.sqrt (n (ix2 p (0 : Fin 1)) + e (ix2 p (0 : Fin 1))) + Ideal.ofBits .f32 0x358637BD#32) := by
  unfold k3_pay1
  simp only [addf_apply, mulf_apply, divf_apply, broadcast_apply, sqrt_apply, bcastCol_apply, Ideal.ofBits_def]

theorem hz : (![0, 0] : Fin 2 → Nat) = fun _ => 0 := funext fun a => by fin_cases a <;> rfl

/-- What the body leaves in the output's staging buffer, at row `p` and column `q`: the blend of the ELU of the
    layer norm of the biased row. -/
theorem out_apply (x0 : Vec Ideal S5000x128 .f32) (x1 x2 x3 : Vec Ideal S1x128 .f32) (p : Fin 5000) (q : Fin 128) :
    out3_4 x0 x1 x2 x3 (ix2 p q)
      = blendR (fun k => eluK (lnormR (fun j => x0 (ix2 p j) + x1 (ix2 (0 : Fin 1) j)) (fun j => x2 (ix2 (0 : Fin 1) j))
          (fun j => x3 (ix2 (0 : Fin 1) j)) k)) q := by
  unfold out3_4
  rw [View.canon_unit_zero hz]
  simp only [View.ld_unit_zero (S := S5000x128) hz, View.ld_unit_zero (S := S1x128) hz]
  rw [pay1_apply, pay3_apply, pay4_apply]
  simp only [pay2_apply]
  rfl

end R3

namespace R3

open Idealize.ShloMosaic.ValueIdx
open Cert.ReferenceIdeal (Spec.rows Spec.cols Spec.rowMean Spec.lnorm Spec.elu Spec.xs Spec.blend1 Spec.zeros Spec.FA)

/-! ## The reference's stages read at a row and a column -/

/-- A scalar constant broadcast to any shape reads the constant's value. -/
theorem splat_apply {T : Shape} (h : (⟨0, ![]⟩ : Shape).BroadcastsInDim T ![]) (bits : BitVec 32) (i : T.Idx) :
    broadcastInDim T ![] h (constant (F := Ideal) ⟨0, ![]⟩ .f32 bits) i = Ideal.ofBits .f32 bits := by
  rw [broadcastInDim_scalar_apply]; rfl

theorem splat128 (bits : BitVec 32) (i : Cert.ReferenceIdeal.S100000x128.Idx) :
    broadcastInDim Cert.ReferenceIdeal.S100000x128 ![] Cert.ReferenceIdeal.Facts₀.bcast_S_S100000x128
      (constant (F := Ideal) Cert.ReferenceIdeal.S_ .f32 bits) i = Ideal.ofBits .f32 bits := by
  rw [broadcastInDim_scalar_apply]; rfl

theorem splat1 (bits : BitVec 32) (i : Cert.ReferenceIdeal.S100000x1.Idx) :
    broadcastInDim Cert.ReferenceIdeal.S100000x1 ![] Cert.ReferenceIdeal.Facts₀.bcast_S_S100000x1
      (constant (F := Ideal) Cert.ReferenceIdeal.S_ .f32 bits) i = Ideal.ofBits .f32 bits := by
  rw [broadcastInDim_scalar_apply]; rfl

theorem rows_apply (b : Spec.FA Ideal Cert.ReferenceIdeal.S1x128) (n : Fin 100000) (q : Fin 128) :
    Spec.rows (F := Ideal) b (ix2 n q) = b (ix2 (0 : Fin 1) q) := by
  unfold Cert.ReferenceIdeal.Spec.rows
  exact bidRow_apply _ _ n q

theorem cols_apply (v : Spec.FA Ideal Cert.ReferenceIdeal.S100000x1) (n : Fin 100000) (q : Fin 128) :
    Spec.cols (F := Ideal) v (ix2 n q) = v (ix2 n (0 : Fin 1)) := by
  unfold Cert.ReferenceIdeal.Spec.cols
  exact bidCol_apply _ _ n q

/-- The reference's row sum, as a column: zero plus the sum over the row. -/
theorem hostSumCol_apply (x : Spec.FA Ideal Cert.ReferenceIdeal.S100000x128) (n : Fin 100000) :
    broadcastInDim Cert.ReferenceIdeal.S100000x1 ![0] Cert.ReferenceIdeal.Facts₀.bcast_S100000_S100000x1_0
        (Host.reduceAdd (F := Ideal) x (constant (F := Ideal) Cert.ReferenceIdeal.S_ .f32 0x00000000#32)
          Cert.ReferenceIdeal.Facts₀.reducesTo_S100000x128_S100000_d1 Cert.ReferenceIdeal.Facts₀.h_S_) (ix2 n (0 : Fin 1))
      = ∑ k : Fin 128, x (ix2 n k) := by
  rw [bidVec_apply, hostReduceAdd_apply, hostRowSum_apply x _ (by decide) _ n]
  show Ideal.ofBits .f32 0x00000000#32 + _ = _
  rw [Ideal.ofBits_zero_f32, zero_add]

theorem rowMean_apply (x : Spec.FA Ideal Cert.ReferenceIdeal.S100000x128) (n : Fin 100000) :
    Spec.rowMean (F := Ideal) x (ix2 n (0 : Fin 1)) = mean (fun k => x (ix2 n k)) := by
  unfold Cert.ReferenceIdeal.Spec.rowMean mean
  rw [hostDivf_apply, hostSumCol_apply, splat_apply]

theorem hostRsqrt_apply {s : Shape} (a : FVec Ideal s .f32) (i : s.Idx) : Host.rsqrt a i = Ideal.rsqrt (a i) := rfl
theorem hostSqrt_apply {s : Shape} (a : FVec Ideal s .f32) (i : s.Idx) : Host.sqrt a i = Ideal.sqrt (a i) := rfl
theorem hostExpm1_apply {s : Shape} (a : FVec Ideal s .f32) (i : s.Idx) : Host.expm1 a i = Ideal.exp (a i) - 1 := rfl

/-- The reference's layer norm at row `n`, column `q`, is the row's. -/
theorem lnorm_apply (x : Spec.FA Ideal Cert.ReferenceIdeal.S100000x128) (w lb : Spec.FA Ideal Cert.ReferenceIdeal.S1x128)
    (n : Fin 100000) (q : Fin 128) :
    Spec.lnorm (F := Ideal) x w lb (ix2 n q)
      = lnormR (fun k => x (ix2 n k)) (fun k => w (ix2 (0 : Fin 1) k)) (fun k => lb (ix2 (0 : Fin 1) k)) q := by
  unfold Cert.ReferenceIdeal.Spec.lnorm lnormR
  simp only [addf_apply, mulf_apply, subf_apply, rows_apply, cols_apply, hostRsqrt_apply, rowMean_apply]
  rw [splat1]

/-- The reference's ELU at an index is the kernel's: where the value is not positive both are `exp - 1`. -/
theorem elu_apply (x : Spec.FA Ideal Cert.ReferenceIdeal.S100000x128) (i : Cert.ReferenceIdeal.S100000x128.Idx) :
    Spec.elu (F := Ideal) x i = eluK (x i) := by
  unfold Cert.ReferenceIdeal.Spec.elu Cert.ReferenceIdeal.Spec.zeros eluK
  simp only [select_apply, cmpf_apply, mulf_apply, hostExpm1_apply]
  rw [splat128, splat128, Ideal.ofBits_one_f32, one_mul]
  show Scalar.select (Ideal.cmp .ogt (x i) _) _ (Ideal.exp (Scalar.select (Ideal.cmp .ogt (x i) _) _ _) - 1) = _
  by_cases hc : Ideal.cmp .ogt (x i) (Ideal.ofBits .f32 0x00000000#32) = 1#1
  · rw [hc, select_one, select_one]
  · rw [eq_zero_of_ne_one hc, select_zero, select_zero, select_zero]

/-- The reference's blend at row `n`, column `q`, is the row's. -/
theorem blend1_apply (h : Spec.FA Ideal Cert.ReferenceIdeal.S100000x128) (n : Fin 100000) (q : Fin 128) :
    Spec.blend1 (F := Ideal) h (ix2 n q) = blendR (fun k => h (ix2 n k)) q := by
  unfold Cert.ReferenceIdeal.Spec.blend1 Cert.ReferenceIdeal.Spec.xs blendR
  simp only [addf_apply, mulf_apply, hostDivf_apply, cols_apply, hostSqrt_apply]
  rw [hostSumCol_apply, splat128, splat128, splat128, splat1]
  simp only [mulf_apply]

/-- The whole array the region leaves: row by row, the blend of the ELU of the layer norm of the biased row. -/
def G (A : Spec.FA Ideal Cert.ReferenceIdeal.S100000x128) (b w lb : Spec.FA Ideal Cert.ReferenceIdeal.S1x128) :
    Spec.FA Ideal Cert.ReferenceIdeal.S100000x128 := fun i =>
  blendR (fun k => eluK (lnormR (fun j => A (ix2 (i 0) j) + b (ix2 (0 : Fin 1) j)) (fun j => w (ix2 (0 : Fin 1) j))
    (fun j => lb (ix2 (0 : Fin 1) j)) k)) (i 1)

/-- The reference's three stages composed are that array. -/
theorem spec_eq_G (A : Spec.FA Ideal Cert.ReferenceIdeal.S100000x128) (b w lb : Spec.FA Ideal Cert.ReferenceIdeal.S1x128) :
    Spec.blend1 (F := Ideal) (Spec.elu (F := Ideal) (Spec.lnorm (F := Ideal)
      (addf (F := Ideal) (s := Cert.ReferenceIdeal.S100000x128) (φ := .f32) A (Spec.rows (F := Ideal) b)) w lb)) = G A b w lb := by
  funext i
  obtain ⟨n, q, rfl⟩ : ∃ (n : Fin 100000) (q : Fin 128), i = ix2 n q := ⟨i 0, i 1, eq_ix2 i⟩
  rw [blend1_apply]
  simp only [elu_apply, lnorm_apply, addf_apply, rows_apply]
  rfl

end R3

namespace R3

open Idealize.ShloMosaic.ValueIdx
open Cert.ReferenceIdeal (Spec.FA)

/-! ## From the blocks to the array -/

/-- The printed index maps over the twenty points: the row windows move with the point, the three parameter rows stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 20 :=
  (by decide +kernel : ∀ t : Fin grid3.N, _)

/-- Every point index below twenty is a point. -/
theorem idx_onto : ∀ r : Fin 20, ∃ t : Fin cfg3.N, t.val = r.val :=
  (by decide +kernel : ∀ r : Fin 20, ∃ t : Fin grid3.N, t.val = r.val)

variable (V : (c : Dev nD) → (b : Ref sig .tc) → Buf (Elt Ideal) ((c : Thread nD τ).loc b))

/-- The first input's block at point `t` holds rows `5000 t … 5000 t + 4999` of its array. -/
theorem iblk0_apply (c : Dev nD) (t : Fin cfg3.N) (p : Fin 5000) (k : Fin 128) (n : Fin 100000) (hn : n.val = t.val * 5000 + p.val) :
    (iblk3 V c 0 t : Vec Ideal S5000x128 .f32) (ix2 p k) = (V c main_v60 : S100000x128.Idx → EReal) (ix2 n k) := by
  obtain ⟨e0, e1, -⟩ := idx_facts t
  unfold iblk3
  rw [View.read_apply]
  show V c main_v60 _ = V c main_v60 _
  congr 1
  funext a
  apply Fin.ext
  match a with
  | ⟨0, _⟩ => show win3_0.index t 0 * 5000 + 1 * p.val = n.val; rw [e0, hn]; omega
  | ⟨1, _⟩ => show win3_0.index t 1 * 128 + 1 * k.val = k.val; rw [e1]; omega

/-- Each parameter row's block, at every point, is the one row of its array. -/
theorem iblk1_apply (c : Dev nD) (t : Fin cfg3.N) (k : Fin 128) :
    (iblk3 V c 1 t : Vec Ideal S1x128 .f32) (ix2 (0 : Fin 1) k) = (V c main_v61 : S1x128.Idx → EReal) (ix2 (0 : Fin 1) k) := by
  obtain ⟨-, -, e0, e1, -⟩ := idx_facts t
  unfold iblk3
  rw [View.read_apply]
  show V c main_v61 _ = V c main_v61 _
  congr 1
  funext a
  apply Fin.ext
  match a with
  | ⟨0, _⟩ => show win3_1.index t 0 * 1 + 1 * 0 = 0; rw [e0]
  | ⟨1, _⟩ => show win3_1.index t 1 * 128 + 1 * k.val = k.val; rw [e1]; omega

theorem iblk2_apply (c : Dev nD) (t : Fin cfg3.N) (k : Fin 128) :
    (iblk3 V c 2 t : Vec Ideal S1x128 .f32) (ix2 (0 : Fin 1) k) = (V c main_v62 : S1x128.Idx → EReal) (ix2 (0 : Fin 1) k) := by
  obtain ⟨-, -, -, -, e0, e1, -⟩ := idx_facts t
  unfold iblk3
  rw [View.read_apply]
  show V c main_v62 _ = V c main_v62 _
  congr 1
  funext a
  apply Fin.ext
  match a with
  | ⟨0, _⟩ => show win3_2.index t 0 * 1 + 1 * 0 = 0; rw [e0]
  | ⟨1, _⟩ => show win3_2.index t 1 * 128 + 1 * k.val = k.val; rw [e1]; omega

theorem iblk3_apply (c : Dev nD) (t : Fin cfg3.N) (k : Fin 128) :
    (iblk3 V c 3 t : Vec Ideal S1x128 .f32) (ix2 (0 : Fin 1) k) = (V c main_v63 : S1x128.Idx → EReal) (ix2 (0 : Fin 1) k) := by
  obtain ⟨-, -, -, -, -, -, e0, e1, -⟩ := idx_facts t
  unfold iblk3
  rw [View.read_apply]
  show V c main_v63 _ = V c main_v63 _
  congr 1
  funext a
  apply Fin.ext
  match a with
  | ⟨0, _⟩ => show win3_3.index t 0 * 1 + 1 * 0 = 0; rw [e0]
  | ⟨1, _⟩ => show win3_3.index t 1 * 128 + 1 * k.val = k.val; rw [e1]; omega

theorem G_apply (A : Spec.FA Ideal Cert.ReferenceIdeal.S100000x128) (b w lb : Spec.FA Ideal Cert.ReferenceIdeal.S1x128)
    (n : Fin 100000) (q : Fin 128) :
    G A b w lb (ix2 n q) = blendR (fun k => eluK (lnormR (fun j => A (ix2 n j) + b (ix2 (0 : Fin 1) j)) (fun j => w (ix2 (0 : Fin 1) j))
      (fun j => lb (ix2 (0 : Fin 1) j)) k)) q := rfl

/-- The body's result at `(p, q)` of a block whose row `p` is row `n` of the array and whose parameter rows are the arrays' rows is
    the whole-array function at `(n, q)`. -/
theorem out_G_of (x0 : Vec Ideal S5000x128 .f32) (x1 x2 x3 : Vec Ideal S1x128 .f32)
    (A : Spec.FA Ideal Cert.ReferenceIdeal.S100000x128) (b w lb : Spec.FA Ideal Cert.ReferenceIdeal.S1x128)
    (p : Fin 5000) (q : Fin 128) (n : Fin 100000)
    (h0 : ∀ j : Fin 128, x0 (ix2 p j) = A (ix2 n j))
    (h1 : ∀ j : Fin 128, x1 (ix2 (0 : Fin 1) j) = b (ix2 (0 : Fin 1) j))
    (h2 : ∀ j : Fin 128, x2 (ix2 (0 : Fin 1) j) = w (ix2 (0 : Fin 1) j))
    (h3 : ∀ j : Fin 128, x3 (ix2 (0 : Fin 1) j) = lb (ix2 (0 : Fin 1) j)) :
    out3_4 x0 x1 x2 x3 (ix2 p q) = G A b w lb (ix2 n q) := by
  rw [G_apply, out_apply]
  simp only [h0, h1, h2, h3]

/-- What the body leaves at block index `(p, q)` of point `t` is the whole-array function at row `5000 t + p`, column `q`. -/
theorem out_G (c : Dev nD) (t : Fin cfg3.N) (p : Fin 5000) (q : Fin 128) (n : Fin 100000) (hn : n.val = t.val * 5000 + p.val) :
    out3_4 (iblk3 V c 0 t) (iblk3 V c 1 t) (iblk3 V c 2 t) (iblk3 V c 3 t) (ix2 p q)
      = G (V c main_v60) (V c main_v61) (V c main_v62) (V c main_v63) (ix2 n q) :=
  out_G_of _ _ _ _ _ _ _ _ p q n (fun j => iblk0_apply V c t p j n hn) (iblk1_apply V c t) (iblk2_apply V c t) (iblk3_apply V c t)

/-- The array index under block index `(p, q)` of the output's block at point `t`. -/
theorem emb_eq (t : Fin cfg3.N) (p : Fin 5000) (q : Fin 128) (n : Fin 100000) (hn : n.val = t.val * 5000 + p.val) :
    ((cfg3.win 4).blk t).view.emb (ix2 p q) = (ix2 n q : S100000x128.Idx) := by
  obtain ⟨-, -, -, -, -, -, -, -, e0, e1, -⟩ := idx_facts t
  funext a
  apply Fin.ext
  match a with
  | ⟨0, _⟩ => show win3_4.index t (0 : Fin 2) * 5000 + 1 * p.val = n.val; rw [e0, hn]; omega
  | ⟨1, _⟩ => show win3_4.index t (1 : Fin 2) * 128 + 1 * q.val = q.val; rw [e1]; omega

/-- WHAT POINT `t` WRITES BACK is block `t` of the whole-array function. -/
theorem flushed_eq (c : Dev nD) (t : Fin cfg3.N) :
    (dat3 (F := Ideal) V c).flushed 4 t
      = ((cfg3.win 4).blk t).view.read (Elt Ideal) (G (V c main_v60) (V c main_v61) (V c main_v62) (V c main_v63)) := by
  show (cfg3.win 4).cut (grid3.coords t) ((dat3 V c).after 4 t) = _
  rw [after3_4]
  funext j
  show out3_4 (iblk3 V c 0 t) (iblk3 V c 1 t) (iblk3 V c 2 t) (iblk3 V c 3 t) j
    = G (V c main_v60) (V c main_v61) (V c main_v62) (V c main_v63) (((cfg3.win 4).blk t).view.emb j)
  obtain ⟨p, q, rfl⟩ : ∃ (p : Fin 5000) (q : Fin 128), j = ix2 p q := ⟨j 0, j 1, eq_ix2 j⟩
  have ht : t.val < 20 := (idx_facts t).2.2.2.2.2.2.2.2.2.2
  have hp : p.val < 5000 := p.isLt
  rw [emb_eq t p q ⟨t.val * 5000 + p.val, by omega⟩ rfl]
  exact out_G V c t p q _ rfl

/-- An index of the array is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v64).slice (win3_4.rect t)).set ↔ _
  rw [View.set_slice_whole, Rect.mem_set_unit]
  exact Iff.rfl

/-- Row `r` lies in the block of point `r / 5000`: the twenty blocks cover the array. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, e0, e1, -⟩ := idx_facts t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; rw [e0]; omega
  | ⟨1, _⟩ => show win3_4.index t (1 : Fin 2) * 128 ≤ (i 1).val ∧ (i 1).val < win3_4.index t (1 : Fin 2) * 128 + 128; rw [e1]; omega

/-- THE ARRAY after the region: the whole-array function of the region's four inputs. -/
theorem final (c : Dev nD) :
    (dat3 (F := Ideal) V c).arrAt 4 cfg3.N = G (V c main_v60) (V c main_v61) (V c main_v62) (V c main_v63) :=
  (dat3 (F := Ideal) V c).arrAt_eq_of_cover 4 (G (V c main_v60) (V c main_v61) (V c main_v62) (V c main_v63))
    (fun t _ => flushed_eq V c t) cover

end R3

-- the TensorCore's buffer contents when a region is entered
variable (V : (c : Dev nD) → (b : Ref sig .tc) → Buf (Elt Ideal) ((c : Thread nD τ).loc b))

/-- Region 3 leaves `blend (elu (lnorm (pre + b) w lb))` in its output array. -/
theorem reg3_out (c : Dev nD) :
    (dat3 (F := Ideal) V c).arrAt 4 cfg3.N
      = Cert.ReferenceIdeal.Spec.blend (Cert.ReferenceIdeal.Spec.elu (Cert.ReferenceIdeal.Spec.lnorm
          (addf (V c main_v60) (Cert.ReferenceIdeal.Spec.rows (V c main_v61))) (V c main_v62) (V c main_v63))) := by
  rw [Cert.ReferenceIdeal.Spec.blend_eq_blend1]
  exact (R3.final V c).trans (R3.spec_eq_G (V c main_v60) (V c main_v61) (V c main_v62) (V c main_v63)).symm

end Cert.KernelIdeal.Val

end
-- ==== Proof.PoolSpec.lean ====
/- The pooling kernel's result as plain sums: a node contributes its feature row to graph g exactly when its batch word is g. -/
import Idealize.ShloMosaic.PureOps.Ideal
import Idealize.ShloMosaic.Lib.ValueIdx

noncomputable section

namespace Cert.PoolSpec

open Idealize.ShloMosaic Idealize.ShloMosaic.ValueIdx

/-- One where the 32-bit word `b` is the number `g`, else zero. -/
def hit (b : BitVec 32) (g : ℕ) : EReal := if b = BitVec.ofNat 32 g then 1 else 0

/-- Row `2048 t + k` of the padded arrays. -/
def row (t : Fin 49) (k : Fin 2048) : Fin 100352 := ⟨t.val * 2048 + k.val, by have := t.isLt; have := k.isLt; omega⟩

/-- The pooled sums over the padded arrays, tile by tile: entry (g, f) is Σ over tiles t and lanes k of hit · feature. -/
def sumsP (hbp : (⟨2, ![100352, 128]⟩ : Shape).Idx → EReal) (bp : (⟨2, ![1, 100352]⟩ : Shape).Idx → BitVec 32) :
    (⟨2, ![512, 128]⟩ : Shape).Idx → EReal :=
  fun i => ∑ t : Fin 49, ∑ k : Fin 2048, hit (bp (ix2 (0 : Fin 1) (row t k))) (i 0).val * hbp (ix2 (row t k) (i 1))

/-- The pooled counts over the padded batch words, as a column. -/
def cntsP (bp : (⟨2, ![1, 100352]⟩ : Shape).Idx → BitVec 32) : (⟨2, ![512, 1]⟩ : Shape).Idx → EReal :=
  fun i => ∑ t : Fin 49, ∑ k : Fin 2048, hit (bp (ix2 (0 : Fin 1) (row t k))) (i 0).val

end Cert.PoolSpec

end
-- ==== Proof.KReg4.lean ====
/- The pooling kernel: its two outputs are carried across the 49 grid points, zeroed at the first, and at each point gain
   that tile's one-hot product and one-hot row sums. -/
import proofs.«413006_j28346784153649_1_alg».proof.Proof.Gen.KernelIdeal.Frame
import proofs.«413006_j28346784153649_1_alg».proof.Proof.Gen.ReferenceIdeal
import proofs.«413006_j28346784153649_1_alg».proof.Proof.Spec
import proofs.«413006_j28346784153649_1_alg».proof.Proof.PoolSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen
open Cert.ReferenceIdeal (Spec.proj Spec.rows Spec.lnorm Spec.elu Spec.blend Spec.poolSums Spec.poolCnts Spec.means Spec.classify Spec.convWith Spec.coef Spec.selfc Spec.rowOf Spec.out Spec.layer Spec.conv)

namespace Reg4

/-! ## What each control case leaves in the two staging buffers -/

section pieces
variable {F : FTy → Type} [FloatOps F]

theorem hz2 : (![0, 0] : Fin 2 → Nat) = fun _ => 0 := funext fun a => by fin_cases a <;> rfl

/-- A later point leaves, in the sums' buffer holding `xo2`, the update of `xo2` by the point's tile. -/
theorem piece_B_2 (c : Dev nD) (i : grid4.Coords) (a1 : Memref sig .tc .vmem S2048x128 .f32) (h1 : a1.IsWhole)
    (a2 : Memref sig .tc .vmem S1x2048 .i32) (h2 : a2.IsWhole) (a3 : Memref sig .tc .vmem S512x128 .f32) (h3 : a3.IsWhole)
    (a4 : Memref sig .tc .vmem S512x1 .f32) (h4 : a4.IsWhole) (hc : ¬cond4_0 i)
    (x0 : Vec F S2048x128 .f32) (x1 : Vec F S1x2048 .i32) (xo2 : Vec F S512x128 .f32) (xo3 : Vec F S512x1 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero hz2]
  simp only [View.readAt_eq_ld, h1.read_unread, h2.read_unread, h3.read_unread, View.ld_unit_zero (S := S2048x128) hz2,
    View.ld_unit_zero (S := S1x2048) hz2, View.ld_unit_zero (S := S512x128) hz2]

/-- A later point leaves, in the counts' buffer holding `xo3`, the update of `xo3` by the point's batch words. -/
theorem piece_B_3 (c : Dev nD) (i : grid4.Coords) (a1 : Memref sig .tc .vmem S2048x128 .f32) (h1 : a1.IsWhole)
    (a2 : Memref sig .tc .vmem S1x2048 .i32) (h2 : a2.IsWhole) (a3 : Memref sig .tc .vmem S512x128 .f32) (h3 : a3.IsWhole)
    (a4 : Memref sig .tc .vmem S512x1 .f32) (h4 : a4.IsWhole) (hc : ¬cond4_0 i)
    (x0 : Vec F S2048x128 .f32) (x1 : Vec F S1x2048 .i32) (xo2 : Vec F S512x128 .f32) (xo3 : Vec F S512x1 .f32) :
    out4_B_3 c i a1 h1 a2 h2 a3 h3 a4 h4 hc x0 x1 xo2 xo3 = k4_pay5 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero hz2]
  simp only [View.readAt_eq_ld, h2.read_unread, h4.read_unread,
    View.ld_unit_zero (S := S1x2048) hz2, View.ld_unit_zero (S := S512x1) hz2]

/-- The first point zeroes the sums' buffer, reads the zeros back and leaves their update by the first tile. -/
theorem piece_A_2 (c : Dev nD) (i : grid4.Coords) (a1 : Memref sig .tc .vmem S2048x128 .f32) (h1 : a1.IsWhole)
    (a2 : Memref sig .tc .vmem S1x2048 .i32) (h2 : a2.IsWhole) (a3 : Memref sig .tc .vmem S512x128 .f32) (h3 : a3.IsWhole)
    (a4 : Memref sig .tc .vmem S512x1 .f32) (h4 : a4.IsWhole) (hc : cond4_0 i)
    (x0 : Vec F S2048x128 .f32) (x1 : Vec F S1x2048 .i32) :
    out4_A_2 c i a1 h1 a2 h2 a3 h3 a4 h4 hc x0 x1 = k4_pay4 x0 x1 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S512x128) hz2, View.readCov_unit_zero (S := S512x128) _ hz2]
  simp only [View.readAt_eq_ld, h1.read_unread, h2.read_unread, View.ld_unit_zero (S := S2048x128) hz2,
    View.ld_unit_zero (S := S1x2048) hz2]

/-- The first point zeroes the counts' buffer, reads the zeros back and leaves their update by the first batch words. -/
theorem piece_A_3 (c : Dev nD) (i : grid4.Coords) (a1 : Memref sig .tc .vmem S2048x128 .f32) (h1 : a1.IsWhole)
    (a2 : Memref sig .tc .vmem S1x2048 .i32) (h2 : a2.IsWhole) (a3 : Memref sig .tc .vmem S512x128 .f32) (h3 : a3.IsWhole)
    (a4 : Memref sig .tc .vmem S512x1 .f32) (h4 : a4.IsWhole) (hc : cond4_0 i)
    (x0 : Vec F S2048x128 .f32) (x1 : Vec F S1x2048 .i32) :
    out4_A_3 c i a1 h1 a2 h2 a3 h3 a4 h4 hc x0 x1 = k4_pay5 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S512x1) hz2, View.readCov_unit_zero (S := S512x1) _ hz2]
  simp only [View.readAt_eq_ld, h2.read_unread, View.ld_unit_zero (S := S1x2048) hz2]

end pieces

/-! ## The payloads read entry by entry, over the extended reals -/

section payloads
open Idealize.ShloMosaic.ValueIdx Cert.PoolSpec

/-- Converting the widened comparison bit gives one where the words agree and zero elsewhere. -/
theorem sitofp_bit (a b : BitVec 32) :
    (FloatOps.sitofp (F := Ideal) .f32 ((IntOp.cmpi .eq a b).setWidth 32) : EReal) = if b = a then 1 else 0 := by
  show ((((BitVec.ofBool (a == b)).setWidth 32).toInt : ℝ) : EReal) = _
  have e1 : ((BitVec.ofBool true).setWidth 32).toInt = 1 := by decide
  have e0 : ((BitVec.ofBool false).setWidth 32).toInt = 0 := by decide
  by_cases h : b = a
  · subst h
    rw [if_pos rfl, beq_self_eq_true, e1]
    norm_num
  · rw [if_neg h, beq_eq_false_iff_ne.mpr (fun e => h e.symm), e0]
    norm_num

/-- The one-hot matrix: entry (g, k) is one exactly when lane k's batch word is the number g. -/
theorem onehot_apply (v6 : Vec Ideal S1x2048 .i32) (g : Fin 512) (k : Fin 2048) :
    k4_pay3 (F := Ideal) v6 (ix2 g k) = hit (v6 (ix2 (0 : Fin 1) k)) g.val := by
  unfold k4_pay3
  show FloatOps.sitofp (F := Ideal) .f32 ((IntOp.cmpi .eq (iota .tc S512x2048 32 [0] iota_S512x2048_d0_w32 (ix2 g k))
      (broadcastTo S512x2048 (shapeCast S1x2048 v6 shapeCasts_S1x2048_S1x2048) broadcasts_S1x2048_S512x2048 (ix2 g k))).setWidth 32) = _
  rw [iota_single_apply, broadcastTo_apply _ _ (ix2 g k) (ix2 (0 : Fin 1) k) (fun a => by
    match a with
    | ⟨0, _⟩ => rfl
    | ⟨1, _⟩ => rfl), shapeCast_self, sitofp_bit]
  rfl

/-- The matmul's dimension numbers: rows of the one-hot against columns of the features. -/
abbrev D4 : DotDims S512x2048 S2048x128 S512x128 := dot_S512x2048_S2048x128_S512x128_1_0_0_1_n_n

theorem D4_lhs_0 (j : S512x128.Idx) (k : D4.contr.Idx) : (D4.lhsIdx j k 0).val = (j 0).val := by
  simp [DotDims.lhsIdx, D4, dot_S512x2048_S2048x128_S512x128_1_0_0_1_n_n]; rfl
theorem D4_lhs_1 (j : S512x128.Idx) (k : D4.contr.Idx) : (D4.lhsIdx j k 1).val = (k ⟨0, by decide⟩).val :=
  DotDims.lhsIdx_val_of_single (d := D4) (cl := 1) rfl j k
theorem D4_rhs_0 (j : S512x128.Idx) (k : D4.contr.Idx) : (D4.rhsIdx j k 0).val = (k ⟨0, by decide⟩).val :=
  DotDims.rhsIdx_val_of_single (d := D4) (cr := 0) rfl j k
theorem D4_rhs_1 (j : S512x128.Idx) (k : D4.contr.Idx) : (D4.rhsIdx j k 1).val = (j 1).val := by
  simp [DotDims.rhsIdx, D4, dot_S512x2048_S2048x128_S512x128_1_0_0_1_n_n]; rfl

/-- The sums' update: entry (g, f) gains the tile's features of the lanes whose batch word is g. -/
theorem pay4_apply (v3 : Vec Ideal S2048x128 .f32) (v6 : Vec Ideal S1x2048 .i32) (v14 : Vec Ideal S512x128 .f32)
    (g : Fin 512) (f : Fin 128) :
    k4_pay4 (F := Ideal) v3 v6 v14 (ix2 g f)
      = v14 (ix2 g f) + ∑ k : Fin 2048, hit (v6 (ix2 (0 : Fin 1) k)) g.val * v3 (ix2 k f) := by
  unfold k4_pay4
  show shapeCast S512x128 v14 shapeCasts_S512x128_S512x128 (ix2 g f)
      + FloatOps.matmul D4 none (truncf .bf16 (k4_pay3 (F := Ideal) v6) bitsLt_bf16_f32)
          (truncf .bf16 (shapeCast S2048x128 v3 shapeCasts_S2048x128_S2048x128) bitsLt_bf16_f32)
          (constant (F := Ideal) S512x128 .f32 0x00000000#32) (ix2 g f) = _
  rw [shapeCast_self, shapeCast_self]
  refine congrArg (v14 (ix2 g f) + ·) ?_
  refine (Ideal.matmul_constant_zero_apply D4 none _ _ (ix2 g f)).trans ?_
  rw [← Equiv.sum_comp (contrEquiv1 D4 2048 rfl rfl).symm]
  refine Finset.sum_congr rfl fun k _ => ?_
  have ck := contrEquiv1_symm_val D4 2048 rfl rfl k
  have l2 : D4.lhsIdx (ix2 g f) ((contrEquiv1 D4 2048 rfl rfl).symm k) = ix2 g k := by
    funext ax; apply Fin.ext
    match ax with
    | ⟨0, _⟩ => exact D4_lhs_0 _ _
    | ⟨1, _⟩ => exact (D4_lhs_1 _ _).trans ck
  have r2 : D4.rhsIdx (ix2 g f) ((contrEquiv1 D4 2048 rfl rfl).symm k) = ix2 k f := by
    funext ax; apply Fin.ext
    match ax with
    | ⟨0, _⟩ => exact (D4_rhs_0 _ _).trans ck
    | ⟨1, _⟩ => exact D4_rhs_1 _ _
  rw [l2, r2]
  show k4_pay3 (F := Ideal) v6 (ix2 g k) * v3 (ix2 k f) = _
  rw [onehot_apply]

/-- The counts' update: entry g gains the number of lanes whose batch word is g. -/
theorem pay5_apply (v6 : Vec Ideal S1x2048 .i32) (v19 : Vec Ideal S512x1 .f32) (g : Fin 512) :
    k4_pay5 (F := Ideal) v6 v19 (ix2 g (0 : Fin 1))
      = v19 (ix2 g (0 : Fin 1)) + ∑ k : Fin 2048, hit (v6 (ix2 (0 : Fin 1) k)) g.val := by
  unfold k4_pay5
  show shapeCast S512x1 v19 shapeCasts_S512x1_S512x1 (ix2 g (0 : Fin 1))
      + shapeCast S512x1 (multiReduction (F := Ideal) .add [1] S512 (k4_pay3 (F := Ideal) v6) 0x00000000#32 reduces_S512x2048_S512 (.inl rfl) rfl)
          shapeCasts_S512_S512x1 (ix2 g (0 : Fin 1)) = _
  rw [shapeCast_self]
  refine congrArg (v19 (ix2 g (0 : Fin 1)) + ·) ?_
  refine (shapeCast_apply _ _ (ix2 g (0 : Fin 1)) (ix1 g) (by
    rw [Shape.rowMajor_val_one, Shape.rowMajor_val_two]; show g.val = g.val * 1 + 0; omega)).trans ?_
  refine (Ideal.multiReduction_add_single _ _ reduces_S512x2048_S512 _ _ (ix1 g)).trans ?_
  refine Finset.sum_congr rfl fun k _ => ?_
  have hl : reduces_S512x2048_S512.lift (ix1 g) k = ix2 g k := by
    funext ax; apply Fin.ext
    match ax with
    | ⟨0, _⟩ => rfl
    | ⟨1, _⟩ => rfl
  rw [hl]
  exact onehot_apply v6 g k

/-- The zero splats the first point stores. -/
theorem pay1_apply (i : S512x128.Idx) : k4_pay1 (F := Ideal) i = 0 := by
  show Ideal.ofBits .f32 0x00000000#32 = 0
  exact Ideal.ofBits_zero_f32
theorem pay2_apply (i : S512x1.Idx) : k4_pay2 (F := Ideal) i = 0 := by
  show Ideal.ofBits .f32 0x00000000#32 = 0
  exact Ideal.ofBits_zero_f32
end payloads

/-! ## The carried pair is the running sum over the tiles -/

section run
open Idealize.ShloMosaic.ValueIdx Cert.PoolSpec

-- the TensorCore's buffer contents when a region is entered
variable (V : (c : Dev nD) → (b : Ref sig .tc) → Buf (Elt Ideal) ((c : Thread nD τ).loc b))

/-- The tile of features and the tile of batch words the windows stage at a point. -/
abbrev hbBlk (c : Dev nD) (t : Fin cfg4.N) : Vec Ideal S2048x128 .f32 := iblk4 V c 0 t
abbrev bwBlk (c : Dev nD) (t : Fin cfg4.N) : Vec Ideal S1x2048 .i32 := iblk4 V c 1 t

/-- The windows' block indices: the features' tile moves down the rows, the batch words' tile along the lanes. -/
theorem idx4 : ∀ t : Fin cfg4.N, win4_0.index t 0 = t.val ∧ win4_0.index t 1 = 0 ∧ win4_1.index t 0 = 0 ∧ win4_1.index t 1 = t.val :=
  (by decide +kernel : ∀ t : Fin grid4.N, win4_0.index t 0 = t.val ∧ win4_0.index t 1 = 0 ∧ win4_1.index t 0 = 0 ∧ win4_1.index t 1 = t.val)

/-- Lane k, column f of the features' tile at point n is row 2048 n + k of the padded features. -/
theorem hbBlk_apply (c : Dev nD) (n : ℕ) (h : n < cfg4.N) (h' : n < 49) (k : Fin 2048) (f : Fin 128) :
    hbBlk V c ⟨n, h⟩ (ix2 k f) = V c main_v65 (ix2 (row ⟨n, h'⟩ k) f) := by
  show iblk4 V c 0 ⟨n, h⟩ (ix2 k f) = _
  unfold iblk4
  rw [View.read_apply]
  show V c main_v65 _ = V c main_v65 _
  congr 1
  funext a
  apply Fin.ext
  match a with
  | ⟨0, _⟩ => show win4_0.index ⟨n, h⟩ 0 * 2048 + 1 * k.val = n * 2048 + k.val; rw [(idx4 ⟨n, h⟩).1]; show n * 2048 + 1 * k.val = n * 2048 + k.val; omega
  | ⟨1, _⟩ => show win4_0.index ⟨n, h⟩ 1 * 128 + 1 * f.val = f.val; rw [(idx4 ⟨n, h⟩).2.1]; omega

/-- Lane k of the batch words' tile at point n is word 2048 n + k of the padded batch words. -/
theorem bwBlk_apply (c : Dev nD) (n : ℕ) (h : n < cfg4.N) (h' : n < 49) (k : Fin 2048) :
    bwBlk V c ⟨n, h⟩ (ix2 (0 : Fin 1) k) = V c main_v67 (ix2 (0 : Fin 1) (row ⟨n, h'⟩ k)) := by
  show iblk4 V c 1 ⟨n, h⟩ (ix2 (0 : Fin 1) k) = _
  unfold iblk4
  rw [View.read_apply]
  show V c main_v67 _ = V c main_v67 _
  congr 1
  funext a
  apply Fin.ext
  match a with
  | ⟨0, _⟩ => show win4_1.index ⟨n, h⟩ 0 * 1 + 1 * 0 = 0; rw [(idx4 ⟨n, h⟩).2.2.1]
  | ⟨1, _⟩ => show win4_1.index ⟨n, h⟩ 1 * 2048 + 1 * k.val = n * 2048 + k.val; rw [(idx4 ⟨n, h⟩).2.2.2]; show n * 2048 + 1 * k.val = n * 2048 + k.val; omega

/-- Tile n's share of the pooled sum at (g, f), and of the pooled count at g; nothing past the last tile. -/
def tileS (hbp : (⟨2, ![100352, 128]⟩ : Shape).Idx → EReal) (bp : (⟨2, ![1, 100352]⟩ : Shape).Idx → BitVec 32)
    (n g : ℕ) (f : Fin 128) : EReal :=
  if h : n < 49 then ∑ k : Fin 2048, hit (bp (ix2 (0 : Fin 1) (row ⟨n, h⟩ k))) g * hbp (ix2 (row ⟨n, h⟩ k) f) else 0
def tileC (bp : (⟨2, ![1, 100352]⟩ : Shape).Idx → BitVec 32) (n g : ℕ) : EReal :=
  if h : n < 49 then ∑ k : Fin 2048, hit (bp (ix2 (0 : Fin 1) (row ⟨n, h⟩ k))) g else 0

/-- The pooled sums and counts over the first n tiles. -/
def sumsTo (hbp : (⟨2, ![100352, 128]⟩ : Shape).Idx → EReal) (bp : (⟨2, ![1, 100352]⟩ : Shape).Idx → BitVec 32) (n : ℕ) :
    Vec Ideal S512x128 .f32 := fun i => ∑ t ∈ Finset.range n, tileS hbp bp t (i 0).val (i 1)
def cntsTo (bp : (⟨2, ![1, 100352]⟩ : Shape).Idx → BitVec 32) (n : ℕ) :
    Vec Ideal S512x1 .f32 := fun i => ∑ t ∈ Finset.range n, tileC bp t (i 0).val

/-- All 49 tiles give the pooled sums … -/
theorem sumsP_eq (hbp : (⟨2, ![100352, 128]⟩ : Shape).Idx → EReal) (bp : (⟨2, ![1, 100352]⟩ : Shape).Idx → BitVec 32) :
    sumsP hbp bp = sumsTo hbp bp 49 := by
  funext i
  unfold sumsP sumsTo
  rw [Finset.sum_range]
  refine Finset.sum_congr rfl fun t _ => ?_
  unfold tileS
  rw [dif_pos t.isLt]
/-- … and the pooled counts. -/
theorem cntsP_eq (bp : (⟨2, ![1, 100352]⟩ : Shape).Idx → BitVec 32) : cntsP bp = cntsTo bp 49 := by
  funext i
  unfold cntsP cntsTo
  rw [Finset.sum_range]
  refine Finset.sum_congr rfl fun t _ => ?_
  unfold tileC
  rw [dif_pos t.isLt]

/-- One more tile: the sums' update of the running sums over n tiles by tile n is the running sums over n + 1. -/
theorem sums_step (c : Dev nD) (n : ℕ) (h : n < cfg4.N) (acc : Vec Ideal S512x128 .f32)
    (hacc : ∀ i, acc i = sumsTo (V c main_v65) (V c main_v67) n i) :
    k4_pay4 (F := Ideal) (hbBlk V c ⟨n, h⟩) (bwBlk V c ⟨n, h⟩) acc = sumsTo (V c main_v65) (V c main_v67) (n + 1) := by
  have h' : n < 49 := lt_of_lt_of_eq h (show cfg4.N = 49 from N_4)
  funext i
  obtain ⟨g, f, rfl⟩ : ∃ (g : Fin 512) (f : Fin 128), i = ix2 g f := ⟨i 0, i 1, eq_ix2 i⟩
  refine (pay4_apply _ _ _ g f).trans ?_
  rw [hacc]
  unfold sumsTo
  rw [Finset.sum_range_succ]
  refine congrArg (_ + ·) ?_
  show _ = tileS (V c main_v65) (V c main_v67) n g.val f
  unfold tileS
  rw [dif_pos h']
  refine Finset.sum_congr rfl fun k _ => ?_
  rw [hbBlk_apply V c n h h' k f, bwBlk_apply V c n h h' k]

theorem cnts_step (c : Dev nD) (n : ℕ) (h : n < cfg4.N) (acc : Vec Ideal S512x1 .f32)
    (hacc : ∀ i, acc i = cntsTo (V c main_v67) n i) :
    k4_pay5 (F := Ideal) (bwBlk V c ⟨n, h⟩) acc = cntsTo (V c main_v67) (n + 1) := by
  have h' : n < 49 := lt_of_lt_of_eq h (show cfg4.N = 49 from N_4)
  funext i
  obtain ⟨g, z, rfl⟩ : ∃ (g : Fin 512) (z : Fin 1), i = ix2 g z := ⟨i 0, i 1, eq_ix2 i⟩
  obtain rfl : z = 0 := Subsingleton.elim _ _
  refine (pay5_apply _ _ g).trans ?_
  rw [hacc]
  unfold cntsTo
  rw [Finset.sum_range_succ]
  refine congrArg (_ + ·) ?_
  show _ = tileC (V c main_v67) n g.val
  unfold tileC
  rw [dif_pos h']
  refine Finset.sum_congr rfl fun k _ => ?_
  rw [bwBlk_apply V c n h h' k]

/-- After point n the two staging buffers hold the pooled sums and counts over tiles 0 … n. -/
theorem outs_eq (c : Dev nD) : ∀ (n : ℕ) (h : n < cfg4.N),
    outsAt4 V c n h = (sumsTo (V c main_v65) (V c main_v67) (n + 1), cntsTo (V c main_v67) (n + 1))
  | 0, h => by
    rw [outsAt4_A V c ⟨0, h⟩ (Nat.zero_mod 49)]
    (try dsimp only)
    rw [piece_A_2 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩)
        (ms4_3 ⟨0, h⟩) (hs4_3 ⟨0, h⟩) ((hcond4_0 ⟨0, h⟩).mpr (Nat.zero_mod 49)) (iblk4 V c 0 ⟨0, h⟩) (iblk4 V c 1 ⟨0, h⟩),
      piece_A_3 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩)
        (ms4_3 ⟨0, h⟩) (hs4_3 ⟨0, h⟩) ((hcond4_0 ⟨0, h⟩).mpr (Nat.zero_mod 49)) (iblk4 V c 0 ⟨0, h⟩) (iblk4 V c 1 ⟨0, h⟩)]
    exact congrArg₂ Prod.mk
      (sums_step V c 0 h _ (fun i => by rw [pay1_apply]; unfold sumsTo; rw [Finset.sum_range_zero]))
      (cnts_step V c 0 h _ (fun i => by rw [pay2_apply]; unfold cntsTo; rw [Finset.sum_range_zero]))
  | n + 1, h => by
    have hN : cfg4.N = 49 := N_4
    have hB : ¬(⟨n + 1, h⟩ : Fin cfg4.N).val % 49 = 0 := by dsimp only; omega
    rw [outsAt4_B V c ⟨n + 1, h⟩ hB]
    (try dsimp only)
    rw [piece_B_2 (F := Ideal) c (grid4.coords ⟨n + 1, h⟩) (ms4_0 ⟨n + 1, h⟩) (hs4_0 ⟨n + 1, h⟩) (ms4_1 ⟨n + 1, h⟩) (hs4_1 ⟨n + 1, h⟩)
        (ms4_2 ⟨n + 1, h⟩) (hs4_2 ⟨n + 1, h⟩) (ms4_3 ⟨n + 1, h⟩) (hs4_3 ⟨n + 1, h⟩) (fun hh => hB ((hcond4_0 ⟨n + 1, h⟩).mp hh))
        (iblk4 V c 0 ⟨n + 1, h⟩) (iblk4 V c 1 ⟨n + 1, h⟩) _ _,
      piece_B_3 (F := Ideal) c (grid4.coords ⟨n + 1, h⟩) (ms4_0 ⟨n + 1, h⟩) (hs4_0 ⟨n + 1, h⟩) (ms4_1 ⟨n + 1, h⟩) (hs4_1 ⟨n + 1, h⟩)
        (ms4_2 ⟨n + 1, h⟩) (hs4_2 ⟨n + 1, h⟩) (ms4_3 ⟨n + 1, h⟩) (hs4_3 ⟨n + 1, h⟩) (fun hh => hB ((hcond4_0 ⟨n + 1, h⟩).mp hh))
        (iblk4 V c 0 ⟨n + 1, h⟩) (iblk4 V c 1 ⟨n + 1, h⟩) _ _]
    have ih := outs_eq c n (Nat.lt_of_succ_lt h)
    exact congrArg₂ Prod.mk
      (sums_step V c (n + 1) h _ (fun i => by
        show (outsAt4 V c n _).1 i = _
        rw [ih]))
      (cnts_step V c (n + 1) h _ (fun i => by
        show (outsAt4 V c n _).2 i = _
        rw [ih]))

end run

/-! ## The one write-back, at the last point, writes the whole of each output array -/

section lastPoint
open Idealize.ShloMosaic.ValueIdx Cert.PoolSpec

-- the TensorCore's buffer contents when a region is entered
variable (V : (c : Dev nD) → (b : Ref sig .tc) → Buf (Elt Ideal) ((c : Thread nD τ).loc b))

/-- The last point of the grid. -/
abbrev t48 : Fin cfg4.N := ⟨48, lt_of_lt_of_eq (by decide : 48 < 49) (show cfg4.N = 49 from N_4).symm⟩

/-- What the last point writes back to the sums' array: the pooled sums over all 49 tiles, the array's one block being the array. -/
theorem flushed2_eq (c : Dev nD) (t : Fin cfg4.N) (hf : (cfg4.win 2).flush t = true) :
    (dat4 (F := Ideal) V c).flushed 2 t
      = ((cfg4.win 2).blk t).view.read (Elt Ideal) (sumsTo (V c main_v65) (V c main_v67) 49) := by
  have hN : cfg4.N = 49 := N_4
  have h48 : t.val = 48 := by have := (flush4_2 t).mp hf; have := t.isLt; omega
  obtain rfl : t = t48 := Fin.ext h48
  show (cfg4.win 2).cut (grid4.coords t48) ((dat4 (F := Ideal) V c).after 2 t48) = _
  rw [after4_2, outs_eq]
  have hz' : (fun a => win4_2.index t48 a * main_v68_0.ty.shape.size a) = fun _ => 0 := funext fun a => by fin_cases a <;> decide
  exact (Memref.read_access_unit_zero (Elt Ideal) main_v68_0 hz' (fun a => by rw [congrFun hz' a]; simp)
    (sumsTo (V c main_v65) (V c main_v67) 49)).symm

/-- What the last point writes back to the counts' array: the pooled counts over all 49 tiles. -/
theorem flushed3_eq (c : Dev nD) (t : Fin cfg4.N) (hf : (cfg4.win 3).flush t = true) :
    (dat4 (F := Ideal) V c).flushed 3 t
      = ((cfg4.win 3).blk t).view.read (Elt Ideal) (cntsTo (V c main_v67) 49) := by
  have hN : cfg4.N = 49 := N_4
  have h48 : t.val = 48 := by have := (flush4_3 t).mp hf; have := t.isLt; omega
  obtain rfl : t = t48 := Fin.ext h48
  show (cfg4.win 3).cut (grid4.coords t48) ((dat4 (F := Ideal) V c).after 3 t48) = _
  rw [after4_3, outs_eq]
  have hz' : (fun a => win4_3.index t48 a * main_v68_1.ty.shape.size a) = fun _ => 0 := funext fun a => by fin_cases a <;> decide
  exact (Memref.read_access_unit_zero (Elt Ideal) main_v68_1 hz' (fun a => by rw [congrFun hz' a]; simp)
    (cntsTo (V c main_v67) 49)).symm

end lastPoint

end Reg4

/-! ## The two output arrays after the region -/

section final
open Idealize.ShloMosaic.ValueIdx Cert.PoolSpec Reg4

-- the TensorCore's buffer contents when a region is entered
variable (V : (c : Dev nD) → (b : Ref sig .tc) → Buf (Elt Ideal) ((c : Thread nD τ).loc b))

/-- Region 4 leaves the pooled sums of its padded inputs in its first output array. -/
theorem reg4_sums (c : Dev nD) :
    (dat4 (F := Ideal) V c).arrAt 2 cfg4.N = Cert.PoolSpec.sumsP (V c main_v65) (V c main_v67) := by
  rw [sumsP_eq]
  exact (dat4 (F := Ideal) V c).arrAt_eq_of_cover 2 (sumsTo (V c main_v65) (V c main_v67) 49) (flushed2_eq V c) fun i =>
    ⟨t48, (flush4_2 t48).mpr rfl, by
      show i ∈ ((View.whole main_v68_0).slice (win4_2.rect t48)).set
      rw [View.set_slice_whole, Rect.mem_set_unit]
      intro a
      have h0 : (i 0 : Nat) < 512 := (i 0).isLt
      have h1 : (i 1 : Nat) < 128 := (i 1).isLt
      match a with
      | ⟨0, _⟩ => show win4_2.index t48 0 * win4_2.size 0 ≤ (i 0 : Nat) ∧ (i 0 : Nat) < win4_2.index t48 0 * win4_2.size 0 + win4_2.xsize (grid4.coords t48) 0
                  rw [show win4_2.index t48 0 * win4_2.size 0 = 0 from by decide +kernel, show win4_2.xsize (grid4.coords t48) 0 = 512 from by decide +kernel]; omega
      | ⟨1, _⟩ => show win4_2.index t48 1 * win4_2.size 1 ≤ (i 1 : Nat) ∧ (i 1 : Nat) < win4_2.index t48 1 * win4_2.size 1 + win4_2.xsize (grid4.coords t48) 1
                  rw [show win4_2.index t48 1 * win4_2.size 1 = 0 from by decide +kernel, show win4_2.xsize (grid4.coords t48) 1 = 128 from by decide +kernel]; omega⟩

/-- Region 4 leaves the pooled counts of its padded batch words in its second output array. -/
theorem reg4_cnts (c : Dev nD) :
    (dat4 (F := Ideal) V c).arrAt 3 cfg4.N = Cert.PoolSpec.cntsP (V c main_v67) := by
  rw [cntsP_eq]
  exact (dat4 (F := Ideal) V c).arrAt_eq_of_cover 3 (cntsTo (V c main_v67) 49) (flushed3_eq V c) fun i =>
    ⟨t48, (flush4_3 t48).mpr rfl, by
      show i ∈ ((View.whole main_v68_1).slice (win4_3.rect t48)).set
      rw [View.set_slice_whole, Rect.mem_set_unit]
      intro a
      have h0 : (i 0 : Nat) < 512 := (i 0).isLt
      have h1 : (i 1 : Nat) < 1 := (i 1).isLt
      match a with
      | ⟨0, _⟩ => show win4_3.index t48 0 * win4_3.size 0 ≤ (i 0 : Nat) ∧ (i 0 : Nat) < win4_3.index t48 0 * win4_3.size 0 + win4_3.xsize (grid4.coords t48) 0
                  rw [show win4_3.index t48 0 * win4_3.size 0 = 0 from by decide +kernel, show win4_3.xsize (grid4.coords t48) 0 = 512 from by decide +kernel]; omega
      | ⟨1, _⟩ => show win4_3.index t48 1 * win4_3.size 1 ≤ (i 1 : Nat) ∧ (i 1 : Nat) < win4_3.index t48 1 * win4_3.size 1 + win4_3.xsize (grid4.coords t48) 1
                  rw [show win4_3.index t48 1 * win4_3.size 1 = 0 from by decide +kernel, show win4_3.xsize (grid4.coords t48) 1 = 1 from by decide +kernel]; omega⟩

end final

end Cert.KernelIdeal.Val
end
-- ==== Proof.KReg5.lean ====
/- The classifier kernel: graph means, weight-normalised class vectors, their product, the bias. -/
import proofs.«413006_j28346784153649_1_alg».proof.Proof.Gen.KernelIdeal.Frame
import proofs.«413006_j28346784153649_1_alg».proof.Proof.Gen.ReferenceIdeal
import proofs.«413006_j28346784153649_1_alg».proof.Proof.Spec

import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.ValueIdx
open Idealize.ShloMosaic.Pipeline (Dat Cfg Window)
open Cert.KernelIdeal Cert.KernelIdeal.Gen
open Cert.ReferenceIdeal (Spec.proj Spec.rows Spec.lnorm Spec.elu Spec.blend Spec.poolSums Spec.poolCnts Spec.means Spec.classify Spec.convWith Spec.coef Spec.selfc Spec.rowOf Spec.out Spec.layer Spec.conv)

/-! ## Columns and rows read at an index -/

section Layout
variable {α : Type}

/-- A vector laid as a column reads, at row `p`, its entry `p`. -/
theorem colOf_apply {a : ℕ} (h : (⟨1, ![a]⟩ : Shape).BroadcastsInDim ⟨2, ![a, 1]⟩ ![0]) (x : (⟨1, ![a]⟩ : Shape).Idx → α)
    (p : Fin a) (u : Fin 1) : broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A vector laid as a row reads, at column `q`, its entry `q`. -/
theorem rowOf_apply {b : ℕ} (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector reshaped to a column reads, at row `p`, its entry `p`. -/
theorem colCast_apply {a : ℕ} (h : (⟨1, ![a]⟩ : Shape).ShapeCasts ⟨2, ![a, 1]⟩) (x : (⟨1, ![a]⟩ : Shape).Idx → α)
    (p : Fin a) (u : Fin 1) : shapeCast ⟨2, ![a, 1]⟩ x h (ix2 p u) = x (ix1 p) := by
  refine shapeCast_apply x h (ix2 p u) (ix1 p) ?_
  rw [Shape.rowMajor_val_one, Shape.rowMajor_val_two]
  show p.val = p.val * 1 + u.val
  have := u.isLt; omega

/-- A column repeated across `b` lanes by the host reads, at `(p, q)`, the column's entry `p`. -/
theorem colsInDim_apply {a b : ℕ} (h : (⟨2, ![a, 1]⟩ : Shape).BroadcastsInDim ⟨2, ![a, b]⟩ ![0, 1])
    (y : (⟨2, ![a, 1]⟩ : Shape).Idx → α) (p : Fin a) (q : Fin b) :
    broadcastInDim ⟨2, ![a, b]⟩ ![0, 1] h y (ix2 p q) = y (ix2 p (0 : Fin 1)) := by
  refine broadcastInDim_apply ![0, 1] h y (ix2 p q) (ix2 p (0 : Fin 1)) fun ax => ?_
  match ax with
  | ⟨0, _⟩ =>
    show p.val = if a = 1 then 0 else p.val
    split
    · have := p.isLt; omega
    · rfl
  | ⟨1, _⟩ => rfl

/-- A column repeated across `b` lanes by the kernel reads, at `(p, q)`, the column's entry `p`. -/
theorem colsTo_apply {a b : ℕ} (h : (⟨2, ![a, 1]⟩ : Shape).Broadcasts ⟨2, ![a, b]⟩)
    (y : (⟨2, ![a, 1]⟩ : Shape).Idx → α) (p : Fin a) (q : Fin b) :
    broadcastTo ⟨2, ![a, b]⟩ y h (ix2 p q) = y (ix2 p (0 : Fin 1)) := by
  refine broadcastTo_apply y h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic in three named pieces -/

/-- The kernel's graph means: the sums over the count column clamped below at one and repeated across the lanes. -/
def kMeans (x0 : Vec Ideal S512x128 .f32) (x1 : Vec Ideal S512x1 .f32) : FVec Ideal S512x128 .f32 :=
  divf (shapeCast S512x128 x0 shapeCasts_S512x128_S512x128)
    (broadcastTo S512x128
      (maximumf (shapeCast S512x1 x1 shapeCasts_S512x1_S512x1) (broadcast S512x1 (Scalar.ofBits .f32 0x3F800000#32)))
      broadcasts_S512x1_S512x128)

/-- The kernel's weight-normalised class vectors: scale column times vector over the root of the vector's sum of squares. -/
def kWn (x2 : Vec Ideal S10x128 .f32) (x3 : Vec Ideal S10x1 .f32) : FVec Ideal S10x128 .f32 :=
  divf (mulf (broadcastTo S10x128 (shapeCast S10x1 x3 shapeCasts_S10x1_S10x1) broadcasts_S10x1_S10x128) x2)
    (broadcastTo S10x128
      (sqrt (shapeCast S10x1
        (multiReduction .add [1] S10 (mulf x2 x2) 0x00000000#32 reduces_S10x128_S10 (.inl rfl) rfl) shapeCasts_S10_S10x1))
      broadcasts_S10x1_S10x128)

/-- The kernel's bias row repeated down the graphs. -/
def kBias (x4 : Vec Ideal S1x10 .f32) : FVec Ideal S512x10 .f32 :=
  broadcastTo S512x10 (shapeCast S1x10 x4 shapeCasts_S1x10_S1x10) broadcasts_S1x10_S512x10

/-- The payload is the product of the means and the transposed class vectors, into a zero accumulator, plus the bias. -/
theorem pay_split (x0 : Vec Ideal S512x128 .f32) (x1 : Vec Ideal S512x1 .f32) (x2 : Vec Ideal S10x128 .f32)
    (x3 : Vec Ideal S10x1 .f32) (x4 : Vec Ideal S1x10 .f32) :
    k5_pay1 (F := Ideal) x0 x1 x2 x3 x4
      = addf (matmul dot_S512x128_S128x10_S512x10_1_0_0_1_n_n none (truncf .bf16 (kMeans x0 x1) bitsLt_bf16_f32)
          (transpose S128x10 [1, 0] (truncf .bf16 (kWn x2 x3) bitsLt_bf16_f32) transposes_S10x128_p1_0_S128x10)
          (constant S512x10 .f32 0x00000000#32)) (kBias x4) := rfl

/-! ## Each piece is the reference's stage -/

/-- The kernel's means, its count column the column form of a vector, are the reference's. -/
theorem kMeans_eq (x0 : Vec Ideal S512x128 .f32) (cnts : Cert.ReferenceIdeal.Spec.FA Ideal Cert.ReferenceIdeal.S512) :
    kMeans x0 (broadcastInDim Cert.ReferenceIdeal.S512x1 ![0] Cert.ReferenceIdeal.Facts₀.bcast_S512_S512x1_0 cnts)
      = Cert.ReferenceIdeal.Spec.means x0 cnts := by
  funext j
  obtain ⟨p, q, rfl⟩ : ∃ (p : Fin 512) (q : Fin 128), j = ix2 p q := ⟨j 0, j 1, eq_ix2 j⟩
  unfold kMeans Cert.ReferenceIdeal.Spec.means
  show Ideal.div _ _ = Ideal.div _ _
  refine congrArg₂ Ideal.div ?_ ?_
  · rw [shapeCast_self]
  · refine (colsTo_apply _ _ p q).trans ?_
    refine Eq.trans ?_ (colsInDim_apply _ _ p q).symm
    refine Eq.trans ?_ (colOf_apply _ _ p 0).symm
    show max _ _ = max _ _
    refine congrArg₂ max ?_ ?_
    · rw [shapeCast_self]; exact colOf_apply _ _ p 0
    · refine Eq.trans ?_ (broadcastInDim_scalar_apply _ (constant (F := Ideal) Cert.ReferenceIdeal.S_ .f32 0x3F800000#32) (ix1 p)).symm
      rfl

/-- The kernel's normalised class vectors, the scale column the column form of a vector, are the reference's. -/
theorem kWn_eq (x2 : Vec Ideal S10x128 .f32) (cg : Cert.ReferenceIdeal.Spec.FA Ideal Cert.ReferenceIdeal.S10) :
    kWn x2 (broadcastInDim Cert.ReferenceIdeal.S10x1 ![0] Cert.ReferenceIdeal.Facts₀.bcast_S10_S10x1_0 cg)
      = Cert.ReferenceIdeal.Spec.wnorm x2 cg := by
  funext j
  obtain ⟨r, l, rfl⟩ : ∃ (r : Fin 10) (l : Fin 128), j = ix2 r l := ⟨j 0, j 1, eq_ix2 j⟩
  unfold kWn Cert.ReferenceIdeal.Spec.wnorm
  show Ideal.div _ _ = Ideal.div _ _
  refine congrArg₂ Ideal.div ?_ ?_
  · show _ * _ = _ * _
    refine congrArg₂ (· * ·) ?_ rfl
    refine (colsTo_apply _ _ r l).trans ?_
    refine Eq.trans ?_ (colsInDim_apply _ _ r l).symm
    rw [shapeCast_self]
  · refine (colsTo_apply _ _ r l).trans ?_
    refine Eq.trans ?_ (colsInDim_apply _ _ r l).symm
    show Ideal.sqrt _ = Ideal.sqrt _
    refine congrArg Ideal.sqrt ?_
    refine (colCast_apply _ _ r 0).trans ?_
    refine Eq.trans ?_ (colOf_apply _ _ r 0).symm
    exact congrFun (multiReduction_add_eq_hostReduceAdd (mulf x2 x2) 0x00000000#32 reduces_S10x128_S10 (.inl rfl) rfl
      (constant (F := Ideal) Cert.ReferenceIdeal.S_ .f32 0x00000000#32) Cert.ReferenceIdeal.Facts₀.reducesTo_S10x128_S10_d1
      Cert.ReferenceIdeal.Facts₀.h_S_ Ideal.ofBits_zero_f32) (ix1 r)

/-- The kernel's bias, its row the row form of a vector, is the reference's. -/
theorem kBias_eq (cb : Cert.ReferenceIdeal.Spec.FA Ideal Cert.ReferenceIdeal.S10) :
    kBias (broadcastInDim Cert.ReferenceIdeal.S1x10 ![1] Cert.ReferenceIdeal.Facts₀.bcast_S10_S1x10_1 cb)
      = broadcastInDim Cert.ReferenceIdeal.S512x10 ![0, 1] Cert.ReferenceIdeal.Facts₀.bcast_S1x10_S512x10_0_1
          (broadcastInDim Cert.ReferenceIdeal.S1x10 ![1] Cert.ReferenceIdeal.Facts₀.bcast_S10_S1x10_1 cb) := by
  funext j
  obtain ⟨p, q, rfl⟩ : ∃ (p : Fin 512) (q : Fin 10), j = ix2 p q := ⟨j 0, j 1, eq_ix2 j⟩
  unfold kBias
  rw [shapeCast_self]
  exact (broadcastTo_1b_ab_apply _ _ p q).trans (broadcastInDim_oneRow_apply _ _ p q).symm

-- the TensorCore's buffer contents when a region is entered
variable (V : (c : Dev nD) → (b : Ref sig .tc) → Buf (Elt Ideal) ((c : Thread nD τ).loc b))

/-- The payload, its count column, scale column and bias row the forms of vectors, is the reference's classifier of the
    reference's means: the product into a zero accumulator is the host's product, term by term. -/
theorem pay_eq (x0 : Vec Ideal S512x128 .f32) (cnts : Cert.ReferenceIdeal.Spec.FA Ideal Cert.ReferenceIdeal.S512)
    (x2 : Vec Ideal S10x128 .f32) (cg cb : Cert.ReferenceIdeal.Spec.FA Ideal Cert.ReferenceIdeal.S10) :
    k5_pay1 (F := Ideal) x0
        (broadcastInDim Cert.ReferenceIdeal.S512x1 ![0] Cert.ReferenceIdeal.Facts₀.bcast_S512_S512x1_0 cnts) x2
        (broadcastInDim Cert.ReferenceIdeal.S10x1 ![0] Cert.ReferenceIdeal.Facts₀.bcast_S10_S10x1_0 cg)
        (broadcastInDim Cert.ReferenceIdeal.S1x10 ![1] Cert.ReferenceIdeal.Facts₀.bcast_S10_S1x10_1 cb)
      = Cert.ReferenceIdeal.Spec.classify (Cert.ReferenceIdeal.Spec.means x0 cnts) x2 cg cb := by
  rw [pay_split, kMeans_eq, kWn_eq, kBias_eq]
  unfold Cert.ReferenceIdeal.Spec.classify
  refine congrArg₂ addf ?_ rfl
  funext j
  show FloatOps.matmul _ none _ _ (constant S512x10 .f32 0x00000000#32) j = FloatOps.dotGeneral _ none _ _ _ j
  rw [Ideal.matmul_constant_zero_apply, Ideal.dotGeneral_apply]
  rfl

/-! ## From the one point's block to the array -/

theorem hz : (![0, 0] : Fin 2 → Nat) = fun _ => 0 := funext fun a => by fin_cases a <;> rfl

/-- Every window's block index is zero on both axes at the grid's one point: each block is its whole array. -/
theorem idx_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

section Blocks
variable (c : Dev nD) (t : Fin cfg5.N)

/-- The sums' block is the sums' array. -/
theorem blk0_eq : (iblk5 V c 0 t : Vec Ideal S512x128 .f32) = V c main_v68_0 := by
  obtain ⟨e0, e1, -⟩ := idx_zero t
  funext y
  show V c main_v68_0 (((cfg5.win 0).blk t).view.emb y) = V c main_v68_0 y
  refine congrArg (V c main_v68_0) (funext fun a => Fin.ext ?_)
  match a with
  | ⟨0, _⟩ => show win5_0.index t (0 : Fin 2) * 512 + 1 * (y 0).val = (y 0).val; omega
  | ⟨1, _⟩ => show win5_0.index t (1 : Fin 2) * 128 + 1 * (y 1).val = (y 1).val; omega

/-- The count column's block is its array. -/
theorem blk1_eq : (iblk5 V c 1 t : Vec Ideal S512x1 .f32) = V c main_v68_1 := by
  obtain ⟨-, -, e0, e1, -⟩ := idx_zero t
  funext y
  show V c main_v68_1 (((cfg5.win 1).blk t).view.emb y) = V c main_v68_1 y
  refine congrArg (V c main_v68_1) (funext fun a => Fin.ext ?_)
  match a with
  | ⟨0, _⟩ => show win5_1.index t (0 : Fin 2) * 512 + 1 * (y 0).val = (y 0).val; omega
  | ⟨1, _⟩ => show win5_1.index t (1 : Fin 2) * 1 + 1 * (y 1).val = (y 1).val; omega

/-- The class vectors' block is their array. -/
theorem blk2_eq : (iblk5 V c 2 t : Vec Ideal S10x128 .f32) = V c main_arg12 := by
  obtain ⟨-, -, -, -, e0, e1, -⟩ := idx_zero t
  funext y
  show V c main_arg12 (((cfg5.win 2).blk t).view.emb y) = V c main_arg12 y
  refine congrArg (V c main_arg12) (funext fun a => Fin.ext ?_)
  match a with
  | ⟨0, _⟩ => show win5_2.index t (0 : Fin 2) * 10 + 1 * (y 0).val = (y 0).val; omega
  | ⟨1, _⟩ => show win5_2.index t (1 : Fin 2) * 128 + 1 * (y 1).val = (y 1).val; omega

/-- The scale column's block is its array. -/
theorem blk3_eq : (iblk5 V c 3 t : Vec Ideal S10x1 .f32) = V c main_v69 := by
  obtain ⟨-, -, -, -, -, -, e0, e1, -⟩ := idx_zero t
  funext y
  show V c main_v69 (((cfg5.win 3).blk t).view.emb y) = V c main_v69 y
  refine congrArg (V c main_v69) (funext fun a => Fin.ext ?_)
  match a with
  | ⟨0, _⟩ => show win5_3.index t (0 : Fin 2) * 10 + 1 * (y 0).val = (y 0).val; omega
  | ⟨1, _⟩ => show win5_3.index t (1 : Fin 2) * 1 + 1 * (y 1).val = (y 1).val; omega

/-- The bias row's block is its array. -/
theorem blk4_eq : (iblk5 V c 4 t : Vec Ideal S1x10 .f32) = V c main_v70 := by
  obtain ⟨-, -, -, -, -, -, -, -, e0, e1, -⟩ := idx_zero t
  funext y
  show V c main_v70 (((cfg5.win 4).blk t).view.emb y) = V c main_v70 y
  refine congrArg (V c main_v70) (funext fun a => Fin.ext ?_)
  match a with
  | ⟨0, _⟩ => show win5_4.index t (0 : Fin 2) * 1 + 1 * (y 0).val = (y 0).val; omega
  | ⟨1, _⟩ => show win5_4.index t (1 : Fin 2) * 10 + 1 * (y 1).val = (y 1).val; omega

/-- An index of the output's block sits at itself in the output array. -/
theorem emb5_eq (y : S512x10.Idx) : ((cfg5.win 5).blk t).view.emb y = y := by
  obtain ⟨-, -, -, -, -, -, -, -, -, -, e0, e1⟩ := idx_zero t
  funext a; apply Fin.ext
  match a with
  | ⟨0, _⟩ => show win5_5.index t (0 : Fin 2) * 512 + 1 * (y 0).val = (y 0).val; omega
  | ⟨1, _⟩ => show win5_5.index t (1 : Fin 2) * 10 + 1 * (y 1).val = (y 1).val; omega

end Blocks

/-- What the one point writes back is the block of the reference's logits. -/
theorem flushed5_eq (c : Dev nD) (cnts : Cert.ReferenceIdeal.Spec.FA Ideal Cert.ReferenceIdeal.S512)
    (cg cb : Cert.ReferenceIdeal.Spec.FA Ideal Cert.ReferenceIdeal.S10)
    (hc : V c main_v68_1 = broadcastInDim Cert.ReferenceIdeal.S512x1 ![0] Cert.ReferenceIdeal.Facts₀.bcast_S512_S512x1_0 cnts)
    (hg : V c main_v69 = broadcastInDim Cert.ReferenceIdeal.S10x1 ![0] Cert.ReferenceIdeal.Facts₀.bcast_S10_S10x1_0 cg)
    (hb : V c main_v70 = broadcastInDim Cert.ReferenceIdeal.S1x10 ![1] Cert.ReferenceIdeal.Facts₀.bcast_S10_S1x10_1 cb)
    (t : Fin cfg5.N) :
    (dat5 (F := Ideal) V c).flushed 5 t = ((cfg5.win 5).blk t).view.read (Elt Ideal)
      (Cert.ReferenceIdeal.Spec.classify (Cert.ReferenceIdeal.Spec.means (V c main_v68_0) cnts) (V c main_arg12) cg cb) := by
  show (cfg5.win 5).cut (grid5.coords t) ((dat5 V c).after 5 t) = _
  rw [after5_5]
  unfold out5_5
  rw [View.canon_unit_zero hz]
  simp only [View.ld_unit_zero (S := S512x128) hz, View.ld_unit_zero (S := S512x1) hz, View.ld_unit_zero (S := S10x128) hz,
    View.ld_unit_zero (S := S10x1) hz, View.ld_unit_zero (S := S1x10) hz]
  rw [blk0_eq V c t, blk1_eq V c t, blk2_eq V c t, blk3_eq V c t, blk4_eq V c t, hc, hg, hb, pay_eq]
  funext y
  show _ = Cert.ReferenceIdeal.Spec.classify (Cert.ReferenceIdeal.Spec.means (V c main_v68_0) cnts) (V c main_arg12) cg cb
    (((cfg5.win 5).blk t).view.emb y)
  rw [emb5_eq t y]

/-- An index of the output array is in a point's block iff each coordinate is in the block's range on its axis. -/
theorem mem_blk5 (t : Fin cfg5.N) (i : S512x10.Idx) :
    i ∈ ((cfg5.win 5).blk t).view.set ↔ ∀ a : Fin 2, win5_5.index t a * S512x10.size a ≤ (i a).val
      ∧ (i a).val < win5_5.index t a * S512x10.size a + S512x10.size a := by
  show i ∈ ((View.whole main_v71).slice (win5_5.rect t)).set ↔ _
  rw [View.set_slice_whole, Rect.mem_set_unit]
  exact Iff.rfl

/-- The one point's block covers the output array. -/
theorem cover5 (i : S512x10.Idx) : ∃ t : Fin cfg5.N, (cfg5.win 5).flush t = true ∧ i ∈ ((cfg5.win 5).blk t).view.set := by
  have t0 : Fin cfg5.N := ⟨0, by decide⟩
  obtain ⟨-, -, -, -, -, -, -, -, -, -, e0, e1⟩ := idx_zero t0
  refine ⟨t0, flush5_5 t0, ?_⟩
  rw [mem_blk5]
  intro a
  match a with
  | ⟨0, _⟩ =>
    show win5_5.index t0 (0 : Fin 2) * 512 ≤ (i 0).val ∧ (i 0).val < win5_5.index t0 (0 : Fin 2) * 512 + 512
    have h : (i 0).val < 512 := (i 0).isLt; omega
  | ⟨1, _⟩ =>
    show win5_5.index t0 (1 : Fin 2) * 10 ≤ (i 1).val ∧ (i 1).val < win5_5.index t0 (1 : Fin 2) * 10 + 10
    have h : (i 1).val < 10 := (i 1).isLt; omega

/-- Region 5 leaves the logits in its output array, when its count column, scale column and bias row are the column and
    row forms of vectors. -/
theorem reg5_out (c : Dev nD) (cnts : Cert.ReferenceIdeal.Spec.FA Ideal Cert.ReferenceIdeal.S512)
    (cg cb : Cert.ReferenceIdeal.Spec.FA Ideal Cert.ReferenceIdeal.S10)
    (hc : V c main_v68_1 = broadcastInDim Cert.ReferenceIdeal.S512x1 ![0] Cert.ReferenceIdeal.Facts₀.bcast_S512_S512x1_0 cnts)
    (hg : V c main_v69 = broadcastInDim Cert.ReferenceIdeal.S10x1 ![0] Cert.ReferenceIdeal.Facts₀.bcast_S10_S10x1_0 cg)
    (hb : V c main_v70 = broadcastInDim Cert.ReferenceIdeal.S1x10 ![1] Cert.ReferenceIdeal.Facts₀.bcast_S10_S1x10_1 cb) :
    (dat5 (F := Ideal) V c).arrAt 5 cfg5.N
      = Cert.ReferenceIdeal.Spec.classify (Cert.ReferenceIdeal.Spec.means (V c main_v68_0) cnts) (V c main_arg12) cg cb :=
  (dat5 (F := Ideal) V c).arrAt_eq_of_cover 5 _ (fun t _ => flushed5_eq V c cnts cg cb hc hg hb t) cover5

end Cert.KernelIdeal.Val

end
-- ==== Proof.PadDefs.lean ====
/- The two paddings the kernel's program applies before pooling: 352 zero rows under the node features, and 352 words of
   -1 after the batch ids, the latter then viewed as one row. -/
import proofs.«413006_j28346784153649_1_alg».proof.Proof.Gen.KernelIdeal
import Idealize.ShloMosaic.PureOps.Ideal

noncomputable section

namespace Cert.KernelIdeal.Val

open Idealize.ShloMosaic Idealize.ShloMosaic.TcCoe
open Cert.KernelIdeal Cert.KernelIdeal.Facts₀ Cert.KernelIdeal.Facts

/-- The node features with 352 rows of zero appended. -/
def padRows (x : Vec Ideal S100000x128 .f32) : Vec Ideal S100352x128 .f32 :=
  pad S100352x128 ![0, 0] ![352, 0] ![0, 0] x (sitofp (F := Ideal) .f32 (constantI S_ 32 0#32))
    pads_S100000x128_S100352x128_03520_000 h_S_

/-- The batch ids with 352 words of -1 appended, as one row of 100352. -/
def padBatch (b : IVec S100000 32) : IVec S1x100352 32 :=
  shapeCast S1x100352 (pad S100352 ![0] ![352] ![0] b (id (constantI S_ 32 4294967295#32)) pads_S100000_S100352_03520 h_S_)
    shapeCasts_S100352_S1x100352

end Cert.KernelIdeal.Val

end
-- ==== Proof.KHost.lean ====
/- The host operations of the kernel's program between its regions, each stretch read at the buffers a later region takes:
   the edge coefficients, the convolution's aggregation, the row forms of the vectors, the paddings. The same operations as
   the reference's, so each is a stage of the specification applied to what the stretch finds. -/
import proofs.«413006_j28346784153649_1_alg».proof.Proof.Gen.KernelIdeal.Launch
import proofs.«413006_j28346784153649_1_alg».proof.Proof.Gen.ReferenceIdeal
import proofs.«413006_j28346784153649_1_alg».proof.Proof.Spec
import proofs.«413006_j28346784153649_1_alg».proof.Proof.PadDefs
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable (W : Valuation τ sig (Elt Ideal))

/-! ## A vector viewed as a column or as a row

A reshape of a length-`n` vector to `n×1` or to `1×n` reads, at `(a, b)`, the vector at the one coordinate that is not
the unit one; so does the `broadcast_in_dim` that names that axis. Both are read at a literal index and compared. -/

section Layout
variable {α : Type}
open Idealize.ShloMosaic.ValueIdx

/-- Ten entries as a column: the reshape is the broadcast along axis 0. -/
theorem cast_col10 (x : Cert.KernelIdeal.S10.Idx → α) :
    shapeCast S10x1 x Gen.shapeCasts_S10_S10x1
      = broadcastInDim Cert.ReferenceIdeal.S10x1 ![0] Cert.ReferenceIdeal.Facts₀.bcast_S10_S10x1_0 x := by
  funext j
  obtain ⟨a, b, rfl⟩ : ∃ a b, j = ix2 a b := ⟨_, _, eq_ix2 j⟩
  rw [shapeCast_apply x _ (ix2 a b) (ix1 a) ?_, broadcastInDim_apply ![0] _ x (ix2 a b) (ix1 a) ?_]
  · intro d
    have hd : d = 0 := Subsingleton.elim _ _
    subst hd
    rw [if_neg (by decide)]
    rfl
  · rw [Shape.rowMajor_val_two, Shape.rowMajor_val_one]
    show a.val = a.val * 1 + b.val
    omega

/-- Ten entries as a row: the reshape is the broadcast along axis 1. -/
theorem cast_row10 (x : Cert.KernelIdeal.S10.Idx → α) :
    shapeCast S1x10 x Gen.shapeCasts_S10_S1x10
      = broadcastInDim Cert.ReferenceIdeal.S1x10 ![1] Cert.ReferenceIdeal.Facts₀.bcast_S10_S1x10_1 x := by
  funext j
  obtain ⟨a, b, rfl⟩ : ∃ a b, j = ix2 a b := ⟨_, _, eq_ix2 j⟩
  rw [shapeCast_a_1a_apply x _ a b, broadcastInDim_apply ![1] _ x (ix2 a b) (ix1 b) ?_]
  intro d
  have hd : d = 0 := Subsingleton.elim _ _
  subst hd
  rw [if_neg (by decide)]
  rfl

/-- A length-128 vector as a row: the reshape is the broadcast along axis 1. -/
theorem cast_row128 (x : Cert.KernelIdeal.S128.Idx → α) :
    shapeCast S1x128 x Gen.shapeCasts_S128_S1x128
      = broadcastInDim Cert.ReferenceIdeal.S1x128 ![1] Cert.ReferenceIdeal.Facts₀.bcast_S128_S1x128_1 x := by
  funext j
  obtain ⟨a, b, rfl⟩ : ∃ a b, j = ix2 a b := ⟨_, _, eq_ix2 j⟩
  rw [shapeCast_a_1a_apply x _ a b, broadcastInDim_apply ![1] _ x (ix2 a b) (ix1 b) ?_]
  intro d
  have hd : d = 0 := Subsingleton.elim _ _
  subst hd
  rw [if_neg (by decide)]
  rfl

end Layout

/-! ## The stretches

Each stretch is a literal list of operations; folding it over `W` and reading one result buffer gives a term of the
same operations applied to `W` at the buffers the stretch reads. The specification's stages are those same terms, over
the reference's copies of the shape names and of the gather and scatter records, which have the same literals: the two
sides agree operation by operation, and the gathers, the scatter-adds and the inverse root are never opened. -/

attribute [local irreducible] Host.gather Host.scatterAdd Host.rsqrt

/-- Before region 0: the per-edge coefficient column. -/
theorem host0_coef : after hostOps0 W (Proc.devRef .tc main_v22)
    = Cert.ReferenceIdeal.Spec.coef (W (Proc.devRef .tc main_arg1)) (W (Proc.devRef .tc main_arg2)) := by
  after_results_simp
  unfold Cert.ReferenceIdeal.Spec.coef Cert.ReferenceIdeal.Spec.wrapIdx Cert.ReferenceIdeal.Spec.dinv Cert.ReferenceIdeal.Spec.deg1
  rfl
/-- Before region 0: the per-node self-loop column. -/
theorem host0_selfc : after hostOps0 W (Proc.devRef .tc main_v24)
    = Cert.ReferenceIdeal.Spec.selfc (W (Proc.devRef .tc main_arg2)) := by
  after_results_simp
  unfold Cert.ReferenceIdeal.Spec.selfc Cert.ReferenceIdeal.Spec.dinv Cert.ReferenceIdeal.Spec.deg1
  rfl

/-- Between regions 0 and 1: the aggregation of the first projection. -/
theorem host1_pre : after hostOps1 W (Proc.devRef .tc main_v40)
    = Cert.ReferenceIdeal.Spec.convWith (W (Proc.devRef .tc main_v25)) (W (Proc.devRef .tc main_arg1)) (W (Proc.devRef .tc main_arg2))
        (W (Proc.devRef .tc main_v22)) (W (Proc.devRef .tc main_v24)) := by
  after_results_simp
  unfold Cert.ReferenceIdeal.Spec.convWith Cert.ReferenceIdeal.Spec.wrapIdx
  rfl
theorem host1_b : after hostOps1 W (Proc.devRef .tc main_v41) = Cert.ReferenceIdeal.Spec.rowOf (W (Proc.devRef .tc main_arg5)) := by
  after_results
  exact cast_row128 _
theorem host1_w : after hostOps1 W (Proc.devRef .tc main_v42) = Cert.ReferenceIdeal.Spec.rowOf (W (Proc.devRef .tc main_arg6)) := by
  after_results
  exact cast_row128 _
theorem host1_lb : after hostOps1 W (Proc.devRef .tc main_v43) = Cert.ReferenceIdeal.Spec.rowOf (W (Proc.devRef .tc main_arg7)) := by
  after_results
  exact cast_row128 _

/-- Between regions 2 and 3: the aggregation of the second projection. -/
theorem host3_pre : after hostOps3 W (Proc.devRef .tc main_v60)
    = Cert.ReferenceIdeal.Spec.convWith (W (Proc.devRef .tc main_v45)) (W (Proc.devRef .tc main_arg1)) (W (Proc.devRef .tc main_arg2))
        (W (Proc.devRef .tc main_v22)) (W (Proc.devRef .tc main_v24)) := by
  after_results_simp
  unfold Cert.ReferenceIdeal.Spec.convWith Cert.ReferenceIdeal.Spec.wrapIdx
  rfl
theorem host3_b : after hostOps3 W (Proc.devRef .tc main_v61) = Cert.ReferenceIdeal.Spec.rowOf (W (Proc.devRef .tc main_arg9)) := by
  after_results
  exact cast_row128 _
theorem host3_w : after hostOps3 W (Proc.devRef .tc main_v62) = Cert.ReferenceIdeal.Spec.rowOf (W (Proc.devRef .tc main_arg10)) := by
  after_results
  exact cast_row128 _
theorem host3_lb : after hostOps3 W (Proc.devRef .tc main_v63) = Cert.ReferenceIdeal.Spec.rowOf (W (Proc.devRef .tc main_arg11)) := by
  after_results
  exact cast_row128 _

/-- Before region 4: the padded node features. The padding value is the integer zero converted to a float. -/
theorem host4_rows : after hostOps4_1 (after hostOps4 W) (Proc.devRef .tc main_v65) = padRows (W (Proc.devRef .tc main_v64)) := by
  after_results
  unfold padRows
  rfl
/-- Before region 4: the padded batch ids as one row. The padding value is the all-ones word, that is -1. -/
theorem host4_batch : after hostOps4_4 (after hostOps4_3 (after hostOps4_2 W)) (Proc.devRef .tc main_v67)
    = padBatch (W (Proc.devRef .tc main_arg3)) := by
  after_results
  unfold padBatch
  rfl

/-- Before region 5: the class scales as a column, the class biases as a row. -/
theorem host5_g : after hostOps5 W (Proc.devRef .tc main_v69)
    = broadcastInDim Cert.ReferenceIdeal.S10x1 ![0] Cert.ReferenceIdeal.Facts₀.bcast_S10_S10x1_0 (W (Proc.devRef .tc main_arg13)) := by
  after_results
  exact cast_col10 _
theorem host5_b : after hostOps5 W (Proc.devRef .tc main_v70)
    = broadcastInDim Cert.ReferenceIdeal.S1x10 ![1] Cert.ReferenceIdeal.Facts₀.bcast_S10_S1x10_1 (W (Proc.devRef .tc main_arg14)) := by
  after_results
  exact cast_row10 _

end Cert.KernelIdeal.Val

end
-- ==== Proof.PoolMath.lean ====
/- Pooling by one-hot products over the padded arrays is pooling by segment sums: a padded row carries the word -1, which is
   no graph's number, and a real row lands on graph g exactly when its batch word is g. -/
import proofs.«413006_j28346784153649_1_alg».proof.Proof.Gen.ReferenceIdeal
import proofs.«413006_j28346784153649_1_alg».proof.Proof.Spec
import proofs.«413006_j28346784153649_1_alg».proof.Proof.PoolSpec
import proofs.«413006_j28346784153649_1_alg».proof.Proof.PadDefs
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Val

open Idealize.ShloMosaic Idealize.ShloMosaic.TcCoe Idealize.ShloMosaic.ValueIdx
open scoped BigOperators

/-! ## Where the sums scatter lands an update

The scatter of the feature rows has one index component per row (the batch word, read signed, on operand axis 0) and
one window axis (the feature, on operand axis 1): update (p, q) lands at (word of p, q) when the word is in 0 … 511,
and is dropped otherwise. -/
/-- The dimension numbers of the scatter of the feature rows. -/
abbrev dS := Cert.ReferenceIdeal.scatter_S512x128_S100000x1_S100000x128_1_0_0_1

/-- Update (p, q) reads its start index at row p of the index column. -/
theorem dS_siIdx (p : Fin 100000) (q : Fin 128) (c : Fin dS.scatterDimsToOperandDims.length) :
    dS.siIdx (ix2 p q) c = ix2 p (0 : Fin 1) := by
  funext b
  match b with
  | ⟨0, _⟩ =>
    simp only [ScatterDims.siIdx, ScatterDims.siCoord]
    rw [dif_neg (by decide)]
    apply Fin.ext
    have h0 : dS.uScatter[List.idxOf (0 : Fin 2) dS.siKept]'(by decide) = (0 : Fin 2) := by decide
    simp only [Fin.coe_cast]
    exact congrArg (fun a => ((ix2 p q : (⟨2, ![100000, 128]⟩ : Shape).Idx) a).val) h0
  | ⟨1, _⟩ =>
    simp only [ScatterDims.siIdx]
    rw [dif_pos (by decide)]
    apply Fin.ext
    have hc : c.val < 1 := c.isLt
    show c.val = 0
    omega

/-- On operand axis 0 the window starts at the batch word of row p, read signed. -/
theorem dS_start0 (p : Fin 100000) (q : Fin 128) (idx : IVec (⟨2, ![100000, 1]⟩ : Shape) 32) :
    dS.start (ix2 p q) idx (0 : Fin 2) = (idx (ix2 p (0 : Fin 1))).toInt := by
  unfold ScatterDims.start
  rw [dif_pos (by decide), dS_siIdx]

/-- On operand axis 1 the window starts at 0. -/
theorem dS_start1 (p : Fin 100000) (q : Fin 128) (idx : IVec (⟨2, ![100000, 1]⟩ : Shape) 32) :
    dS.start (ix2 p q) idx (1 : Fin 2) = 0 := by
  unfold ScatterDims.start
  rw [dif_neg (by decide)]

/-- Operand axis 0 is inserted: the window coordinate there is 0. -/
theorem dS_window0 (p : Fin 100000) (q : Fin 128) : dS.window (ix2 p q) (0 : Fin 2) = 0 := by
  unfold ScatterDims.window
  rw [dif_neg (by decide)]

/-- On operand axis 1 the window coordinate is the feature q. -/
theorem dS_window1 (p : Fin 100000) (q : Fin 128) : dS.window (ix2 p q) (1 : Fin 2) = q.val := by
  unfold ScatterDims.window
  rw [dif_pos (by decide)]
  have h0 : dS.updateWindowDims[List.idxOf (1 : Fin 2) dS.sKept]'(by decide) = (1 : Fin 2) := by decide
  exact congrArg (fun a => ((ix2 p q : (⟨2, ![100000, 128]⟩ : Shape).Idx) a).val) h0

/-- Update (p, q) lands on (g, f) exactly when the batch word of row p, read signed, is g and q is f. -/
theorem dS_resultIdx (p : Fin 100000) (q : Fin 128) (idx : IVec (⟨2, ![100000, 1]⟩ : Shape) 32) (g : Fin 512) (f : Fin 128) :
    dS.resultIdx? (ix2 p q) idx = some (ix2 g f) ↔ (idx (ix2 p (0 : Fin 1))).toInt = (g.val : Int) ∧ q = f := by
  unfold ScatterDims.resultIdx?
  constructor
  · intro h
    split at h
    · rename_i hall
      have h' := Option.some.inj h
      have v0 : (dS.start (ix2 p q) idx (0 : Fin 2) + dS.window (ix2 p q) (0 : Fin 2)).toNat = g.val :=
        congrArg Fin.val (congrFun h' (0 : Fin 2))
      have v1 : (dS.start (ix2 p q) idx (1 : Fin 2) + dS.window (ix2 p q) (1 : Fin 2)).toNat = f.val :=
        congrArg Fin.val (congrFun h' (1 : Fin 2))
      have a0 := (hall (0 : Fin 2)).1
      rw [dS_start0, dS_window0] at v0 a0
      rw [dS_start1, dS_window1] at v1
      refine ⟨by omega, Fin.ext (by omega)⟩
    · cases h
  · rintro ⟨h0, rfl⟩
    have hg := g.isLt
    have hq := q.isLt
    have hall : ∀ a : Fin 2, 0 ≤ dS.start (ix2 p q) idx a + dS.window (ix2 p q) a ∧
        dS.start (ix2 p q) idx a + dS.window (ix2 p q) a < (⟨2, ![512, 128]⟩ : Shape).size a := by
      intro a
      match a with
      | ⟨0, _⟩ =>
        show 0 ≤ dS.start (ix2 p q) idx (0 : Fin 2) + dS.window (ix2 p q) (0 : Fin 2) ∧
          dS.start (ix2 p q) idx (0 : Fin 2) + dS.window (ix2 p q) (0 : Fin 2) < (512 : ℕ)
        rw [dS_start0, dS_window0, h0]; omega
      | ⟨1, _⟩ =>
        show 0 ≤ dS.start (ix2 p q) idx (1 : Fin 2) + dS.window (ix2 p q) (1 : Fin 2) ∧
          dS.start (ix2 p q) idx (1 : Fin 2) + dS.window (ix2 p q) (1 : Fin 2) < (128 : ℕ)
        rw [dS_start1, dS_window1]; omega
    rw [dif_pos hall]
    congr 1
    funext a
    match a with
    | ⟨0, _⟩ =>
      apply Fin.ext
      show (dS.start (ix2 p q) idx (0 : Fin 2) + dS.window (ix2 p q) (0 : Fin 2)).toNat = g.val
      rw [dS_start0, dS_window0, h0]; omega
    | ⟨1, _⟩ =>
      apply Fin.ext
      show (dS.start (ix2 p q) idx (1 : Fin 2) + dS.window (ix2 p q) (1 : Fin 2)).toNat = q.val
      rw [dS_start1, dS_window1]; omega

/-! ## Where the counts scatter lands an update

The scatter of the ones has the same index column and no window axis: update p lands at the batch word of p when that
is in 0 … 511, and is dropped otherwise. -/
/-- The dimension numbers of the scatter of the ones. -/
abbrev dC := Cert.ReferenceIdeal.scatter_S512_S100000x1_S100000_n_0_0_1

/-- Update p reads its start index at row p of the index column. -/
theorem dC_siIdx (p : Fin 100000) (c : Fin dC.scatterDimsToOperandDims.length) :
    dC.siIdx (ix1 p) c = ix2 p (0 : Fin 1) := by
  funext b
  match b with
  | ⟨0, _⟩ =>
    simp only [ScatterDims.siIdx, ScatterDims.siCoord]
    rw [dif_neg (by decide)]
    apply Fin.ext
    have h0 : dC.uScatter[List.idxOf (0 : Fin 2) dC.siKept]'(by decide) = (0 : Fin 1) := by decide
    simp only [Fin.coe_cast]
    exact congrArg (fun a => ((ix1 p : (⟨1, ![100000]⟩ : Shape).Idx) a).val) h0
  | ⟨1, _⟩ =>
    simp only [ScatterDims.siIdx]
    rw [dif_pos (by decide)]
    apply Fin.ext
    have hc : c.val < 1 := c.isLt
    show c.val = 0
    omega

/-- The window starts at the batch word of row p, read signed. -/
theorem dC_start0 (p : Fin 100000) (idx : IVec (⟨2, ![100000, 1]⟩ : Shape) 32) :
    dC.start (ix1 p) idx (0 : Fin 1) = (idx (ix2 p (0 : Fin 1))).toInt := by
  unfold ScatterDims.start
  rw [dif_pos (by decide), dC_siIdx]

/-- The one operand axis is inserted: the window coordinate is 0. -/
theorem dC_window0 (p : Fin 100000) : dC.window (ix1 p) (0 : Fin 1) = 0 := by
  unfold ScatterDims.window
  rw [dif_neg (by decide)]

/-- Update p lands on g exactly when the batch word of row p, read signed, is g. -/
theorem dC_resultIdx (p : Fin 100000) (idx : IVec (⟨2, ![100000, 1]⟩ : Shape) 32) (g : Fin 512) :
    dC.resultIdx? (ix1 p) idx = some (ix1 g) ↔ (idx (ix2 p (0 : Fin 1))).toInt = (g.val : Int) := by
  unfold ScatterDims.resultIdx?
  constructor
  · intro h
    split at h
    · rename_i hall
      have h' := Option.some.inj h
      have v0 : (dC.start (ix1 p) idx (0 : Fin 1) + dC.window (ix1 p) (0 : Fin 1)).toNat = g.val :=
        congrArg Fin.val (congrFun h' (0 : Fin 1))
      have a0 := (hall (0 : Fin 1)).1
      rw [dC_start0, dC_window0] at v0 a0
      omega
    · cases h
  · intro h0
    have hg := g.isLt
    have hall : ∀ a : Fin 1, 0 ≤ dC.start (ix1 p) idx a + dC.window (ix1 p) a ∧
        dC.start (ix1 p) idx a + dC.window (ix1 p) a < (⟨1, ![512]⟩ : Shape).size a := by
      intro a
      match a with
      | ⟨0, _⟩ =>
        show 0 ≤ dC.start (ix1 p) idx (0 : Fin 1) + dC.window (ix1 p) (0 : Fin 1) ∧
          dC.start (ix1 p) idx (0 : Fin 1) + dC.window (ix1 p) (0 : Fin 1) < (512 : ℕ)
        rw [dC_start0, dC_window0, h0]; omega
    rw [dif_pos hall]
    congr 1
    funext a
    match a with
    | ⟨0, _⟩ =>
      apply Fin.ext
      show (dC.start (ix1 p) idx (0 : Fin 1) + dC.window (ix1 p) (0 : Fin 1)).toNat = g.val
      rw [dC_start0, dC_window0, h0]; omega

/-! ## Words, the one-hot factor, and the two paddings at a row -/

/-- The word of a number below 512, read signed, is that number. -/
theorem toInt_ofNat_small (g : ℕ) (hg : g < 512) : (BitVec.ofNat 32 g).toInt = (g : Int) := by
  rw [BitVec.toInt_eq_toNat_cond, BitVec.toNat_ofNat]
  have : g % 2 ^ 32 = g := Nat.mod_eq_of_lt (by omega)
  rw [this, if_pos (by omega)]

/-- A word is the number g (below 512) exactly when its signed reading is g. -/
theorem word_eq_iff (b : BitVec 32) (g : ℕ) (hg : g < 512) : b = BitVec.ofNat 32 g ↔ b.toInt = (g : Int) := by
  constructor
  · rintro rfl
    exact toInt_ofNat_small g hg
  · intro h
    apply BitVec.eq_of_toInt_eq
    rw [h, toInt_ofNat_small g hg]

/-- The one-hot factor tests the signed reading of the word. -/
theorem hit_eq (b : BitVec 32) (g : ℕ) (hg : g < 512) :
    Cert.PoolSpec.hit b g = if b.toInt = (g : Int) then 1 else 0 := by
  unfold Cert.PoolSpec.hit
  by_cases h : b = BitVec.ofNat 32 g
  · rw [if_pos h, if_pos ((word_eq_iff b g hg).1 h)]
  · rw [if_neg h, if_neg (fun h' => h ((word_eq_iff b g hg).2 h'))]

/-- The word -1 is no graph's number. -/
theorem hit_neg_one (g : ℕ) (hg : g < 512) : Cert.PoolSpec.hit 4294967295#32 g = 0 := by
  rw [hit_eq _ _ hg, if_neg]
  have : (4294967295#32 : BitVec 32).toInt = -1 := by decide
  rw [this]; omega

/-- The padded batch words: the word of a real row, and -1 on an appended row. -/
theorem padBatch_lt (batch : IVec (⟨1, ![100000]⟩ : Shape) 32) (r : Fin 100352) (h : r.val < 100000) :
    padBatch batch (ix2 (0 : Fin 1) r) = batch (ix1 ⟨r.val, h⟩) := by
  unfold padBatch
  rw [shapeCast_a_1a_apply]
  unfold pad
  rw [dif_pos]
  · refine congrArg batch (funext fun a => ?_)
    match a with
    | ⟨0, _⟩ =>
      apply Fin.ext
      show (r.val - 0) / (0 + 1) = r.val
      rw [Nat.sub_zero, Nat.zero_add, Nat.div_one]
  · intro a
    match a with
    | ⟨0, _⟩ =>
      show 0 ≤ r.val ∧ (r.val - 0) % (0 + 1) = 0 ∧ (r.val - 0) / (0 + 1) < 100000
      refine ⟨Nat.zero_le _, Nat.mod_one _, ?_⟩
      rw [Nat.sub_zero, Nat.zero_add, Nat.div_one]; exact h

/-- An appended row carries the word -1. -/
theorem padBatch_ge (batch : IVec (⟨1, ![100000]⟩ : Shape) 32) (r : Fin 100352) (h : ¬ r.val < 100000) :
    padBatch batch (ix2 (0 : Fin 1) r) = 4294967295#32 := by
  unfold padBatch
  rw [shapeCast_a_1a_apply]
  unfold pad
  rw [dif_neg]
  · rfl
  · intro hall
    have h2 : (r.val - 0) / (0 + 1) < 100000 := (hall (0 : Fin 1)).2.2
    rw [Nat.sub_zero, Nat.zero_add, Nat.div_one] at h2
    exact h h2

/-- The padded feature rows: the row of a real node, and zero on an appended row. -/
theorem padRows_lt (hb : (⟨2, ![100000, 128]⟩ : Shape).Idx → EReal) (r : Fin 100352) (f : Fin 128) (h : r.val < 100000) :
    padRows hb (ix2 r f) = hb (ix2 ⟨r.val, h⟩ f) := by
  unfold padRows
  unfold pad
  rw [dif_pos]
  · refine congrArg hb (funext fun a => ?_)
    match a with
    | ⟨0, _⟩ =>
      apply Fin.ext
      show (r.val - 0) / (0 + 1) = r.val
      rw [Nat.sub_zero, Nat.zero_add, Nat.div_one]
    | ⟨1, _⟩ =>
      apply Fin.ext
      show (f.val - 0) / (0 + 1) = f.val
      rw [Nat.sub_zero, Nat.zero_add, Nat.div_one]
  · intro a
    match a with
    | ⟨0, _⟩ =>
      show 0 ≤ r.val ∧ (r.val - 0) % (0 + 1) = 0 ∧ (r.val - 0) / (0 + 1) < 100000
      refine ⟨Nat.zero_le _, Nat.mod_one _, ?_⟩
      rw [Nat.sub_zero, Nat.zero_add, Nat.div_one]; exact h
    | ⟨1, _⟩ =>
      show 0 ≤ f.val ∧ (f.val - 0) % (0 + 1) = 0 ∧ (f.val - 0) / (0 + 1) < 128
      refine ⟨Nat.zero_le _, Nat.mod_one _, ?_⟩
      rw [Nat.sub_zero, Nat.zero_add, Nat.div_one]; exact f.isLt

/-- An appended feature row is zero: the padding value is the integer 0 as a real. -/
theorem padRows_ge (hb : (⟨2, ![100000, 128]⟩ : Shape).Idx → EReal) (r : Fin 100352) (f : Fin 128) (h : ¬ r.val < 100000) :
    padRows hb (ix2 r f) = 0 := by
  unfold padRows
  unfold pad
  rw [dif_neg]
  · show (((0#32 : BitVec 32).toInt : ℝ) : EReal) = 0
    have : (0#32 : BitVec 32).toInt = 0 := by decide
    rw [this]; norm_num
  · intro hall
    have h2 : (r.val - 0) / (0 + 1) < 100000 := (hall (0 : Fin 2)).2.2
    rw [Nat.sub_zero, Nat.zero_add, Nat.div_one] at h2
    exact h h2

/-! ## Re-indexing the sums -/

/-- The batch ids as a column read the id of the row. -/
theorem col_apply (batch : Cert.ReferenceIdeal.Spec.IA Ideal Cert.ReferenceIdeal.S100000) (n : Fin 100000) :
    broadcastInDim Cert.ReferenceIdeal.S100000x1 ![0] Cert.ReferenceIdeal.Facts₀.bcast_S100000_S100000x1_0 batch
      (ix2 n (0 : Fin 1)) = batch (ix1 n) := by
  refine broadcastInDim_apply _ _ _ _ (ix1 n) ?_
  intro a
  match a with
  | ⟨0, _⟩ =>
    show n.val = if (100000 : ℕ) = 1 then 0 else n.val
    rw [if_neg (by decide)]

/-- A sum over the 49 tiles of 2048 lanes is the sum over the 100352 rows. -/
def rowEquiv : Fin 49 × Fin 2048 ≃ Fin 100352 where
  toFun tk := Cert.PoolSpec.row tk.1 tk.2
  invFun r := (⟨r.val / 2048, by have := r.isLt; omega⟩, ⟨r.val % 2048, Nat.mod_lt _ (by omega)⟩)
  left_inv tk := by
    obtain ⟨t, k⟩ := tk
    have := t.isLt; have := k.isLt
    refine Prod.ext (Fin.ext ?_) (Fin.ext ?_)
    · show (t.val * 2048 + k.val) / 2048 = t.val
      omega
    · show (t.val * 2048 + k.val) % 2048 = k.val
      omega
  right_inv r := by
    apply Fin.ext
    show r.val / 2048 * 2048 + r.val % 2048 = r.val
    omega

theorem sum_rows {M : Type*} [AddCommMonoid M] (F : Fin 100352 → M) :
    ∑ t : Fin 49, ∑ k : Fin 2048, F (Cert.PoolSpec.row t k) = ∑ r : Fin 100352, F r := by
  rw [← Fintype.sum_prod_type' (fun t k => F (Cert.PoolSpec.row t k))]
  exact Equiv.sum_comp rowEquiv F

/-- A sum over the padded rows of a function that vanishes on the appended rows is the sum over the real rows. -/
theorem sum_padded {M : Type*} [AddCommMonoid M] (F : Fin 100352 → M) (G : Fin 100000 → M)
    (h0 : ∀ r : Fin 100352, ¬ r.val < 100000 → F r = 0)
    (h1 : ∀ (r : Fin 100352) (h : r.val < 100000), F r = G ⟨r.val, h⟩) :
    ∑ r : Fin 100352, F r = ∑ n : Fin 100000, G n := by
  symm
  refine Fintype.sum_of_injective (fun n : Fin 100000 => (⟨n.val, by have := n.isLt; omega⟩ : Fin 100352)) ?_ G F ?_ ?_
  · intro a b hab
    have h2 := congrArg Fin.val hab
    exact Fin.ext h2
  · intro r hr
    apply h0
    intro hlt
    exact hr ⟨⟨r.val, hlt⟩, rfl⟩
  · intro n
    exact (h1 ⟨n.val, by have := n.isLt; omega⟩ n.isLt).symm

/-! ## The two poolings at an index, and the two equalities -/

/-- The segment sums at (g, f): the rows whose batch word, read signed, is g. -/
theorem poolSums_apply (hb : Cert.ReferenceIdeal.Spec.FA Ideal Cert.ReferenceIdeal.S100000x128)
    (batch : Cert.ReferenceIdeal.Spec.IA Ideal Cert.ReferenceIdeal.S100000) (g : Fin 512) (f : Fin 128) :
    Cert.ReferenceIdeal.Spec.poolSums hb batch (ix2 g f)
      = ∑ n : Fin 100000, if (batch (ix1 n)).toInt = (g.val : Int) then hb (ix2 n f) else 0 := by
  unfold Cert.ReferenceIdeal.Spec.poolSums Host.scatterAdd
  rw [Ideal.hostScatterAdd_def]
  unfold Ideal.hostScatterAdd
  rw [broadcastInDim_scalar_apply, constant_apply, Ideal.ofBits_zero_f32, zero_add, Finset.sum_filter, sum_idx2]
  refine Finset.sum_congr rfl fun n _ => ?_
  simp only [dS_resultIdx]
  rw [col_apply]
  by_cases hA : (batch (ix1 n)).toInt = (g.val : Int)
  · simp only [hA, true_and, if_true]
    exact Fintype.sum_ite_eq' f (fun q => hb (ix2 n q))
  · simp only [hA, false_and, if_false]
    exact Finset.sum_const_zero

/-- The one-hot sums, row by row. -/
theorem sumsP_apply (hbp : (⟨2, ![100352, 128]⟩ : Shape).Idx → EReal) (bp : (⟨2, ![1, 100352]⟩ : Shape).Idx → BitVec 32)
    (g : Fin 512) (f : Fin 128) :
    Cert.PoolSpec.sumsP hbp bp (ix2 g f)
      = ∑ r : Fin 100352, Cert.PoolSpec.hit (bp (ix2 (0 : Fin 1) r)) g.val * hbp (ix2 r f) :=
  sum_rows (fun r : Fin 100352 => Cert.PoolSpec.hit (bp (ix2 (0 : Fin 1) r)) g.val * hbp (ix2 r f))

/-- The one-hot counts, row by row. -/
theorem cntsP_apply (bp : (⟨2, ![1, 100352]⟩ : Shape).Idx → BitVec 32) (g : Fin 512) (u : Fin 1) :
    Cert.PoolSpec.cntsP bp (ix2 g u) = ∑ r : Fin 100352, Cert.PoolSpec.hit (bp (ix2 (0 : Fin 1) r)) g.val :=
  sum_rows (fun r : Fin 100352 => Cert.PoolSpec.hit (bp (ix2 (0 : Fin 1) r)) g.val)

/-- The one-hot sums over the padded arrays are the segment sums of the unpadded ones. -/
theorem sumsP_eq (hb : Cert.ReferenceIdeal.Spec.FA Ideal Cert.ReferenceIdeal.S100000x128)
    (batch : Cert.ReferenceIdeal.Spec.IA Ideal Cert.ReferenceIdeal.S100000) :
    Cert.PoolSpec.sumsP (padRows hb) (padBatch batch) = Cert.ReferenceIdeal.Spec.poolSums hb batch := by
  funext i
  obtain ⟨g, f, rfl⟩ : ∃ g f, i = ix2 g f := ⟨i 0, i 1, eq_ix2 i⟩
  rw [poolSums_apply, sumsP_apply]
  refine sum_padded _ _ ?_ ?_
  · intro r hr
    show Cert.PoolSpec.hit (padBatch batch (ix2 (0 : Fin 1) r)) g.val * padRows hb (ix2 r f) = 0
    rw [padBatch_ge batch r hr, hit_neg_one g.val g.isLt, zero_mul]
  · intro r hr
    show Cert.PoolSpec.hit (padBatch batch (ix2 (0 : Fin 1) r)) g.val * padRows hb (ix2 r f)
      = if (batch (ix1 ⟨r.val, hr⟩)).toInt = (g.val : Int) then hb (ix2 ⟨r.val, hr⟩ f) else 0
    rw [padBatch_lt batch r hr, padRows_lt hb r f hr, hit_eq _ _ g.isLt]
    by_cases hA : (batch (ix1 ⟨r.val, hr⟩)).toInt = (g.val : Int)
    · rw [if_pos hA, if_pos hA, one_mul]
    · rw [if_neg hA, if_neg hA, zero_mul]

/-- A rank-1 index set is its one coordinate range, so a sum over it is the sum over the coordinate. -/
def idxEquiv1 {n : ℕ} : (⟨1, ![n]⟩ : Shape).Idx ≃ Fin n where
  toFun i := i 0
  invFun p := ix1 p
  left_inv i := (eq_ix1 i).symm
  right_inv _ := rfl

theorem sum_idx1 {M : Type*} [AddCommMonoid M] {n : ℕ} (F : (⟨1, ![n]⟩ : Shape).Idx → M) :
    ∑ i, F i = ∑ a : Fin n, F (ix1 a) := by
  rw [← Equiv.sum_comp (idxEquiv1 (n := n)).symm F]
  rfl

/-- The segment counts at g: the number of rows whose batch word, read signed, is g. -/
theorem poolCnts_apply (batch : Cert.ReferenceIdeal.Spec.IA Ideal Cert.ReferenceIdeal.S100000) (g : Fin 512) :
    Cert.ReferenceIdeal.Spec.poolCnts batch (ix1 g)
      = ∑ n : Fin 100000, if (batch (ix1 n)).toInt = (g.val : Int) then (1 : EReal) else 0 := by
  unfold Cert.ReferenceIdeal.Spec.poolCnts Host.scatterAdd
  rw [Ideal.hostScatterAdd_def]
  unfold Ideal.hostScatterAdd
  rw [broadcastInDim_scalar_apply, constant_apply, Ideal.ofBits_zero_f32, zero_add, Finset.sum_filter, sum_idx1]
  refine Finset.sum_congr rfl fun n _ => ?_
  simp only [dC_resultIdx]
  rw [col_apply, broadcastInDim_scalar_apply, constant_apply, Ideal.ofBits_one_f32]

/-- The one-hot counts over the padded batch words are the segment counts, as a column. -/
theorem cntsP_eq (batch : Cert.ReferenceIdeal.Spec.IA Ideal Cert.ReferenceIdeal.S100000) :
    Cert.PoolSpec.cntsP (padBatch batch)
      = broadcastInDim Cert.ReferenceIdeal.S512x1 ![0] Cert.ReferenceIdeal.Facts₀.bcast_S512_S512x1_0
          (Cert.ReferenceIdeal.Spec.poolCnts batch) := by
  funext i
  obtain ⟨g, u, rfl⟩ : ∃ g u, i = ix2 g u := ⟨i 0, i 1, eq_ix2 i⟩
  have hR : broadcastInDim Cert.ReferenceIdeal.S512x1 ![0] Cert.ReferenceIdeal.Facts₀.bcast_S512_S512x1_0
      (Cert.ReferenceIdeal.Spec.poolCnts batch) (ix2 g u) = Cert.ReferenceIdeal.Spec.poolCnts batch (ix1 g) := by
    refine broadcastInDim_apply _ _ _ _ (ix1 g) ?_
    intro a
    match a with
    | ⟨0, _⟩ =>
      show g.val = if (512 : ℕ) = 1 then 0 else g.val
      rw [if_neg (by decide)]
  rw [hR, poolCnts_apply, cntsP_apply]
  refine sum_padded _ _ ?_ ?_
  · intro r hr
    show Cert.PoolSpec.hit (padBatch batch (ix2 (0 : Fin 1) r)) g.val = 0
    rw [padBatch_ge batch r hr, hit_neg_one g.val g.isLt]
  · intro r hr
    show Cert.PoolSpec.hit (padBatch batch (ix2 (0 : Fin 1) r)) g.val
      = if (batch (ix1 ⟨r.val, hr⟩)).toInt = (g.val : Int) then (1 : EReal) else 0
    rw [padBatch_lt batch r hr, hit_eq _ _ g.isLt]

end Cert.KernelIdeal.Val

end
-- ==== Proof.KChain.lean ====
/-
  The kernel's program, boundary by boundary. Its buffers at each boundary between host stretches and regions are a fold from
  the launch memory; an argument is never written, so it reads as launched at every boundary, and each intermediate is the
  specification's stage of what the previous boundary holds: the coefficients before region 0, the projection region 0
  leaves, the aggregation, region 1's normalised and activated layer, the second projection and aggregation, region 3's
  blended layer, the paddings, region 4's pooled sums and counts, and region 5's logits. Composed, the result buffer at the
  last boundary is the specification of the arguments.
-/
import proofs.«413006_j28346784153649_1_alg».proof.Proof.KReg0
import proofs.«413006_j28346784153649_1_alg».proof.Proof.KReg1
import proofs.«413006_j28346784153649_1_alg».proof.Proof.KReg3
import proofs.«413006_j28346784153649_1_alg».proof.Proof.KReg4
import proofs.«413006_j28346784153649_1_alg».proof.Proof.KReg5
import proofs.«413006_j28346784153649_1_alg».proof.Proof.KHost
import proofs.«413006_j28346784153649_1_alg».proof.Proof.PoolMath

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- No operation of a literal host stretch writes the buffer in the goal. -/
macro "nw " ops:ident : tactic =>
  `(tactic| exact List.forall_iff_forall_mem.mp (by
             simp only [$ops:ident, List.flatten_cons, List.flatten_nil, List.append_nil, List.cons_append, List.nil_append,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## One boundary down, for a buffer the step does not write -/

section Steps
variable (b : Ref sig .tc)

theorem d1 (h : ∀ op ∈ (hostOps0 : List (HloOp τ sig (Elt Ideal))), Proc.devRef .tc b ∉ op.writes) :
    W1 m ρ c (Proc.devRef .tc b) = W0 m ρ c (Proc.devRef .tc b) := after_of_forall_not_mem _ _ h
theorem d2 (h : ∀ w, Pipeline.arrRef spec0 w ≠ b) : W2 m ρ c (Proc.devRef .tc b) = W1 m ρ c (Proc.devRef .tc b) := W2_of_ne m ρ c b h
theorem d3 (h : ∀ op ∈ (hostOps1 : List (HloOp τ sig (Elt Ideal))), Proc.devRef .tc b ∉ op.writes) :
    W3 m ρ c (Proc.devRef .tc b) = W2 m ρ c (Proc.devRef .tc b) := after_of_forall_not_mem _ _ h
theorem d4 (h : ∀ w, Pipeline.arrRef spec1 w ≠ b) : W4 m ρ c (Proc.devRef .tc b) = W3 m ρ c (Proc.devRef .tc b) := W4_of_ne m ρ c b h
theorem d5 (h : ∀ w, Pipeline.arrRef spec2 w ≠ b) : W5 m ρ c (Proc.devRef .tc b) = W4 m ρ c (Proc.devRef .tc b) := W5_of_ne m ρ c b h
theorem d6 (h : ∀ op ∈ (hostOps3 : List (HloOp τ sig (Elt Ideal))), Proc.devRef .tc b ∉ op.writes) :
    W6 m ρ c (Proc.devRef .tc b) = W5 m ρ c (Proc.devRef .tc b) := after_of_forall_not_mem _ _ h
theorem d7 (h : ∀ w, Pipeline.arrRef spec3 w ≠ b) : W7 m ρ c (Proc.devRef .tc b) = W6 m ρ c (Proc.devRef .tc b) := W7_of_ne m ρ c b h
theorem d8 (h : ∀ op ∈ (hostOps4 : List (HloOp τ sig (Elt Ideal))), Proc.devRef .tc b ∉ op.writes) :
    W8 m ρ c (Proc.devRef .tc b) = W7 m ρ c (Proc.devRef .tc b) := after_of_forall_not_mem _ _ h
theorem d9 (h : ∀ op ∈ (hostOps4_1 : List (HloOp τ sig (Elt Ideal))), Proc.devRef .tc b ∉ op.writes) :
    W9 m ρ c (Proc.devRef .tc b) = W8 m ρ c (Proc.devRef .tc b) := after_of_forall_not_mem _ _ h
theorem d10 (h : ∀ op ∈ (hostOps4_2 : List (HloOp τ sig (Elt Ideal))), Proc.devRef .tc b ∉ op.writes) :
    W10 m ρ c (Proc.devRef .tc b) = W9 m ρ c (Proc.devRef .tc b) := after_of_forall_not_mem _ _ h
theorem d11 (h : ∀ op ∈ (hostOps4_3 : List (HloOp τ sig (Elt Ideal))), Proc.devRef .tc b ∉ op.writes) :
    W11 m ρ c (Proc.devRef .tc b) = W10 m ρ c (Proc.devRef .tc b) := after_of_forall_not_mem _ _ h
theorem d12 (h : ∀ op ∈ (hostOps4_4 : List (HloOp τ sig (Elt Ideal))), Proc.devRef .tc b ∉ op.writes) :
    W12 m ρ c (Proc.devRef .tc b) = W11 m ρ c (Proc.devRef .tc b) := after_of_forall_not_mem _ _ h
theorem d13 (h : ∀ w, Pipeline.arrRef spec4 w ≠ b) : W13 m ρ c (Proc.devRef .tc b) = W12 m ρ c (Proc.devRef .tc b) := W13_of_ne m ρ c b h
theorem d14 (h : ∀ op ∈ (hostOps5 : List (HloOp τ sig (Elt Ideal))), Proc.devRef .tc b ∉ op.writes) :
    W14 m ρ c (Proc.devRef .tc b) = W13 m ρ c (Proc.devRef .tc b) := after_of_forall_not_mem _ _ h

end Steps

/-! ## The arguments, where they are read -/

theorem a0_1 : W1 m ρ c (Proc.devRef .tc main_arg0) = (m ((c : Thread nD τ).loc main_arg0)) := d1 m ρ c main_arg0 (by nw hostOps0)
theorem a4_1 : W1 m ρ c (Proc.devRef .tc main_arg4) = (m ((c : Thread nD τ).loc main_arg4)) := d1 m ρ c main_arg4 (by nw hostOps0)

/-- A buffer that neither the first stretch nor region 0 touches, at region 0's exit. -/
theorem at2 (b : Ref sig .tc) (h1 : ∀ op ∈ (hostOps0 : List (HloOp τ sig (Elt Ideal))), Proc.devRef .tc b ∉ op.writes)
    (h2 : ∀ w, Pipeline.arrRef spec0 w ≠ b) : W2 m ρ c (Proc.devRef .tc b) = W0 m ρ c (Proc.devRef .tc b) :=
  (d2 m ρ c b h2).trans (d1 m ρ c b h1)

theorem a1_2 : W2 m ρ c (Proc.devRef .tc main_arg1) = (m ((c : Thread nD τ).loc main_arg1)) := at2 m ρ c main_arg1 (by nw hostOps0) (by decide)
theorem a2_2 : W2 m ρ c (Proc.devRef .tc main_arg2) = (m ((c : Thread nD τ).loc main_arg2)) := at2 m ρ c main_arg2 (by nw hostOps0) (by decide)
theorem a5_2 : W2 m ρ c (Proc.devRef .tc main_arg5) = (m ((c : Thread nD τ).loc main_arg5)) := at2 m ρ c main_arg5 (by nw hostOps0) (by decide)
theorem a6_2 : W2 m ρ c (Proc.devRef .tc main_arg6) = (m ((c : Thread nD τ).loc main_arg6)) := at2 m ρ c main_arg6 (by nw hostOps0) (by decide)
theorem a7_2 : W2 m ρ c (Proc.devRef .tc main_arg7) = (m ((c : Thread nD τ).loc main_arg7)) := at2 m ρ c main_arg7 (by nw hostOps0) (by decide)

/-- A buffer untouched up to region 1's exit. -/
theorem at4 (b : Ref sig .tc) (h1 : ∀ op ∈ (hostOps0 : List (HloOp τ sig (Elt Ideal))), Proc.devRef .tc b ∉ op.writes)
    (h2 : ∀ w, Pipeline.arrRef spec0 w ≠ b) (h3 : ∀ op ∈ (hostOps1 : List (HloOp τ sig (Elt Ideal))), Proc.devRef .tc b ∉ op.writes)
    (h4 : ∀ w, Pipeline.arrRef spec1 w ≠ b) : W4 m ρ c (Proc.devRef .tc b) = W0 m ρ c (Proc.devRef .tc b) :=
  (d4 m ρ c b h4).trans ((d3 m ρ c b h3).trans (at2 m ρ c b h1 h2))

theorem a8_4 : W4 m ρ c (Proc.devRef .tc main_arg8) = (m ((c : Thread nD τ).loc main_arg8)) := at4 m ρ c main_arg8 (by nw hostOps0) (by decide) (by nw hostOps1) (by decide)

/-- A buffer untouched up to region 2's exit. -/
theorem at5 (b : Ref sig .tc) (h1 : ∀ op ∈ (hostOps0 : List (HloOp τ sig (Elt Ideal))), Proc.devRef .tc b ∉ op.writes)
    (h2 : ∀ w, Pipeline.arrRef spec0 w ≠ b) (h3 : ∀ op ∈ (hostOps1 : List (HloOp τ sig (Elt Ideal))), Proc.devRef .tc b ∉ op.writes)
    (h4 : ∀ w, Pipeline.arrRef spec1 w ≠ b) (h5 : ∀ w, Pipeline.arrRef spec2 w ≠ b) :
    W5 m ρ c (Proc.devRef .tc b) = W0 m ρ c (Proc.devRef .tc b) :=
  (d5 m ρ c b h5).trans (at4 m ρ c b h1 h2 h3 h4)

theorem a1_5 : W5 m ρ c (Proc.devRef .tc main_arg1) = (m ((c : Thread nD τ).loc main_arg1)) := at5 m ρ c main_arg1 (by nw hostOps0) (by decide) (by nw hostOps1) (by decide) (by decide)
theorem a2_5 : W5 m ρ c (Proc.devRef .tc main_arg2) = (m ((c : Thread nD τ).loc main_arg2)) := at5 m ρ c main_arg2 (by nw hostOps0) (by decide) (by nw hostOps1) (by decide) (by decide)
theorem a9_5 : W5 m ρ c (Proc.devRef .tc main_arg9) = (m ((c : Thread nD τ).loc main_arg9)) := at5 m ρ c main_arg9 (by nw hostOps0) (by decide) (by nw hostOps1) (by decide) (by decide)
theorem a10_5 : W5 m ρ c (Proc.devRef .tc main_arg10) = (m ((c : Thread nD τ).loc main_arg10)) := at5 m ρ c main_arg10 (by nw hostOps0) (by decide) (by nw hostOps1) (by decide) (by decide)
theorem a11_5 : W5 m ρ c (Proc.devRef .tc main_arg11) = (m ((c : Thread nD τ).loc main_arg11)) := at5 m ρ c main_arg11 (by nw hostOps0) (by decide) (by nw hostOps1) (by decide) (by decide)

/-- A buffer untouched up to region 3's exit. -/
theorem at7 (b : Ref sig .tc) (h1 : ∀ op ∈ (hostOps0 : List (HloOp τ sig (Elt Ideal))), Proc.devRef .tc b ∉ op.writes)
    (h2 : ∀ w, Pipeline.arrRef spec0 w ≠ b) (h3 : ∀ op ∈ (hostOps1 : List (HloOp τ sig (Elt Ideal))), Proc.devRef .tc b ∉ op.writes)
    (h4 : ∀ w, Pipeline.arrRef spec1 w ≠ b) (h5 : ∀ w, Pipeline.arrRef spec2 w ≠ b)
    (h6 : ∀ op ∈ (hostOps3 : List (HloOp τ sig (Elt Ideal))), Proc.devRef .tc b ∉ op.writes) (h7 : ∀ w, Pipeline.arrRef spec3 w ≠ b) :
    W7 m ρ c (Proc.devRef .tc b) = W0 m ρ c (Proc.devRef .tc b) :=
  (d7 m ρ c b h7).trans ((d6 m ρ c b h6).trans (at5 m ρ c b h1 h2 h3 h4 h5))

/-- A buffer untouched up to the first padding. -/
theorem at9 (b : Ref sig .tc) (h1 : ∀ op ∈ (hostOps0 : List (HloOp τ sig (Elt Ideal))), Proc.devRef .tc b ∉ op.writes)
    (h2 : ∀ w, Pipeline.arrRef spec0 w ≠ b) (h3 : ∀ op ∈ (hostOps1 : List (HloOp τ sig (Elt Ideal))), Proc.devRef .tc b ∉ op.writes)
    (h4 : ∀ w, Pipeline.arrRef spec1 w ≠ b) (h5 : ∀ w, Pipeline.arrRef spec2 w ≠ b)
    (h6 : ∀ op ∈ (hostOps3 : List (HloOp τ sig (Elt Ideal))), Proc.devRef .tc b ∉ op.writes) (h7 : ∀ w, Pipeline.arrRef spec3 w ≠ b)
    (h8 : ∀ op ∈ (hostOps4 : List (HloOp τ sig (Elt Ideal))), Proc.devRef .tc b ∉ op.writes)
    (h9 : ∀ op ∈ (hostOps4_1 : List (HloOp τ sig (Elt Ideal))), Proc.devRef .tc b ∉ op.writes) :
    W9 m ρ c (Proc.devRef .tc b) = W0 m ρ c (Proc.devRef .tc b) :=
  (d9 m ρ c b h9).trans ((d8 m ρ c b h8).trans (at7 m ρ c b h1 h2 h3 h4 h5 h6 h7))

theorem a3_9 : W9 m ρ c (Proc.devRef .tc main_arg3) = (m ((c : Thread nD τ).loc main_arg3)) :=
  at9 m ρ c main_arg3 (by nw hostOps0) (by decide) (by nw hostOps1) (by decide) (by decide) (by nw hostOps3) (by decide)
    (by nw hostOps4) (by nw hostOps4_1)

/-- A buffer untouched up to region 4's exit. -/
theorem at13 (b : Ref sig .tc) (h1 : ∀ op ∈ (hostOps0 : List (HloOp τ sig (Elt Ideal))), Proc.devRef .tc b ∉ op.writes)
    (h2 : ∀ w, Pipeline.arrRef spec0 w ≠ b) (h3 : ∀ op ∈ (hostOps1 : List (HloOp τ sig (Elt Ideal))), Proc.devRef .tc b ∉ op.writes)
    (h4 : ∀ w, Pipeline.arrRef spec1 w ≠ b) (h5 : ∀ w, Pipeline.arrRef spec2 w ≠ b)
    (h6 : ∀ op ∈ (hostOps3 : List (HloOp τ sig (Elt Ideal))), Proc.devRef .tc b ∉ op.writes) (h7 : ∀ w, Pipeline.arrRef spec3 w ≠ b)
    (h8 : ∀ op ∈ (hostOps4 : List (HloOp τ sig (Elt Ideal))), Proc.devRef .tc b ∉ op.writes)
    (h9 : ∀ op ∈ (hostOps4_1 : List (HloOp τ sig (Elt Ideal))), Proc.devRef .tc b ∉ op.writes)
    (h10 : ∀ op ∈ (hostOps4_2 : List (HloOp τ sig (Elt Ideal))), Proc.devRef .tc b ∉ op.writes)
    (h11 : ∀ op ∈ (hostOps4_3 : List (HloOp τ sig (Elt Ideal))), Proc.devRef .tc b ∉ op.writes)
    (h12 : ∀ op ∈ (hostOps4_4 : List (HloOp τ sig (Elt Ideal))), Proc.devRef .tc b ∉ op.writes)
    (h13 : ∀ w, Pipeline.arrRef spec4 w ≠ b) :
    W13 m ρ c (Proc.devRef .tc b) = W0 m ρ c (Proc.devRef .tc b) :=
  (d13 m ρ c b h13).trans ((d12 m ρ c b h12).trans ((d11 m ρ c b h11).trans ((d10 m ρ c b h10).trans
    (at9 m ρ c b h1 h2 h3 h4 h5 h6 h7 h8 h9))))

theorem a13_13 : W13 m ρ c (Proc.devRef .tc main_arg13) = (m ((c : Thread nD τ).loc main_arg13)) :=
  at13 m ρ c main_arg13 (by nw hostOps0) (by decide) (by nw hostOps1) (by decide) (by decide) (by nw hostOps3) (by decide)
    (by nw hostOps4) (by nw hostOps4_1) (by nw hostOps4_2) (by nw hostOps4_3) (by nw hostOps4_4) (by decide)
theorem a14_13 : W13 m ρ c (Proc.devRef .tc main_arg14) = (m ((c : Thread nD τ).loc main_arg14)) :=
  at13 m ρ c main_arg14 (by nw hostOps0) (by decide) (by nw hostOps1) (by decide) (by decide) (by nw hostOps3) (by decide)
    (by nw hostOps4) (by nw hostOps4_1) (by nw hostOps4_2) (by nw hostOps4_3) (by nw hostOps4_4) (by decide)
theorem a12_14 : W14 m ρ c (Proc.devRef .tc main_arg12) = (m ((c : Thread nD τ).loc main_arg12)) :=
  (d14 m ρ c main_arg12 (by nw hostOps5)).trans
    (at13 m ρ c main_arg12 (by nw hostOps0) (by decide) (by nw hostOps1) (by decide) (by decide) (by nw hostOps3) (by decide)
      (by nw hostOps4) (by nw hostOps4_1) (by nw hostOps4_2) (by nw hostOps4_3) (by nw hostOps4_4) (by decide))

/-! ## The coefficients, where the two aggregations read them -/

theorem coef_1 : W1 m ρ c (Proc.devRef .tc main_v22) = Cert.ReferenceIdeal.Spec.coef (m ((c : Thread nD τ).loc main_arg1)) (m ((c : Thread nD τ).loc main_arg2)) := host0_coef (W0 m ρ c)
theorem selfc_1 : W1 m ρ c (Proc.devRef .tc main_v24) = Cert.ReferenceIdeal.Spec.selfc (m ((c : Thread nD τ).loc main_arg2)) := host0_selfc (W0 m ρ c)

theorem coef_2 : W2 m ρ c (Proc.devRef .tc main_v22) = Cert.ReferenceIdeal.Spec.coef (m ((c : Thread nD τ).loc main_arg1)) (m ((c : Thread nD τ).loc main_arg2)) :=
  (d2 m ρ c main_v22 (by decide)).trans (coef_1 m ρ c)
theorem selfc_2 : W2 m ρ c (Proc.devRef .tc main_v24) = Cert.ReferenceIdeal.Spec.selfc (m ((c : Thread nD τ).loc main_arg2)) :=
  (d2 m ρ c main_v24 (by decide)).trans (selfc_1 m ρ c)
theorem coef_5 : W5 m ρ c (Proc.devRef .tc main_v22) = Cert.ReferenceIdeal.Spec.coef (m ((c : Thread nD τ).loc main_arg1)) (m ((c : Thread nD τ).loc main_arg2)) :=
  (d5 m ρ c main_v22 (by decide)).trans ((d4 m ρ c main_v22 (by decide)).trans ((d3 m ρ c main_v22 (by nw hostOps1)).trans (coef_2 m ρ c)))
theorem selfc_5 : W5 m ρ c (Proc.devRef .tc main_v24) = Cert.ReferenceIdeal.Spec.selfc (m ((c : Thread nD τ).loc main_arg2)) :=
  (d5 m ρ c main_v24 (by decide)).trans ((d4 m ρ c main_v24 (by decide)).trans ((d3 m ρ c main_v24 (by nw hostOps1)).trans (selfc_2 m ρ c)))

/-! ## The layers -/

/-- The first projection, as region 0 leaves it. -/
theorem xw1 : W2 m ρ c (Proc.devRef .tc main_v25) = Cert.ReferenceIdeal.Spec.proj (m ((c : Thread nD τ).loc main_arg0)) (m ((c : Thread nD τ).loc main_arg4)) := by
  refine (W2_arr m ρ c 2).trans ((reg0_out (V1 m ρ) c).trans ?_)
  rw [show V1 m ρ c main_arg0 = (m ((c : Thread nD τ).loc main_arg0)) from a0_1 m ρ c, show V1 m ρ c main_arg4 = (m ((c : Thread nD τ).loc main_arg4)) from a4_1 m ρ c]

/-- The first layer, as region 1 leaves it. -/
theorem h1 : W4 m ρ c (Proc.devRef .tc main_v44)
    = Cert.ReferenceIdeal.Spec.layer (Cert.ReferenceIdeal.Spec.proj (m ((c : Thread nD τ).loc main_arg0)) (m ((c : Thread nD τ).loc main_arg4))) (m ((c : Thread nD τ).loc main_arg1)) (m ((c : Thread nD τ).loc main_arg2))
        (Cert.ReferenceIdeal.Spec.rowOf (m ((c : Thread nD τ).loc main_arg5))) (Cert.ReferenceIdeal.Spec.rowOf (m ((c : Thread nD τ).loc main_arg6))) (Cert.ReferenceIdeal.Spec.rowOf (m ((c : Thread nD τ).loc main_arg7))) := by
  refine (W4_arr m ρ c 4).trans ((reg1_out (V3 m ρ) c).trans ?_)
  rw [show V3 m ρ c main_v40 = _ from host1_pre (W2 m ρ c), show V3 m ρ c main_v41 = _ from host1_b (W2 m ρ c),
    show V3 m ρ c main_v42 = _ from host1_w (W2 m ρ c), show V3 m ρ c main_v43 = _ from host1_lb (W2 m ρ c),
    xw1, a1_2, a2_2, coef_2, selfc_2, a5_2, a6_2, a7_2]
  rfl

/-- The second projection, as region 2 leaves it. -/
theorem xw2 : W5 m ρ c (Proc.devRef .tc main_v45) = Cert.ReferenceIdeal.Spec.proj (W4 m ρ c (Proc.devRef .tc main_v44)) (m ((c : Thread nD τ).loc main_arg8)) := by
  refine (W5_arr m ρ c 2).trans ((reg2_out (V4 m ρ) c).trans ?_)
  rw [show V4 m ρ c main_arg8 = (m ((c : Thread nD τ).loc main_arg8)) from a8_4 m ρ c]

/-- The second layer with the blend, as region 3 leaves it. -/
theorem hb : W7 m ρ c (Proc.devRef .tc main_v64)
    = Cert.ReferenceIdeal.Spec.blend (Cert.ReferenceIdeal.Spec.layer
        (Cert.ReferenceIdeal.Spec.proj (W4 m ρ c (Proc.devRef .tc main_v44)) (m ((c : Thread nD τ).loc main_arg8))) (m ((c : Thread nD τ).loc main_arg1)) (m ((c : Thread nD τ).loc main_arg2))
        (Cert.ReferenceIdeal.Spec.rowOf (m ((c : Thread nD τ).loc main_arg9))) (Cert.ReferenceIdeal.Spec.rowOf (m ((c : Thread nD τ).loc main_arg10))) (Cert.ReferenceIdeal.Spec.rowOf (m ((c : Thread nD τ).loc main_arg11)))) := by
  refine (W7_arr m ρ c 4).trans ((reg3_out (V6 m ρ) c).trans ?_)
  rw [show V6 m ρ c main_v60 = _ from host3_pre (W5 m ρ c), show V6 m ρ c main_v61 = _ from host3_b (W5 m ρ c),
    show V6 m ρ c main_v62 = _ from host3_w (W5 m ρ c), show V6 m ρ c main_v63 = _ from host3_lb (W5 m ρ c),
    xw2, a1_5, a2_5, coef_5, selfc_5, a9_5, a10_5, a11_5]
  rfl

/-! ## Pooling and the classifier -/

/-- The padded features at region 4's entry. -/
theorem rows_12 : W12 m ρ c (Proc.devRef .tc main_v65) = padRows (W7 m ρ c (Proc.devRef .tc main_v64)) :=
  (d12 m ρ c main_v65 (by nw hostOps4_4)).trans ((d11 m ρ c main_v65 (by nw hostOps4_3)).trans
    ((d10 m ρ c main_v65 (by nw hostOps4_2)).trans (host4_rows (W7 m ρ c))))

/-- The padded batch row at region 4's entry. -/
theorem batch_12 : W12 m ρ c (Proc.devRef .tc main_v67) = padBatch (m ((c : Thread nD τ).loc main_arg3)) := by
  refine (host4_batch (W9 m ρ c)).trans ?_
  rw [a3_9]

/-- The pooled sums at region 5's entry. -/
theorem sums_14 : W14 m ρ c (Proc.devRef .tc main_v68_0) = Cert.ReferenceIdeal.Spec.poolSums (W7 m ρ c (Proc.devRef .tc main_v64)) (m ((c : Thread nD τ).loc main_arg3)) := by
  refine (d14 m ρ c main_v68_0 (by nw hostOps5)).trans ((W13_arr m ρ c 2).trans ((reg4_sums (V12 m ρ) c).trans ?_))
  rw [show V12 m ρ c main_v65 = _ from rows_12 m ρ c, show V12 m ρ c main_v67 = _ from batch_12 m ρ c]
  exact sumsP_eq _ _

/-- The pooled counts at region 5's entry, a column. -/
theorem cnts_14 : W14 m ρ c (Proc.devRef .tc main_v68_1)
    = broadcastInDim Cert.ReferenceIdeal.S512x1 ![0] Cert.ReferenceIdeal.Facts₀.bcast_S512_S512x1_0
        (Cert.ReferenceIdeal.Spec.poolCnts (m ((c : Thread nD τ).loc main_arg3))) := by
  refine (d14 m ρ c main_v68_1 (by nw hostOps5)).trans ((W13_arr m ρ c 3).trans ((reg4_cnts (V12 m ρ) c).trans ?_))
  rw [show V12 m ρ c main_v67 = _ from batch_12 m ρ c]
  exact cntsP_eq _

/-- THE RESULT at the last boundary is the specification of the arguments. -/
theorem chain : W15 m ρ c (Proc.devRef .tc main_v71)
    = Cert.ReferenceIdeal.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) := by
  refine (W15_arr m ρ c 5).trans ((reg5_out (V14 m ρ) c (Cert.ReferenceIdeal.Spec.poolCnts (m ((c : Thread nD τ).loc main_arg3))) (m ((c : Thread nD τ).loc main_arg13)) (m ((c : Thread nD τ).loc main_arg14))
    (cnts_14 m ρ c) ((host5_g (W13 m ρ c)).trans (by rw [a13_13])) ((host5_b (W13 m ρ c)).trans (by rw [a14_13]))).trans ?_)
  rw [show V14 m ρ c main_v68_0 = _ from sums_14 m ρ c, show V14 m ρ c main_arg12 = _ from a12_14 m ρ c, hb, h1]
  rfl

end Cert.KernelIdeal.Val

end
-- ==== Proof.RefOps.lean ====
import proofs.«413006_j28346784153649_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations of @main's part 0 (60 of them), in order. -/
abbrev ops0 : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v1 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v2 (broadcastInDim S100000 ![] bcast_S_S100000 : (⟨S_, .f32⟩ : BufTy).Contents (Elt F) → (⟨S100000, .f32⟩ : BufTy).Contents (Elt F)),
    unary main_arg2 main_v3 (broadcastInDim S1600000x1 ![0] bcast_S1600000_S1600000x1_0 : (⟨S1600000, .i32⟩ : BufTy).Contents (Elt F) → (⟨S1600000x1, .i32⟩ : BufTy).Contents (Elt F)),
    ternary main_v2 main_v3 main_v1 main_v4 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v5 (broadcastInDim S100000 ![] bcast_S_S100000 : (⟨S_, .f32⟩ : BufTy).Contents (Elt F) → (⟨S100000, .f32⟩ : BufTy).Contents (Elt F)),
    binary main_v4 main_v5 main_v6 (addf : (⟨S100000, .f32⟩ : BufTy).Contents (Elt F) → (⟨S100000, .f32⟩ : BufTy).Contents (Elt F) → (⟨S100000, .f32⟩ : BufTy).Contents (Elt F)),
    unary main_v6 main_v7 (Host.rsqrt : (⟨S100000, .f32⟩ : BufTy).Contents (Elt F) → (⟨S100000, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_arg1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v10 (broadcastInDim S1600000 ![] bcast_S_S1600000 : (⟨S_, .i32⟩ : BufTy).Contents (Elt F) → (⟨S1600000, .i32⟩ : BufTy).Contents (Elt F)),
    binary main_arg1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_arg1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_v7 main_v13 main_v14 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v15 (broadcastInDim S1600000 ![] bcast_S_S1600000 : (⟨S_, .i32⟩ : BufTy).Contents (Elt F) → (⟨S1600000, .i32⟩ : BufTy).Contents (Elt F)),
    binary main_arg2 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v17 (broadcastInDim S1600000 ![] bcast_S_S1600000 : (⟨S_, .i32⟩ : BufTy).Contents (Elt F) → (⟨S1600000, .i32⟩ : BufTy).Contents (Elt F)),
    binary main_arg2 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_arg2 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v7 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v14 main_v21 main_v22 (mulf : (⟨S1600000, .f32⟩ : BufTy).Contents (Elt F) → (⟨S1600000, .f32⟩ : BufTy).Contents (Elt F) → (⟨S1600000, .f32⟩ : BufTy).Contents (Elt F)),
    unary main_v22 main_v23 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v24 (broadcastInDim S1600000 ![] bcast_S_S1600000 : (⟨S_, .i32⟩ : BufTy).Contents (Elt F) → (⟨S1600000, .i32⟩ : BufTy).Contents (Elt F)),
    binary main_arg1 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_arg1 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v0 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v23 main_v31 (broadcastInDim S1600000x128 ![0, 1] bcast_S1600000x1_S1600000x128_0_1 : (⟨S1600000x1, .f32⟩ : BufTy).Contents (Elt F) → (⟨S1600000x128, .f32⟩ : BufTy).Contents (Elt F)),
    binary main_v30 main_v31 main_v32 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v33 (broadcastInDim S100000x128 ![] bcast_S_S100000x128 : (⟨S_, .f32⟩ : BufTy).Contents (Elt F) → (⟨S100000x128, .f32⟩ : BufTy).Contents (Elt F)),
    unary main_arg2 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v7 main_v7 main_v36 (mulf : (⟨S100000, .f32⟩ : BufTy).Contents (Elt F) → (⟨S100000, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v38 main_v0 main_v39 (mulf : (⟨S100000x128, .f32⟩ : BufTy).Contents (Elt F) → (⟨S100000x128, .f32⟩ : BufTy).Contents (Elt F) → (⟨S100000x128, .f32⟩ : BufTy).Contents (Elt F)),
    binary main_v35 main_v39 main_v40 (addf : (⟨S100000x128, .f32⟩ : BufTy).Contents (Elt F) → (⟨S100000x128, .f32⟩ : BufTy).Contents (Elt F) → (⟨S100000x128, .f32⟩ : BufTy).Contents (Elt F)),
    unary main_arg5 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v43 main_cst_8 main_v44 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v44 main_v45 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v46 (broadcastInDim S100000x1 ![] bcast_S_S100000x1 : (⟨S_, .f32⟩ : BufTy).Contents (Elt F) → (⟨S100000x1, .f32⟩ : BufTy).Contents (Elt F)),
    binary main_v45 main_v46 main_v47 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
theorem ops0_sub : (ops0 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub ..⟩

/-- The operations of @main's part 1 (74 of them), in order. -/
abbrev ops1 : List (HloOp τ sig (Elt F)) :=
  [ unary main_v47 main_v48 (broadcastInDim S100000x128 ![0, 1] bcast_S100000x1_S100000x128_0_1 : (⟨S100000x1, .f32⟩ : BufTy).Contents (Elt F) → (⟨S100000x128, .f32⟩ : BufTy).Contents (Elt F)),
    binary main_v43 main_v48 main_v49 (subf : (⟨S100000x128, .f32⟩ : BufTy).Contents (Elt F) → (⟨S100000x128, .f32⟩ : BufTy).Contents (Elt F) → (⟨S100000x128, .f32⟩ : BufTy).Contents (Elt F)),
    binary main_v49 main_v49 main_v50 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v50 main_cst_10 main_v51 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v51 main_v52 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v53 (broadcastInDim S100000x1 ![] bcast_S_S100000x1 : (⟨S_, .f32⟩ : BufTy).Contents (Elt F) → (⟨S100000x1, .f32⟩ : BufTy).Contents (Elt F)),
    binary main_v52 main_v53 main_v54 (Host.divf : (⟨S100000x1, .f32⟩ : BufTy).Contents (Elt F) → (⟨S100000x1, .f32⟩ : BufTy).Contents (Elt F) → (⟨S100000x1, .f32⟩ : BufTy).Contents (Elt F)),
    unary main_v47 main_v55 (broadcastInDim S100000x128 ![0, 1] bcast_S100000x1_S100000x128_0_1 : (⟨S100000x1, .f32⟩ : BufTy).Contents (Elt F) → (⟨S100000x128, .f32⟩ : BufTy).Contents (Elt F)),
    binary main_v43 main_v55 main_v56 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v57 (broadcastInDim S100000x1 ![] bcast_S_S100000x1 : (⟨S_, .f32⟩ : BufTy).Contents (Elt F) → (⟨S100000x1, .f32⟩ : BufTy).Contents (Elt F)),
    binary main_v54 main_v57 main_v58 (addf : (⟨S100000x1, .f32⟩ : BufTy).Contents (Elt F) → (⟨S100000x1, .f32⟩ : BufTy).Contents (Elt F) → (⟨S100000x1, .f32⟩ : BufTy).Contents (Elt F)),
    unary main_v58 main_v59 (Host.rsqrt : (⟨S100000x1, .f32⟩ : BufTy).Contents (Elt F) → (⟨S100000x1, .f32⟩ : BufTy).Contents (Elt F)),
    unary main_v59 main_v60 (broadcastInDim S100000x128 ![0, 1] bcast_S100000x1_S100000x128_0_1 : (⟨S100000x1, .f32⟩ : BufTy).Contents (Elt F) → (⟨S100000x128, .f32⟩ : BufTy).Contents (Elt F)),
    binary main_v56 main_v60 main_v61 (mulf : (⟨S100000x128, .f32⟩ : BufTy).Contents (Elt F) → (⟨S100000x128, .f32⟩ : BufTy).Contents (Elt F) → (⟨S100000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (mulf : (⟨S100000x128, .f32⟩ : BufTy).Contents (Elt F) → (⟨S100000x128, .f32⟩ : BufTy).Contents (Elt F) → (⟨S100000x128, .f32⟩ : BufTy).Contents (Elt F)),
    unary main_arg7 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v67) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v67) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v67) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v67) main_call0.v7 main_call0.call1.v0 select,
    binary main_v68 main_arg8 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_13 (constant S_ .f32 0x3F800000#32),
    unary main_cst_13 main_v70 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v71 (broadcastInDim S100000 ![] bcast_S_S100000 : (⟨S_, .f32⟩ : BufTy).Contents (Elt F) → (⟨S100000, .f32⟩ : BufTy).Contents (Elt F)),
    unary main_arg2 main_v72 (broadcastInDim S1600000x1 ![0] bcast_S1600000_S1600000x1_0 : (⟨S1600000, .i32⟩ : BufTy).Contents (Elt F) → (⟨S1600000x1, .i32⟩ : BufTy).Contents (Elt F)),
    ternary main_v71 main_v72 main_v70 main_v73 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v74 (broadcastInDim S100000 ![] bcast_S_S100000 : (⟨S_, .f32⟩ : BufTy).Contents (Elt F) → (⟨S100000, .f32⟩ : BufTy).Contents (Elt F)),
    binary main_v73 main_v74 main_v75 (addf : (⟨S100000, .f32⟩ : BufTy).Contents (Elt F) → (⟨S100000, .f32⟩ : BufTy).Contents (Elt F) → (⟨S100000, .f32⟩ : BufTy).Contents (Elt F)),
    unary main_v75 main_v76 (Host.rsqrt : (⟨S100000, .f32⟩ : BufTy).Contents (Elt F) → (⟨S100000, .f32⟩ : BufTy).Contents (Elt F)),
    nullary main_c_16 (constantI S_ 32 0#32),
    unary main_c_16 main_v77 (broadcastInDim S1600000 ![] bcast_S_S1600000 : (⟨S_, .i32⟩ : BufTy).Contents (Elt F) → (⟨S1600000, .i32⟩ : BufTy).Contents (Elt F)),
    binary main_arg1 main_v77 main_v78 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v79 (broadcastInDim S1600000 ![] bcast_S_S1600000 : (⟨S_, .i32⟩ : BufTy).Contents (Elt F) → (⟨S1600000, .i32⟩ : BufTy).Contents (Elt F)),
    binary main_arg1 main_v79 main_v80 (addi : (⟨S1600000, .i32⟩ : BufTy).Contents (Elt F) → (⟨S1600000, .i32⟩ : BufTy).Contents (Elt F) → (⟨S1600000, .i32⟩ : BufTy).Contents (Elt F)),
    ternary main_v78 main_v80 main_arg1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v81 main_v82 (broadcastInDim S1600000x1 ![0] bcast_S1600000_S1600000x1_0 : (⟨S1600000, .i32⟩ : BufTy).Contents (Elt F) → (⟨S1600000x1, .i32⟩ : BufTy).Contents (Elt F)),
    binary main_v76 main_v82 main_v83 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_18 (constantI S_ 32 0#32),
    unary main_c_18 main_v84 (broadcastInDim S1600000 ![] bcast_S_S1600000 : (⟨S_, .i32⟩ : BufTy).Contents (Elt F) → (⟨S1600000, .i32⟩ : BufTy).Contents (Elt F)),
    binary main_arg2 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v86 (broadcastInDim S1600000 ![] bcast_S_S1600000 : (⟨S_, .i32⟩ : BufTy).Contents (Elt F) → (⟨S1600000, .i32⟩ : BufTy).Contents (Elt F)),
    binary main_arg2 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_arg2 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v76 main_v89 main_v90 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v83 main_v90 main_v91 (mulf : (⟨S1600000, .f32⟩ : BufTy).Contents (Elt F) → (⟨S1600000, .f32⟩ : BufTy).Contents (Elt F) → (⟨S1600000, .f32⟩ : BufTy).Contents (Elt F)),
    unary main_v91 main_v92 (broadcastInDim S1600000x1 ![0] bcast_S1600000_S1600000x1_0 : (⟨S1600000, .f32⟩ : BufTy).Contents (Elt F) → (⟨S1600000x1, .f32⟩ : BufTy).Contents (Elt F)),
    nullary main_c_20 (constantI S_ 32 0#32),
    unary main_c_20 main_v93 (broadcastInDim S1600000 ![] bcast_S_S1600000 : (⟨S_, .i32⟩ : BufTy).Contents (Elt F) → (⟨S1600000, .i32⟩ : BufTy).Contents (Elt F)),
    binary main_arg1 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v95 (broadcastInDim S1600000 ![] bcast_S_S1600000 : (⟨S_, .i32⟩ : BufTy).Contents (Elt F) → (⟨S1600000, .i32⟩ : BufTy).Contents (Elt F)) ]

set_option maxRecDepth 8192 in
theorem ops1_sub : (ops1 : List (HloOp τ sig (Elt F))).Forall fun op => op.bufs ⊆ tcRefs τ sig :=
  ⟨unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub ..⟩

/-- The operations of @main's part 2 (74 of them), in order. -/
abbrev ops2 : List (HloOp τ sig (Elt F)) :=
  [ binary main_arg1 main_v95 main_v96 (addi : (⟨S1600000, .i32⟩ : BufTy).Contents (Elt F) → (⟨S1600000, .i32⟩ : BufTy).Contents (Elt F) → (⟨S1600000, .i32⟩ : BufTy).Contents (Elt F)),
    ternary main_v94 main_v96 main_arg1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v69 main_v98 main_v99 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v92 main_v100 (broadcastInDim S1600000x128 ![0, 1] bcast_S1600000x1_S1600000x128_0_1 : (⟨S1600000x1, .f32⟩ : BufTy).Contents (Elt F) → (⟨S1600000x128, .f32⟩ : BufTy).Contents (Elt F)),
    binary main_v99 main_v100 main_v101 (mulf : (⟨S1600000x128, .f32⟩ : BufTy).Contents (Elt F) → (⟨S1600000x128, .f32⟩ : BufTy).Contents (Elt F) → (⟨S1600000x128, .f32⟩ : BufTy).Contents (Elt F)),
    nullary main_cst_22 (constant S_ .f32 0x00000000#32),
    unary main_cst_22 main_v102 (broadcastInDim S100000x128 ![] bcast_S_S100000x128 : (⟨S_, .f32⟩ : BufTy).Contents (Elt F) → (⟨S100000x128, .f32⟩ : BufTy).Contents (Elt F)),
    unary main_arg2 main_v103 (broadcastInDim S1600000x1 ![0] bcast_S1600000_S1600000x1_0 : (⟨S1600000, .i32⟩ : BufTy).Contents (Elt F) → (⟨S1600000x1, .i32⟩ : BufTy).Contents (Elt F)),
    ternary main_v102 main_v103 main_v101 main_v104 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v76 main_v76 main_v105 (mulf : (⟨S100000, .f32⟩ : BufTy).Contents (Elt F) → (⟨S100000, .f32⟩ : BufTy).Contents (Elt F) → (⟨S100000, .f32⟩ : BufTy).Contents (Elt F)),
    unary main_v105 main_v106 (broadcastInDim S100000x1 ![0] bcast_S100000_S100000x1_0 : (⟨S100000, .f32⟩ : BufTy).Contents (Elt F) → (⟨S100000x1, .f32⟩ : BufTy).Contents (Elt F)),
    unary main_v106 main_v107 (broadcastInDim S100000x128 ![0, 1] bcast_S100000x1_S100000x128_0_1 : (⟨S100000x1, .f32⟩ : BufTy).Contents (Elt F) → (⟨S100000x128, .f32⟩ : BufTy).Contents (Elt F)),
    binary main_v107 main_v69 main_v108 (mulf : (⟨S100000x128, .f32⟩ : BufTy).Contents (Elt F) → (⟨S100000x128, .f32⟩ : BufTy).Contents (Elt F) → (⟨S100000x128, .f32⟩ : BufTy).Contents (Elt F)),
    binary main_v104 main_v108 main_v109 (addf : (⟨S100000x128, .f32⟩ : BufTy).Contents (Elt F) → (⟨S100000x128, .f32⟩ : BufTy).Contents (Elt F) → (⟨S100000x128, .f32⟩ : BufTy).Contents (Elt F)),
    unary main_arg9 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v112 main_cst_23 main_v113 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v113 main_v114 (broadcastInDim S100000x1 ![0] bcast_S100000_S100000x1_0 : (⟨S100000, .f32⟩ : BufTy).Contents (Elt F) → (⟨S100000x1, .f32⟩ : BufTy).Contents (Elt F)),
    nullary main_cst_24 (constant S_ .f32 0x43000000#32),
    unary main_cst_24 main_v115 (broadcastInDim S100000x1 ![] bcast_S_S100000x1 : (⟨S_, .f32⟩ : BufTy).Contents (Elt F) → (⟨S100000x1, .f32⟩ : BufTy).Contents (Elt F)),
    binary main_v114 main_v115 main_v116 (Host.divf : (⟨S100000x1, .f32⟩ : BufTy).Contents (Elt F) → (⟨S100000x1, .f32⟩ : BufTy).Contents (Elt F) → (⟨S100000x1, .f32⟩ : BufTy).Contents (Elt F)),
    unary main_v116 main_v117 (broadcastInDim S100000x128 ![0, 1] bcast_S100000x1_S100000x128_0_1 : (⟨S100000x1, .f32⟩ : BufTy).Contents (Elt F) → (⟨S100000x128, .f32⟩ : BufTy).Contents (Elt F)),
    binary main_v112 main_v117 main_v118 (subf : (⟨S100000x128, .f32⟩ : BufTy).Contents (Elt F) → (⟨S100000x128, .f32⟩ : BufTy).Contents (Elt F) → (⟨S100000x128, .f32⟩ : BufTy).Contents (Elt F)),
    binary main_v118 main_v118 main_v119 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v119 main_cst_25 main_v120 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v120 main_v121 (broadcastInDim S100000x1 ![0] bcast_S100000_S100000x1_0 : (⟨S100000, .f32⟩ : BufTy).Contents (Elt F) → (⟨S100000x1, .f32⟩ : BufTy).Contents (Elt F)),
    nullary main_cst_26 (constant S_ .f32 0x43000000#32),
    unary main_cst_26 main_v122 (broadcastInDim S100000x1 ![] bcast_S_S100000x1 : (⟨S_, .f32⟩ : BufTy).Contents (Elt F) → (⟨S100000x1, .f32⟩ : BufTy).Contents (Elt F)),
    binary main_v121 main_v122 main_v123 (Host.divf : (⟨S100000x1, .f32⟩ : BufTy).Contents (Elt F) → (⟨S100000x1, .f32⟩ : BufTy).Contents (Elt F) → (⟨S100000x1, .f32⟩ : BufTy).Contents (Elt F)),
    unary main_v116 main_v124 (broadcastInDim S100000x128 ![0, 1] bcast_S100000x1_S100000x128_0_1 : (⟨S100000x1, .f32⟩ : BufTy).Contents (Elt F) → (⟨S100000x128, .f32⟩ : BufTy).Contents (Elt F)),
    binary main_v112 main_v124 main_v125 (subf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x3727C5AC#32),
    unary main_cst_27 main_v126 (broadcastInDim S100000x1 ![] bcast_S_S100000x1 : (⟨S_, .f32⟩ : BufTy).Contents (Elt F) → (⟨S100000x1, .f32⟩ : BufTy).Contents (Elt F)),
    binary main_v123 main_v126 main_v127 (addf : (⟨S100000x1, .f32⟩ : BufTy).Contents (Elt F) → (⟨S100000x1, .f32⟩ : BufTy).Contents (Elt F) → (⟨S100000x1, .f32⟩ : BufTy).Contents (Elt F)),
    unary main_v127 main_v128 (Host.rsqrt : (⟨S100000x1, .f32⟩ : BufTy).Contents (Elt F) → (⟨S100000x1, .f32⟩ : BufTy).Contents (Elt F)),
    unary main_v128 main_v129 (broadcastInDim S100000x128 ![0, 1] bcast_S100000x1_S100000x128_0_1 : (⟨S100000x1, .f32⟩ : BufTy).Contents (Elt F) → (⟨S100000x128, .f32⟩ : BufTy).Contents (Elt F)),
    binary main_v125 main_v129 main_v130 (mulf : (⟨S100000x128, .f32⟩ : BufTy).Contents (Elt F) → (⟨S100000x128, .f32⟩ : BufTy).Contents (Elt F) → (⟨S100000x128, .f32⟩ : BufTy).Contents (Elt F)),
    unary main_arg10 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v130 main_v132 main_v133 (mulf : (⟨S100000x128, .f32⟩ : BufTy).Contents (Elt F) → (⟨S100000x128, .f32⟩ : BufTy).Contents (Elt F) → (⟨S100000x128, .f32⟩ : BufTy).Contents (Elt F)),
    unary main_arg11 main_v134 (broadcastInDim S1x128 ![1] bcast_S128_S1x128_1 : (⟨S128, .f32⟩ : BufTy).Contents (Elt F) → (⟨S1x128, .f32⟩ : BufTy).Contents (Elt F)),
    unary main_v134 main_v135 (broadcastInDim S100000x128 ![0, 1] bcast_S1x128_S100000x128_0_1 : (⟨S1x128, .f32⟩ : BufTy).Contents (Elt F) → (⟨S100000x128, .f32⟩ : BufTy).Contents (Elt F)),
    binary main_v133 main_v135 main_v136 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v136) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v136) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v136) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v136) main_call1.v7 main_call1.call1.v0 select,
    nullary main_cst_28 (constant S_ .f32 0x3F19999A#32),
    unary main_cst_28 main_v138 (broadcastInDim S100000x128 ![] bcast_S_S100000x128 : (⟨S_, .f32⟩ : BufTy).Contents (Elt F) → (⟨S100000x128, .f32⟩ : BufTy).Contents (Elt F)),
    binary main_v138 main_v137 main_v139 (mulf : (⟨S100000x128, .f32⟩ : BufTy).Contents (Elt F) → (⟨S100000x128, .f32⟩ : BufTy).Contents (Elt F) → (⟨S100000x128, .f32⟩ : BufTy).Contents (Elt F)),
    binary main_v137 main_v137 main_v140 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x00000000#32),
    binary main_v140 main_cst_29 main_v141 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v141 main_v142 (broadcastInDim S100000x1 ![0] bcast_S100000_S100000x1_0 : (⟨S100000, .f32⟩ : BufTy).Contents (Elt F) → (⟨S100000x1, .f32⟩ : BufTy).Contents (Elt F)),
    nullary main_cst_30 (constant S_ .f32 0x358637BD#32),
    unary main_cst_30 main_v143 (broadcastInDim S100000x1 ![] bcast_S_S100000x1 : (⟨S_, .f32⟩ : BufTy).Contents (Elt F) → (⟨S100000x1, .f32⟩ : BufTy).Contents (Elt F)),
    binary main_v142 main_v143 main_v144 (addf : (⟨S100000x1, .f32⟩ : BufTy).Contents (Elt F) → (⟨S100000x1, .f32⟩ : BufTy).Contents (Elt F) → (⟨S100000x1, .f32⟩ : BufTy).Contents (Elt F)),
    unary main_v144 main_v145 (Host.sqrt : (⟨S100000x1, .f32⟩ : BufTy).Contents (Elt F) → (⟨S100000x1, .f32⟩ : BufTy).Contents (Elt F)),
    nullary main_cst_31 (constant S_ .f32 0x3FC00000#32) ]

set_option maxRecDepth 8192 in
theorem ops2_sub : (ops2 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., nullary_bufs_sub ..⟩

/-- The operations of @main's part 3 (50 of them), in order. -/
abbrev ops3 : List (HloOp τ sig (Elt F)) :=
  [ unary main_cst_31 main_v146 (broadcastInDim S100000x128 ![] bcast_S_S100000x128 : (⟨S_, .f32⟩ : BufTy).Contents (Elt F) → (⟨S100000x128, .f32⟩ : BufTy).Contents (Elt F)),
    binary main_v146 main_v137 main_v147 (mulf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x358637BD#32),
    unary main_cst_32 main_v148 (broadcastInDim S100000x1 ![] bcast_S_S100000x1 : (⟨S_, .f32⟩ : BufTy).Contents (Elt F) → (⟨S100000x1, .f32⟩ : BufTy).Contents (Elt F)),
    binary main_v145 main_v148 main_v149 (addf : (⟨S100000x1, .f32⟩ : BufTy).Contents (Elt F) → (⟨S100000x1, .f32⟩ : BufTy).Contents (Elt F) → (⟨S100000x1, .f32⟩ : BufTy).Contents (Elt F)),
    unary main_v149 main_v150 (broadcastInDim S100000x128 ![0, 1] bcast_S100000x1_S100000x128_0_1 : (⟨S100000x1, .f32⟩ : BufTy).Contents (Elt F) → (⟨S100000x128, .f32⟩ : BufTy).Contents (Elt F)),
    binary main_v147 main_v150 main_v151 (Host.divf : (⟨S100000x128, .f32⟩ : BufTy).Contents (Elt F) → (⟨S100000x128, .f32⟩ : BufTy).Contents (Elt F) → (⟨S100000x128, .f32⟩ : BufTy).Contents (Elt F)),
    unary main_v151 main_v152 (Host.absf : (⟨S100000x128, .f32⟩ : BufTy).Contents (Elt F) → (⟨S100000x128, .f32⟩ : BufTy).Contents (Elt F)),
    nullary main_cst_33 (constant S_ .f32 0x358637BD#32),
    unary main_cst_33 main_v153 (broadcastInDim S100000x128 ![] bcast_S_S100000x128 : (⟨S_, .f32⟩ : BufTy).Contents (Elt F) → (⟨S100000x128, .f32⟩ : BufTy).Contents (Elt F)),
    binary main_v152 main_v153 main_v154 (addf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x00000000#32),
    unary main_cst_34 main_v155 (broadcastInDim S100000x128 ![] bcast_S_S100000x128 : (⟨S_, .f32⟩ : BufTy).Contents (Elt F) → (⟨S100000x128, .f32⟩ : BufTy).Contents (Elt F)),
    binary main_v154 main_v155 main_v156 (Host.powf : (⟨S100000x128, .f32⟩ : BufTy).Contents (Elt F) → (⟨S100000x128, .f32⟩ : BufTy).Contents (Elt F) → (⟨S100000x128, .f32⟩ : BufTy).Contents (Elt F)),
    binary main_v151 main_v156 main_v157 (mulf : (⟨S100000x128, .f32⟩ : BufTy).Contents (Elt F) → (⟨S100000x128, .f32⟩ : BufTy).Contents (Elt F) → (⟨S100000x128, .f32⟩ : BufTy).Contents (Elt F)),
    nullary main_cst_35 (constant S_ .f32 0x3ECCCCCD#32),
    unary main_cst_35 main_v158 (broadcastInDim S100000x128 ![] bcast_S_S100000x128 : (⟨S_, .f32⟩ : BufTy).Contents (Elt F) → (⟨S100000x128, .f32⟩ : BufTy).Contents (Elt F)),
    binary main_v158 main_v157 main_v159 (mulf : (⟨S100000x128, .f32⟩ : BufTy).Contents (Elt F) → (⟨S100000x128, .f32⟩ : BufTy).Contents (Elt F) → (⟨S100000x128, .f32⟩ : BufTy).Contents (Elt F)),
    binary main_v139 main_v159 main_v160 (addf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x00000000#32),
    unary main_cst_36 main_v161 (broadcastInDim S512x128 ![] bcast_S_S512x128 : (⟨S_, .f32⟩ : BufTy).Contents (Elt F) → (⟨S512x128, .f32⟩ : BufTy).Contents (Elt F)),
    unary main_arg3 main_v162 (broadcastInDim S100000x1 ![0] bcast_S100000_S100000x1_0 : (⟨S100000, .i32⟩ : BufTy).Contents (Elt F) → (⟨S100000x1, .i32⟩ : BufTy).Contents (Elt F)),
    ternary main_v161 main_v162 main_v160 main_v163 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_37 (constant S_ .f32 0x3F800000#32),
    unary main_cst_37 main_v164 (broadcastInDim S100000 ![] bcast_S_S100000 : (⟨S_, .f32⟩ : BufTy).Contents (Elt F) → (⟨S100000, .f32⟩ : BufTy).Contents (Elt F)),
    nullary main_cst_38 (constant S_ .f32 0x00000000#32),
    unary main_cst_38 main_v165 (broadcastInDim S512 ![] bcast_S_S512 : (⟨S_, .f32⟩ : BufTy).Contents (Elt F) → (⟨S512, .f32⟩ : BufTy).Contents (Elt F)),
    unary main_arg3 main_v166 (broadcastInDim S100000x1 ![0] bcast_S100000_S100000x1_0 : (⟨S100000, .i32⟩ : BufTy).Contents (Elt F) → (⟨S100000x1, .i32⟩ : BufTy).Contents (Elt F)),
    ternary main_v165 main_v166 main_v164 main_v167 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_39 (constant S_ .f32 0x3F800000#32),
    unary main_cst_39 main_v168 (broadcastInDim S512 ![] bcast_S_S512 : (⟨S_, .f32⟩ : BufTy).Contents (Elt F) → (⟨S512, .f32⟩ : BufTy).Contents (Elt F)),
    binary main_v167 main_v168 main_v169 (maximumf : (⟨S512, .f32⟩ : BufTy).Contents (Elt F) → (⟨S512, .f32⟩ : BufTy).Contents (Elt F) → (⟨S512, .f32⟩ : BufTy).Contents (Elt F)),
    unary main_v169 main_v170 (broadcastInDim S512x1 ![0] bcast_S512_S512x1_0 : (⟨S512, .f32⟩ : BufTy).Contents (Elt F) → (⟨S512x1, .f32⟩ : BufTy).Contents (Elt F)),
    unary main_v170 main_v171 (broadcastInDim S512x128 ![0, 1] bcast_S512x1_S512x128_0_1 : (⟨S512x1, .f32⟩ : BufTy).Contents (Elt F) → (⟨S512x128, .f32⟩ : BufTy).Contents (Elt F)),
    binary main_v163 main_v171 main_v172 (Host.divf : (⟨S512x128, .f32⟩ : BufTy).Contents (Elt F) → (⟨S512x128, .f32⟩ : BufTy).Contents (Elt F) → (⟨S512x128, .f32⟩ : BufTy).Contents (Elt F)),
    unary main_arg13 main_v173 (broadcastInDim S10x1 ![0] bcast_S10_S10x1_0 : (⟨S10, .f32⟩ : BufTy).Contents (Elt F) → (⟨S10x1, .f32⟩ : BufTy).Contents (Elt F)),
    unary main_v173 main_v174 (broadcastInDim S10x128 ![0, 1] bcast_S10x1_S10x128_0_1 : (⟨S10x1, .f32⟩ : BufTy).Contents (Elt F) → (⟨S10x128, .f32⟩ : BufTy).Contents (Elt F)),
    binary main_v174 main_arg12 main_v175 (mulf : (⟨S10x128, .f32⟩ : BufTy).Contents (Elt F) → (⟨S10x128, .f32⟩ : BufTy).Contents (Elt F) → (⟨S10x128, .f32⟩ : BufTy).Contents (Elt F)),
    TRef.binary (.of main_arg12) (.of main_arg12) main_call2.v0 mulf,
    TRef.nullary main_call2.cst (constant S_ .f32 0x00000000#32),
    TRef.binary main_call2.v0 main_call2.cst main_call2.v1 (fun x v => Host.reduceAdd x v reducesTo_S10x128_S10_d1 h_S_),
    TRef.unary main_call2.v1 main_call2.v2 (broadcastInDim S10x1 ![0] bcast_S10_S10x1_0),
    TRef.unary main_call2.v2 main_call2.v3 Host.sqrt,
    unary main_v176 main_v177 (broadcastInDim S10x128 ![0, 1] bcast_S10x1_S10x128_0_1 : (⟨S10x1, .f32⟩ : BufTy).Contents (Elt F) → (⟨S10x128, .f32⟩ : BufTy).Contents (Elt F)),
    binary main_v175 main_v177 main_v178 (Host.divf : (⟨S10x128, .f32⟩ : BufTy).Contents (Elt F) → (⟨S10x128, .f32⟩ : BufTy).Contents (Elt F) → (⟨S10x128, .f32⟩ : BufTy).Contents (Elt F)),
    unary main_v178 main_v179 ((transpose S128x10 [1, 0] · transposes_S10x128_S128x10_1_0) : (⟨S10x128, .f32⟩ : BufTy).Contents (Elt F) → (⟨S128x10, .f32⟩ : BufTy).Contents (Elt F)),
    binary main_v172 main_v179 main_v180 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg14 main_v181 (broadcastInDim S1x10 ![1] bcast_S10_S1x10_1 : (⟨S10, .f32⟩ : BufTy).Contents (Elt F) → (⟨S1x10, .f32⟩ : BufTy).Contents (Elt F)),
    unary main_v181 main_v182 (broadcastInDim S512x10 ![0, 1] bcast_S1x10_S512x10_0_1 : (⟨S1x10, .f32⟩ : BufTy).Contents (Elt F) → (⟨S512x10, .f32⟩ : BufTy).Contents (Elt F)),
    binary main_v180 main_v182 main_v183 (addf : (⟨S512x10, .f32⟩ : BufTy).Contents (Elt F) → (⟨S512x10, .f32⟩ : BufTy).Contents (Elt F) → (⟨S512x10, .f32⟩ : BufTy).Contents (Elt F)) ]

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub .., unary_bufs_sub .., binary_bufs_sub .., unary_bufs_sub .., binary_bufs_sub .., unary_bufs_sub .., unary_bufs_sub .., binary_bufs_sub ..⟩

end Cert.ReferenceIdeal.Run

end
-- ==== Proof.RefRun.lean ====
/-
  The reference's @main is a straight line of host operations (its three outlined functions unfolded at their calls), so every
  weakly fair execution of it terminates with each buffer at the fold of the operations' results over the launch contents.
-/
import proofs.«413006_j28346784153649_1_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- All of @main's operations: the four parts one after the other. -/
abbrev ops : List (HloOp τ sig (Elt F)) := ops0 ++ (ops1 ++ (ops2 ++ ops3))

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := by
  simp only [main_part1, fn_elu.body, fn_where.body, fn_where_0.body, seq, bind_assoc, pure_bind]
  try rfl

set_option maxRecDepth 8192 in
set_option maxHeartbeats 4000000 in
theorem part2_eq (c : Dev nD) : main_part2 (F := F) c = seq ops2 := by
  simp only [main_part2, fn_elu.body, fn_where.body, fn_where_0.body, seq, bind_assoc, pure_bind]
  try rfl

set_option maxRecDepth 8192 in
set_option maxHeartbeats 4000000 in
theorem part3_eq (c : Dev nD) : main_part3 (F := F) c = seq ops3 := by
  simp only [main_part3, fn_norm.body, seq, bind_assoc, pure_bind]
  try rfl

/-- @main is the straight line of all the operations. -/
theorem main_eq (c : Dev nD) : main (F := F) c = seq ops := by
  unfold main
  rw [part0_eq, part1_eq, part2_eq, part3_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h
  · exact (List.forall_iff_forall_mem.mp ops0_sub) op h
  · exact (List.forall_iff_forall_mem.mp ops1_sub) op h
  · exact (List.forall_iff_forall_mem.mp ops2_sub) op h
  · exact (List.forall_iff_forall_mem.mp ops3_sub) op h

set_option maxRecDepth 8192 in
theorem ops0_fresh : (ops0 : List (HloOp τ sig (Elt F))).Forall fun op => op.fresh = ∅ := by
  simp only [List.Forall]; repeat' constructor
set_option maxRecDepth 8192 in
theorem ops1_fresh : (ops1 : List (HloOp τ sig (Elt F))).Forall fun op => op.fresh = ∅ := by
  simp only [List.Forall]; repeat' constructor
set_option maxRecDepth 8192 in
theorem ops2_fresh : (ops2 : List (HloOp τ sig (Elt F))).Forall fun op => op.fresh = ∅ := by
  simp only [List.Forall]; repeat' constructor
set_option maxRecDepth 8192 in
theorem ops3_fresh : (ops3 : List (HloOp τ sig (Elt F))).Forall fun op => op.fresh = ∅ := by
  simp only [List.Forall]; repeat' constructor

theorem ops_fresh : ∀ op ∈ (ops : List (HloOp τ sig (Elt F))), op.fresh = ∅ := by
  intro op h
  simp only [ops, List.mem_append] at h
  rcases h with h | h | h | h
  · exact (List.forall_iff_forall_mem.mp ops0_fresh) op h
  · exact (List.forall_iff_forall_mem.mp ops1_fresh) op h
  · exact (List.forall_iff_forall_mem.mp ops2_fresh) op h
  · exact (List.forall_iff_forall_mem.mp ops3_fresh) op h

/-- From any memory with zero counters every weakly fair execution of the reference terminates, and every final state has
    each TensorCore buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Run

end
-- ==== Proof.RefValue.lean ====
/- The fold of the reference's operations, read at the result buffer, is the specification's composition of stages applied
   to the argument buffers; and no operation writes an argument. The operations come in four lists; each list is read
   on its own, from an arbitrary valuation, at the few buffers the next list reads, and the four readings are chained. -/
import proofs.«413006_j28346784153649_1_alg».proof.Proof.RefRun
import proofs.«413006_j28346784153649_1_alg».proof.Proof.Spec

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

local notation:max W:max "⟪" r "⟫" => W (Proc.devRef Proc.tc r)

namespace RefValue

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The argument buffers. -/
abbrev args : List (Ref sig .tc) :=
  [main_arg0, main_arg1, main_arg2, main_arg3, main_arg4, main_arg5, main_arg6, main_arg7, main_arg8, main_arg9,
    main_arg10, main_arg11, main_arg12, main_arg13, main_arg14]

-- the large host operations stay closed: two sides are compared operation by operation, never by unfolding a fold over the edges
attribute [local irreducible] Host.gather Host.scatterAdd Host.reduceAdd Host.rsqrt Host.sqrt Host.expm1 Host.powf

/-! ## Part 0: the first projection, the first convolution with its bias, and the row mean that opens the layer norm -/

set_option maxHeartbeats 4000000 in
theorem p0_arg (W : Valuation τ sig (Elt F)) (b : Ref sig .tc) (hb : b ∈ args) : (after ops0 W)⟪b⟫ = W⟪b⟫ := by
  simp only [args, List.mem_cons, List.mem_nil_iff, or_false] at hb
  rcases hb with rfl | rfl | rfl | rfl | rfl | rfl | rfl | rfl | rfl | rfl | rfl | rfl | rfl | rfl | rfl <;> after_results_simp

set_option maxHeartbeats 4000000 in
theorem p0_v43 (W : Valuation τ sig (Elt F)) :
    (after ops0 W)⟪main_v43⟫
      = addf (Spec.conv (Spec.proj W⟪main_arg0⟫ W⟪main_arg4⟫) W⟪main_arg1⟫ W⟪main_arg2⟫) (Spec.rows (Spec.rowOf W⟪main_arg5⟫)) := by
  after_results_simp
  rfl

set_option maxHeartbeats 4000000 in
theorem p0_v47 (W : Valuation τ sig (Elt F)) :
    (after ops0 W)⟪main_v47⟫
      = Spec.rowMean (addf (Spec.conv (Spec.proj W⟪main_arg0⟫ W⟪main_arg4⟫) W⟪main_arg1⟫ W⟪main_arg2⟫)
          (Spec.rows (Spec.rowOf W⟪main_arg5⟫))) := by
  after_results_simp
  rfl

/-! ## Part 1: the rest of the first layer norm, ELU, the second projection, and the second layer's degree and coefficients -/

set_option maxHeartbeats 4000000 in
theorem p1_arg (W : Valuation τ sig (Elt F)) (b : Ref sig .tc) (hb : b ∈ args) : (after ops1 W)⟪b⟫ = W⟪b⟫ := by
  simp only [args, List.mem_cons, List.mem_nil_iff, or_false] at hb
  rcases hb with rfl | rfl | rfl | rfl | rfl | rfl | rfl | rfl | rfl | rfl | rfl | rfl | rfl | rfl | rfl <;> after_results_simp

set_option maxHeartbeats 4000000 in
theorem p1_v69 (W : Valuation τ sig (Elt F)) (X : Spec.FA F S100000x128) (a6 a7 : Spec.FA F S128) (a8 : Spec.FA F S128x128)
    (h43 : W⟪main_v43⟫ = X) (h47 : W⟪main_v47⟫ = Spec.rowMean X)
    (h6 : W⟪main_arg6⟫ = a6) (h7 : W⟪main_arg7⟫ = a7) (h8 : W⟪main_arg8⟫ = a8) :
    (after ops1 W)⟪main_v69⟫ = Spec.proj (Spec.elu (Spec.lnorm X (Spec.rowOf a6) (Spec.rowOf a7))) a8 := by
  subst h43 h6 h7 h8
  after_results_simp
  rw [h47]
  rfl

set_option maxHeartbeats 4000000 in
theorem p1_v76 (W : Valuation τ sig (Elt F)) (d : Spec.IA F S1600000) (h2 : W⟪main_arg2⟫ = d) :
    (after ops1 W)⟪main_v76⟫ = Spec.dinv d := by
  subst h2
  after_results_simp
  rfl

set_option maxHeartbeats 4000000 in
theorem p1_v92 (W : Valuation τ sig (Elt F)) (s d : Spec.IA F S1600000) (h1 : W⟪main_arg1⟫ = s) (h2 : W⟪main_arg2⟫ = d) :
    (after ops1 W)⟪main_v92⟫ = Spec.coef s d := by
  subst h1 h2
  after_results_simp
  rfl

set_option maxHeartbeats 4000000 in
theorem p1_v94 (W : Valuation τ sig (Elt F)) (s : Spec.IA F S1600000) (h1 : W⟪main_arg1⟫ = s) :
    (after ops1 W)⟪main_v94⟫ = cmpi .slt s (broadcastInDim S1600000 ![] bcast_S_S1600000 (constantI S_ 32 0#32)) := by
  subst h1
  after_results_simp

set_option maxHeartbeats 4000000 in
theorem p1_v95 (W : Valuation τ sig (Elt F)) :
    (after ops1 W)⟪main_v95⟫ = broadcastInDim S1600000 ![] bcast_S_S1600000 (constantI S_ 32 100000#32) := by
  after_results_simp

/-! ## Part 2: the second convolution with its bias, the second layer norm, ELU, and the start of the blend -/

set_option maxHeartbeats 4000000 in
theorem p2_arg (W : Valuation τ sig (Elt F)) (b : Ref sig .tc) (hb : b ∈ args) : (after ops2 W)⟪b⟫ = W⟪b⟫ := by
  simp only [args, List.mem_cons, List.mem_nil_iff, or_false] at hb
  rcases hb with rfl | rfl | rfl | rfl | rfl | rfl | rfl | rfl | rfl | rfl | rfl | rfl | rfl | rfl | rfl <;> after_results_simp

section Part2

variable (W : Valuation τ sig (Elt F)) (Y : Spec.FA F S100000x128) (s d : Spec.IA F S1600000) (a9 a10 a11 : Spec.FA F S128)
  (h69 : W⟪main_v69⟫ = Y) (h1 : W⟪main_arg1⟫ = s) (h2 : W⟪main_arg2⟫ = d)
  (h76 : W⟪main_v76⟫ = Spec.dinv d) (h92 : W⟪main_v92⟫ = Spec.coef s d)
  (h94 : W⟪main_v94⟫ = cmpi .slt s (broadcastInDim S1600000 ![] bcast_S_S1600000 (constantI S_ 32 0#32)))
  (h95 : W⟪main_v95⟫ = broadcastInDim S1600000 ![] bcast_S_S1600000 (constantI S_ 32 100000#32))
  (h9 : W⟪main_arg9⟫ = a9) (h10 : W⟪main_arg10⟫ = a10) (h11 : W⟪main_arg11⟫ = a11)

include h69 h1 h2 h76 h92 h94 h95 h9 h10 h11

set_option maxHeartbeats 4000000 in
theorem p2_v137 :
    (after ops2 W)⟪main_v137⟫ = Spec.layer Y s d (Spec.rowOf a9) (Spec.rowOf a10) (Spec.rowOf a11) := by
  subst h69 h1 h2 h9 h10 h11
  after_results_simp
  rw [h76, h92, h94, h95]
  rfl

set_option maxHeartbeats 4000000 in
theorem p2_v139 :
    (after ops2 W)⟪main_v139⟫
      = mulf (broadcastInDim S100000x128 ![] bcast_S_S100000x128 (constant S_ .f32 0x3F19999A#32))
          (Spec.layer Y s d (Spec.rowOf a9) (Spec.rowOf a10) (Spec.rowOf a11)) := by
  subst h69 h1 h2 h9 h10 h11
  after_results_simp
  rw [h76, h92, h94, h95]
  rfl

set_option maxHeartbeats 4000000 in
theorem p2_v145 :
    (after ops2 W)⟪main_v145⟫
      = Host.sqrt (addf (broadcastInDim S100000x1 ![0] bcast_S100000_S100000x1_0
            (Host.reduceAdd (mulf (Spec.layer Y s d (Spec.rowOf a9) (Spec.rowOf a10) (Spec.rowOf a11))
                (Spec.layer Y s d (Spec.rowOf a9) (Spec.rowOf a10) (Spec.rowOf a11)))
              (constant S_ .f32 0x00000000#32) reducesTo_S100000x128_S100000_d1 h_S_))
          (broadcastInDim S100000x1 ![] bcast_S_S100000x1 (constant S_ .f32 0x358637BD#32))) := by
  subst h69 h1 h2 h9 h10 h11
  after_results_simp
  rw [h76, h92, h94, h95]
  rfl

end Part2

set_option maxHeartbeats 4000000 in
theorem p2_cst31 (W : Valuation τ sig (Elt F)) : (after ops2 W)⟪main_cst_31⟫ = constant S_ .f32 0x3FC00000#32 := by
  after_results_simp

/-! ## Part 3: the rest of the blend, the pooling, and the classifier -/

set_option maxHeartbeats 4000000 in
theorem p3_arg (W : Valuation τ sig (Elt F)) (b : Ref sig .tc) (hb : b ∈ args) : (after ops3 W)⟪b⟫ = W⟪b⟫ := by
  simp only [args, List.mem_cons, List.mem_nil_iff, or_false] at hb
  rcases hb with rfl | rfl | rfl | rfl | rfl | rfl | rfl | rfl | rfl | rfl | rfl | rfl | rfl | rfl | rfl <;> after_results_simp

set_option maxHeartbeats 4000000 in
theorem p3_out (W : Valuation τ sig (Elt F)) (H : Spec.FA F S100000x128) (a3 : Spec.IA F S100000) (a12 : Spec.FA F S10x128)
    (a13 a14 : Spec.FA F S10)
    (h137 : W⟪main_v137⟫ = H)
    (h139 : W⟪main_v139⟫ = mulf (broadcastInDim S100000x128 ![] bcast_S_S100000x128 (constant S_ .f32 0x3F19999A#32)) H)
    (h145 : W⟪main_v145⟫ = Host.sqrt (addf (broadcastInDim S100000x1 ![0] bcast_S100000_S100000x1_0
            (Host.reduceAdd (mulf H H) (constant S_ .f32 0x00000000#32) reducesTo_S100000x128_S100000_d1 h_S_))
          (broadcastInDim S100000x1 ![] bcast_S_S100000x1 (constant S_ .f32 0x358637BD#32))))
    (hc : W⟪main_cst_31⟫ = constant S_ .f32 0x3FC00000#32)
    (h3 : W⟪main_arg3⟫ = a3) (h12 : W⟪main_arg12⟫ = a12) (h13 : W⟪main_arg13⟫ = a13) (h14 : W⟪main_arg14⟫ = a14) :
    (after ops3 W)⟪main_v183⟫
      = Spec.classify (Spec.means (Spec.poolSums (Spec.blend H) a3) (Spec.poolCnts a3)) a12 a13 a14 := by
  subst h137 h3 h12 h13 h14
  after_results_simp
  rw [h139, h145, hc]
  rfl

/-! ## The whole run -/

theorem ops_split (V : Valuation τ sig (Elt F)) : after ops V = after ops3 (after ops2 (after ops1 (after ops0 V))) := by
  simp only [ops, after_append]

end RefValue

open RefValue

/-- The result buffer after all the operations: the specification of the arguments as found. -/
theorem out_eq (V : Valuation τ sig (Elt F)) :
    after ops V (Proc.devRef .tc main_v183)
      = Spec.out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14)) := by
  rw [ops_split]
  -- part 0 from the launch contents
  have k0 := p0_arg V
  have e43 := p0_v43 V
  have e47 := p0_v47 V
  generalize after ops0 V = W1 at k0 e43 e47 ⊢
  -- part 1
  have k1 : ∀ b ∈ args, (after ops1 W1)⟪b⟫ = V⟪b⟫ := fun b hb => (p1_arg W1 b hb).trans (k0 b hb)
  have e69 := p1_v69 W1 _ _ _ _ e43 e47 (k0 main_arg6 (by decide)) (k0 main_arg7 (by decide)) (k0 main_arg8 (by decide))
  have e76 := p1_v76 W1 _ (k0 main_arg2 (by decide))
  have e92 := p1_v92 W1 _ _ (k0 main_arg1 (by decide)) (k0 main_arg2 (by decide))
  have e94 := p1_v94 W1 _ (k0 main_arg1 (by decide))
  have e95 := p1_v95 W1
  generalize after ops1 W1 = W2 at k1 e69 e76 e92 e94 e95 ⊢
  clear k0 e43 e47 W1
  -- part 2
  have k2 : ∀ b ∈ args, (after ops2 W2)⟪b⟫ = V⟪b⟫ := fun b hb => (p2_arg W2 b hb).trans (k1 b hb)
  have e137 := p2_v137 W2 _ _ _ _ _ _ e69 (k1 main_arg1 (by decide)) (k1 main_arg2 (by decide)) e76 e92 e94 e95
    (k1 main_arg9 (by decide)) (k1 main_arg10 (by decide)) (k1 main_arg11 (by decide))
  have e139 := p2_v139 W2 _ _ _ _ _ _ e69 (k1 main_arg1 (by decide)) (k1 main_arg2 (by decide)) e76 e92 e94 e95
    (k1 main_arg9 (by decide)) (k1 main_arg10 (by decide)) (k1 main_arg11 (by decide))
  have e145 := p2_v145 W2 _ _ _ _ _ _ e69 (k1 main_arg1 (by decide)) (k1 main_arg2 (by decide)) e76 e92 e94 e95
    (k1 main_arg9 (by decide)) (k1 main_arg10 (by decide)) (k1 main_arg11 (by decide))
  have ec := p2_cst31 W2
  generalize after ops2 W2 = W3 at k2 e137 e139 e145 ec ⊢
  clear k1 e69 e76 e92 e94 e95 W2
  -- part 3
  rw [p3_out W3 _ _ _ _ _ e137 e139 e145 ec (k2 main_arg3 (by decide)) (k2 main_arg12 (by decide))
    (k2 main_arg13 (by decide)) (k2 main_arg14 (by decide))]
  simp only [Spec.out, Spec.layer]

/-- An argument buffer is as found after all the operations (none writes it). -/
theorem arg_eq (V : Valuation τ sig (Elt F)) (b : Ref sig .tc)
    (hb : b ∈ [main_arg0, main_arg1, main_arg2, main_arg3, main_arg4, main_arg5, main_arg6, main_arg7, main_arg8, main_arg9,
      main_arg10, main_arg11, main_arg12, main_arg13, main_arg14]) :
    after ops V (Proc.devRef .tc b) = V (Proc.devRef .tc b) := by
  rw [ops_split, p3_arg _ b hb, p2_arg _ b hb, p1_arg _ b hb, p0_arg _ b hb]

end Cert.ReferenceIdeal.Run
end
-- ==== Proof.lean ====
/-
  A two-layer graph convolution network with layer normalisation, ELU, a B-cos blend, mean pooling over graphs and a
  weight-normalised classifier; the kernel's program runs six TensorCore regions among host stretches, the reference is one
  straight line of host operations. Over the extended reals the two compute one function of the arguments, the
  specification `Spec.out`: the host stretches (degrees, edge coefficients, the gather – scale – scatter-add aggregation) are
  the same operations on both sides; a projection kernel's blocks tile the matrix product, whose entries are the same sums
  as the host's contraction; the fused kernels compute, row by row of 128, the same mean, variance, inverse root, scale and
  shift, `exp x - 1` where the reference takes expm1, and the blend with the reference's zeroth power read as one; the
  pooling kernel's one-hot products over 49 tiles of padded rows add up, graph by graph, to the segment sums (a padded row
  carries the word -1, no graph's number); the classifier kernel divides, normalises and contracts as the reference does.
  The three frames: the kernels' are the generated launch certificates, the reference's its run with every argument buffer
  read back unchanged. The one ledger entry (a bf16 round trip of the one-hot removed before its row sum) is the rule's
  own statement.
-/
import proofs.«413006_j28346784153649_1_alg».proof.Defs
import proofs.«413006_j28346784153649_1_alg».proof.Proof.Gen.Kernel
import proofs.«413006_j28346784153649_1_alg».proof.Proof.Gen.Kernel.Frame
import proofs.«413006_j28346784153649_1_alg».proof.Proof.Gen.KernelIdeal
import proofs.«413006_j28346784153649_1_alg».proof.Proof.Gen.KernelIdeal.Frame
import proofs.«413006_j28346784153649_1_alg».proof.Proof.Gen.ReferenceIdeal
import proofs.«413006_j28346784153649_1_alg».proof.Proof.Gen.Pre_finite_inputs
import proofs.«413006_j28346784153649_1_alg».proof.Proof.KRun
import proofs.«413006_j28346784153649_1_alg».proof.Proof.KChain
import proofs.«413006_j28346784153649_1_alg».proof.Proof.RefRun
import proofs.«413006_j28346784153649_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument buffer. -/
theorem frame_ri : Cert.frame_ReferenceIdeal := fun m ρ _ =>
  (θ_run Cert.ReferenceIdeal.defs _ _).mono (fun r h c =>
    ⟨(h c Cert.ReferenceIdeal.main_arg0).trans (Cert.ReferenceIdeal.Run.arg_eq _ Cert.ReferenceIdeal.main_arg0 (by decide)),
     (h c Cert.ReferenceIdeal.main_arg1).trans (Cert.ReferenceIdeal.Run.arg_eq _ Cert.ReferenceIdeal.main_arg1 (by decide)),
     (h c Cert.ReferenceIdeal.main_arg2).trans (Cert.ReferenceIdeal.Run.arg_eq _ Cert.ReferenceIdeal.main_arg2 (by decide)),
     (h c Cert.ReferenceIdeal.main_arg3).trans (Cert.ReferenceIdeal.Run.arg_eq _ Cert.ReferenceIdeal.main_arg3 (by decide)),
     (h c Cert.ReferenceIdeal.main_arg4).trans (Cert.ReferenceIdeal.Run.arg_eq _ Cert.ReferenceIdeal.main_arg4 (by decide)),
     (h c Cert.ReferenceIdeal.main_arg5).trans (Cert.ReferenceIdeal.Run.arg_eq _ Cert.ReferenceIdeal.main_arg5 (by decide)),
     (h c Cert.ReferenceIdeal.main_arg6).trans (Cert.ReferenceIdeal.Run.arg_eq _ Cert.ReferenceIdeal.main_arg6 (by decide)),
     (h c Cert.ReferenceIdeal.main_arg7).trans (Cert.ReferenceIdeal.Run.arg_eq _ Cert.ReferenceIdeal.main_arg7 (by decide)),
     (h c Cert.ReferenceIdeal.main_arg8).trans (Cert.ReferenceIdeal.Run.arg_eq _ Cert.ReferenceIdeal.main_arg8 (by decide)),
     (h c Cert.ReferenceIdeal.main_arg9).trans (Cert.ReferenceIdeal.Run.arg_eq _ Cert.ReferenceIdeal.main_arg9 (by decide)),
     (h c Cert.ReferenceIdeal.main_arg10).trans (Cert.ReferenceIdeal.Run.arg_eq _ Cert.ReferenceIdeal.main_arg10 (by decide)),
     (h c Cert.ReferenceIdeal.main_arg11).trans (Cert.ReferenceIdeal.Run.arg_eq _ Cert.ReferenceIdeal.main_arg11 (by decide)),
     (h c Cert.ReferenceIdeal.main_arg12).trans (Cert.ReferenceIdeal.Run.arg_eq _ Cert.ReferenceIdeal.main_arg12 (by decide)),
     (h c Cert.ReferenceIdeal.main_arg13).trans (Cert.ReferenceIdeal.Run.arg_eq _ Cert.ReferenceIdeal.main_arg13 (by decide)),
     (h c Cert.ReferenceIdeal.main_arg14).trans (Cert.ReferenceIdeal.Run.arg_eq _ Cert.ReferenceIdeal.main_arg14 (by decide))⟩)
    (Cert.ReferenceIdeal.Run.run (F := Ideal) m ρ)

/-- The ledger's one entry: widening a value just narrowed to bf16 gives the value back, the rule's statement. -/
theorem preserves : Cert.preserves_Kernel_KernelIdeal :=
  IdealRules.truncf_extf.statement _ .f32 .bf16

/-- Both programs end with the specification of the arguments in their result buffer: the kernel's by its run read at the
    last boundary, the reference's by its fold read at the result, from memories that agree on the arguments. -/
theorem algebraic : Cert.algebraic_KernelIdeal_ReferenceIdeal := by
  intro m ρ m' ρ' _ hagree
  refine ⟨fun c => Cert.ReferenceIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Val.chain m ρ c), (h c).2⟩)
      (Cert.KernelIdeal.Gen.run_value (F := Ideal) m ρ)
  · refine (θ_run Cert.ReferenceIdeal.defs _ _).mono (fun r h c => ⟨?_,
      (h c Cert.ReferenceIdeal.main_arg0).trans (Cert.ReferenceIdeal.Run.arg_eq _ Cert.ReferenceIdeal.main_arg0 (by decide)),
      (h c Cert.ReferenceIdeal.main_arg1).trans (Cert.ReferenceIdeal.Run.arg_eq _ Cert.ReferenceIdeal.main_arg1 (by decide)),
      (h c Cert.ReferenceIdeal.main_arg2).trans (Cert.ReferenceIdeal.Run.arg_eq _ Cert.ReferenceIdeal.main_arg2 (by decide)),
      (h c Cert.ReferenceIdeal.main_arg3).trans (Cert.ReferenceIdeal.Run.arg_eq _ Cert.ReferenceIdeal.main_arg3 (by decide)),
      (h c Cert.ReferenceIdeal.main_arg4).trans (Cert.ReferenceIdeal.Run.arg_eq _ Cert.ReferenceIdeal.main_arg4 (by decide)),
      (h c Cert.ReferenceIdeal.main_arg5).trans (Cert.ReferenceIdeal.Run.arg_eq _ Cert.ReferenceIdeal.main_arg5 (by decide)),
      (h c Cert.ReferenceIdeal.main_arg6).trans (Cert.ReferenceIdeal.Run.arg_eq _ Cert.ReferenceIdeal.main_arg6 (by decide)),
      (h c Cert.ReferenceIdeal.main_arg7).trans (Cert.ReferenceIdeal.Run.arg_eq _ Cert.ReferenceIdeal.main_arg7 (by decide)),
      (h c Cert.ReferenceIdeal.main_arg8).trans (Cert.ReferenceIdeal.Run.arg_eq _ Cert.ReferenceIdeal.main_arg8 (by decide)),
      (h c Cert.ReferenceIdeal.main_arg9).trans (Cert.ReferenceIdeal.Run.arg_eq _ Cert.ReferenceIdeal.main_arg9 (by decide)),
      (h c Cert.ReferenceIdeal.main_arg10).trans (Cert.ReferenceIdeal.Run.arg_eq _ Cert.ReferenceIdeal.main_arg10 (by decide)),
      (h c Cert.ReferenceIdeal.main_arg11).trans (Cert.ReferenceIdeal.Run.arg_eq _ Cert.ReferenceIdeal.main_arg11 (by decide)),
      (h c Cert.ReferenceIdeal.main_arg12).trans (Cert.ReferenceIdeal.Run.arg_eq _ Cert.ReferenceIdeal.main_arg12 (by decide)),
      (h c Cert.ReferenceIdeal.main_arg13).trans (Cert.ReferenceIdeal.Run.arg_eq _ Cert.ReferenceIdeal.main_arg13 (by decide)),
      (h c Cert.ReferenceIdeal.main_arg14).trans (Cert.ReferenceIdeal.Run.arg_eq _ Cert.ReferenceIdeal.main_arg14 (by decide))⟩)
      (Cert.ReferenceIdeal.Run.run (F := Ideal) m' ρ')
    obtain ⟨e0, e1, e2, e3, e4, e5, e6, e7, e8, e9, e10, e11, e12, e13, e14⟩ := hagree c
    refine (h c Cert.ReferenceIdeal.main_v183).trans ((Cert.ReferenceIdeal.Run.out_eq _).trans ?_)
    show Cert.ReferenceIdeal.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
